-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000 : Shape := ⟨1, ![10000]⟩
abbrev S640000 : Shape := ⟨1, ![640000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000 : S_.BroadcastsInDim S10000 (![] : Fin 0 → Fin S10000.rank)
  reducesTo_S10000_S_d0 : S10000.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg2 : IVec S640000 32) (main_arg3 : IVec S640000 32) (main_v32 : IVec S_ 1) (main_c_12 : IVec S_ 32) : IVec S_ 1 :=
  let main_v33 : IVec S640000 32 := broadcastInDim S640000 ![] bcast_S_S640000 main_c_12
  let main_v34 : IVec S640000 1 := cmpi .slt main_arg2 main_v33
  let main_c_13 : IVec S_ 1 := constantI S_ 1 1#1
  let main_v35 : IVec S_ 1 := (fun x v => Host.reduce IntOp.andi x v reducesTo_S640000_S_d0 h_S_) main_v34 main_c_13
  let main_v36 : IVec S_ 1 := andi main_v32 main_v35
  let main_c_14 : IVec S_ 32 := constantI S_ 32 0#32
  let main_v37 : IVec S640000 32 := broadcastInDim S640000 ![] bcast_S_S640000 main_c_14
  let main_v38 : IVec S640000 1 := cmpi .sge main_arg3 main_v37
  let main_c_15 : IVec S_ 1 := constantI S_ 1 1#1
  let main_v39 : IVec S_ 1 := (fun x v => Host.reduce IntOp.andi x v reducesTo_S640000_S_d0 h_S_) main_v38 main_c_15
  let main_v40 : IVec S_ 1 := andi main_v36 main_v39
  let main_c_16 : IVec S_ 32 := constantI S_ 32 10000#32
  let main_v41 : IVec S640000 32 := broadcastInDim S640000 ![] bcast_S_S640000 main_c_16
  let main_v42 : IVec S640000 1 := cmpi .slt main_arg3 main_v41
  let main_c_17 : IVec S_ 1 := constantI S_ 1 1#1
  let main_v43 : IVec S_ 1 := (fun x v => Host.reduce IntOp.andi x v reducesTo_S640000_S_d0 h_S_) main_v42 main_c_17
  let main_v44 : IVec S_ 1 := andi main_v40 main_v43
  main_v44

def fn_part1 {F : FTy → Type} [FloatOps F] (main_arg2 : IVec S640000 32) (main_arg3 : IVec S640000 32) (main_arg6 : FVec F S16x8 .f32) (main_arg7 : FVec F S8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x8 .f32 := Host.absf main_arg6
  let main_cst_6 : FVec F S_ .f32 := constant S_ .f32 0x7F800000#32
  let main_v20 : FVec F S16x8 .f32 := broadcastInDim S16x8 ![] bcast_S_S16x8 main_cst_6
  let main_v21 : IVec S16x8 1 := cmpf .olt main_v19 main_v20
  let main_c_7 : IVec S_ 1 := constantI S_ 1 1#1
  let main_v22 : IVec S_ 1 := (fun x v => Host.reduce IntOp.andi x v reducesTo_S16x8_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_c_10 : IVec S_ 32 := constantI S_ 32 0#32
  let main_v29 : IVec S640000 32 := broadcastInDim S640000 ![] bcast_S_S640000 main_c_10
  let main_v30 : IVec S640000 1 := cmpi .sge main_arg2 main_v29
  let main_c_11 : IVec S_ 1 := constantI S_ 1 1#1
  let main_v31 : IVec S_ 1 := (fun x v => Host.reduce IntOp.andi x v reducesTo_S640000_S_d0 h_S_) main_v30 main_c_11
  let main_v32 : IVec S_ 1 := andi main_v28 main_v31
  let main_c_12 : IVec S_ 32 := constantI S_ 32 10000#32
  fn_part2 (F := F) main_arg2 main_arg3 main_v32 main_c_12

def fn {F : FTy → Type} [FloatOps F] (main_arg0 : FVec F S10000x128 .f32) (main_arg1 : FVec F S10000 .f32) (main_arg2 : IVec S640000 32) (main_arg3 : IVec S640000 32) (main_arg4 : FVec F S128x16 .f32) (main_arg5 : FVec F S16 .f32) (main_arg6 : FVec F S16x8 .f32) (main_arg7 : FVec F S8 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000 .f32 := Host.absf main_arg1
  let main_cst_0 : FVec F S_ .f32 := constant S_ .f32 0x7F800000#32
  let main_v5 : FVec F S10000 .f32 := broadcastInDim S10000 ![] bcast_S_S10000 main_cst_0
  let main_v6 : IVec S10000 1 := cmpf .olt main_v4 main_v5
  let main_c_1 : IVec S_ 1 := constantI S_ 1 1#1
  let main_v7 : IVec S_ 1 := (fun x v => Host.reduce IntOp.andi x v reducesTo_S10000_S_d0 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg2 main_arg3 main_arg6 main_arg7 main_v13 main_v16
-- ==== Kernel.lean ====
abbrev S10000x128 : Shape := ⟨2, ![10000, 128]⟩
abbrev S10000 : Shape := ⟨1, ![10000]⟩
abbrev S640000 : Shape := ⟨1, ![640000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩
abbrev S640000x1 : Shape := ⟨2, ![640000, 1]⟩
abbrev S10000x10000 : Shape := ⟨2, ![10000, 10000]⟩
abbrev S640000x2 : Shape := ⟨2, ![640000, 2]⟩
abbrev S1x16 : Shape := ⟨2, ![1, 16]⟩
abbrev S1x8 : Shape := ⟨2, ![1, 8]⟩
abbrev S10000x16 : Shape := ⟨2, ![10000, 16]⟩
abbrev S400x10000 : Shape := ⟨2, ![400, 10000]⟩
abbrev S400x16 : Shape := ⟨2, ![400, 16]⟩
abbrev S400x128 : Shape := ⟨2, ![400, 128]⟩
abbrev S400x8 : Shape := ⟨2, ![400, 8]⟩

abbrev nBuf : Space → Nat
  | .hbm => 57
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S640000, .i32⟩
  | .hbm, ⟨3, _⟩ => ⟨S640000, .i32⟩
  | .hbm, ⟨4, _⟩ => ⟨S128x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000, .f32⟩
  | .hbm, ⟨26, _⟩ => ⟨S640000, .f32⟩
  | .hbm, ⟨27, _⟩ => ⟨S_, .f32⟩
  | .hbm, ⟨28, _⟩ => ⟨S10000x10000, .f32⟩
  | .hbm, ⟨29, _⟩ => ⟨S_, .i32⟩
  | .hbm, ⟨30, _⟩ => ⟨S640000, .i32⟩
  | .hbm, ⟨31, _⟩ => ⟨S640000, .i1⟩
  | .hbm, ⟨32, _⟩ => ⟨S_, .i32⟩
  | .hbm, ⟨33, _⟩ => ⟨S640000, .i32⟩
  | .hbm, ⟨34, _⟩ => ⟨S640000, .i32⟩
  | .hbm, ⟨35, _⟩ => ⟨S640000, .i32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x1, .i32⟩
  | .hbm, ⟨45, _⟩ => ⟨S640000x2, .i32⟩
  | .hbm, ⟨46, _⟩ => ⟨S10000x10000, .f32⟩
  | .hbm, ⟨47, _⟩ => ⟨S10000x10000, .bf16⟩
  | .hbm, ⟨48, _⟩ => ⟨S10000x128, .bf16⟩
  | .hbm, ⟨49, _⟩ => ⟨S128x16, .bf16⟩
  | .hbm, ⟨50, _⟩ => ⟨S16x8, .bf16⟩
  | .hbm, ⟨51, _⟩ => ⟨S1x16, .f32⟩
  | .hbm, ⟨52, _⟩ => ⟨S1x8, .f32⟩
  | .hbm, ⟨53, _⟩ => ⟨S10000x16, .f32⟩
  | .hbm, ⟨54, _⟩ => ⟨S10000x16, .bf16⟩
  | .hbm, ⟨55, _⟩ => ⟨S1x8, .f32⟩
  | .hbm, ⟨56, _⟩ => ⟨S8, .f32⟩
  | .local _ .vmem, ⟨0, _⟩ => ⟨S400x10000, .bf16⟩
  | .local _ .vmem, ⟨1, _⟩ => ⟨S400x10000, .bf16⟩
  | .local _ .vmem, ⟨2, _⟩ => ⟨S10000x128, .bf16⟩
  | .local _ .vmem, ⟨3, _⟩ => ⟨S128x16, .bf16⟩
  | .local _ .vmem, ⟨4, _⟩ => ⟨S1x16, .f32⟩
  | .local _ .vmem, ⟨5, _⟩ => ⟨S400x16, .f32⟩
  | .local _ .vmem, ⟨6, _⟩ => ⟨S400x16, .f32⟩
  | .local _ .vmem, ⟨7, _⟩ => ⟨S400x10000, .bf16⟩
  | .local _ .vmem, ⟨8, _⟩ => ⟨S400x10000, .bf16⟩
  | .local _ .vmem, ⟨9, _⟩ => ⟨S10000x16, .bf16⟩
  | .local _ .vmem, ⟨10, _⟩ => ⟨S16x8, .bf16⟩
  | .local _ .vmem, ⟨11, _⟩ => ⟨S1x8, .f32⟩
  | .local _ .vmem, ⟨12, _⟩ => ⟨S1x8, .f32⟩
  | .local _ .vmem, ⟨13, _⟩ => ⟨S1x8, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v23 : BitVec 1 := Scalar.cmpi .eq arg0 c24_i32
  let v24 : BitVec 32 := Scalar.extui v23
  let c0_i32_14 : BitVec 32 := 0#32
  let v25 : BitVec 1 := Scalar.cmpi .ne v24 c0_i32_14
  v25

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x8 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x10000 : S_.BroadcastsInDim S10000x10000 (![] : Fin 0 → Fin S10000x10000.rank)
  concatenates_S640000x1_S640000x1_S640000x2_d1 : Shape.Concatenates [S640000x1, S640000x1] S640000x2 1
  bitsLt_bf16_f32 : FTy.bits .bf16 < FTy.bits .f32
  shapeCasts_S16_S1x16 : S16.ShapeCasts S1x16
  shapeCasts_S8_S1x8 : S8.ShapeCasts S1x8
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  broadcasts_S1x8_S400x8 : S1x8.Broadcasts S400x8
  reduces_S400x8_S8 : S400x8.Reduces [0] S8
  shapeCasts_S1x8_S8 : S1x8.ShapeCasts S8
  gather_S10000_S640000x1_S640000_n_0_n_n_0_1_1_wf : GatherDims.WF S10000 S640000x1 S640000 [] [0] [] [0] [] 1 ![1]
  scatter_S10000x10000_S640000x2_S640000_n_01_01_1_wf : ScatterDims.WF S10000x10000 S640000x2 S640000 [] [0, 1] [0, 1] 1
  dot_S400x10000_S10000x128_S400x128_1_0_0_1_n_n_wf : DotDims.WF S400x10000 S10000x128 S400x128 [1] [0] [0] [1] [] []
  dot_S400x128_S128x16_S400x16_1_0_0_1_n_n_wf : DotDims.WF S400x128 S128x16 S400x16 [1] [0] [0] [1] [] []
  dot_S400x10000_S10000x16_S400x16_1_0_0_1_n_n_wf : DotDims.WF S400x10000 S10000x16 S400x16 [1] [0] [0] [1] [] []
  dot_S400x16_S16x8_S400x8_1_0_0_1_n_n_wf : DotDims.WF S400x16 S16x8 S400x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .bf16 = 32 ∨ (Rect.block (s := S10000x10000) S400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .bf16 = 32 ∨ (Rect.block (s := S128x16) S128x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .bf16 = 32 ∨ (Rect.block (s := S10000x16) S10000x16.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x8.size a ≤ S16x8.size a
  hwx1_2 : ∀ i : grid1.Coords, EltTy.bits .bf16 = 32 ∨ (Rect.block (s := S16x8) S16x8.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x8.size a ≤ S1x8.size a
  hwx1_3 : ∀ i : grid1.Coords, EltTy.bits .f32 = 32 ∨ (Rect.block (s := S1x8) S1x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)

variable [Facts₀]

def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def scatter_S10000x10000_S640000x2_S640000_n_01_01_1 : ScatterDims S10000x10000 S640000x2 S640000 where
  updateWindowDims := []
  insertedWindowDims := [0, 1]
  scatterDimsToOperandDims := [0, 1]
  indexVectorDim := 1
  wf := scatter_S10000x10000_S640000x2_S640000_n_01_01_1_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x8_S400x8_1_0_0_1_n_n : DotDims S400x16 S16x8 S400x8 where
  lhsContracting := [1]
  rhsContracting := [0]
  lhsNonContracting := [0]
  rhsNonContracting := [1]
  lhsBatch := []
  rhsBatch := []
  wf := dot_S400x16_S16x8_S400x8_1_0_0_1_n_n_wf

abbrev win0_0 : Pipeline.Window sig grid0 :=
  Pipeline.Window.ofSpec (Memref.whole main_v30) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v34) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S16x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x8.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000 : Shape := ⟨1, ![10000]⟩
abbrev S640000 : Shape := ⟨1, ![640000]⟩
abbrev S128x16 : Shape := ⟨2, ![128, 16]⟩
abbrev S16 : Shape := ⟨1, ![16]⟩
abbrev S16x8 : Shape := ⟨2, ![16, 8]⟩
abbrev S8 : Shape := ⟨1, ![8]⟩
abbrev S_ : Shape := ⟨0, ![]⟩
abbrev S640000x1 : Shape := ⟨2, ![640000, 1]⟩
abbrev S640000x128 : Shape := ⟨2, ![640000, 128]⟩
abbrev S10000x16 : Shape := ⟨2, ![10000, 16]⟩
abbrev S1x16 : Shape := ⟨2, ![1, 16]⟩
abbrev S640000x16 : Shape := ⟨2, ![640000, 16]⟩
abbrev S10000x8 : Shape := ⟨2, ![10000, 8]⟩
abbrev S1x8 : Shape := ⟨2, ![1, 8]⟩

abbrev nBuf : Space → Nat
  | .hbm => 75
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000, .f32⟩
  | .hbm, ⟨2, _⟩ => ⟨S640000, .i32⟩
  | .hbm, ⟨3, _⟩ => ⟨S640000, .i32⟩
  | .hbm, ⟨4, _⟩ => ⟨S128x16, .f32⟩
  | .hbm, ⟨5, _⟩ => ⟨S16, .f32⟩
  | .hbm, ⟨6, _⟩ => ⟨S16x8, .f32⟩
  | .hbm, ⟨7, _⟩ => ⟨S8, .f32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000, .f32⟩
  | .hbm, ⟨26, _⟩ => ⟨S640000, .f32⟩
  | .hbm, ⟨27, _⟩ => ⟨S640000x1, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S10000x128, .f32⟩
  | .hbm, ⟨41, _⟩ => ⟨S640000x1, .i32⟩
  | .hbm, ⟨42, _⟩ => ⟨S10000x128, .f32⟩
  | .hbm, ⟨43, _⟩ => ⟨S10000x16, .f32⟩
  | .hbm, ⟨44, _⟩ => ⟨S1x16, .f32⟩
  | .hbm, ⟨45, _⟩ => ⟨S10000x16, .f32⟩
  | .hbm, ⟨46, _⟩ => ⟨S10000x16, .f32⟩
  | .hbm, ⟨47, _⟩ => ⟨S_, .f32⟩
  | .hbm, ⟨48, _⟩ => ⟨S10000x16, .f32⟩
  | .hbm, ⟨49, _⟩ => ⟨S10000x16, .f32⟩
  | .hbm, ⟨50, _⟩ => ⟨S640000x1, .f32⟩
  | .hbm, ⟨51, _⟩ => ⟨S_, .i32⟩
  | .hbm, ⟨52, _⟩ => ⟨S640000, .i32⟩
  | .hbm, ⟨53, _⟩ => ⟨S640000, .i1⟩
  | .hbm, ⟨54, _⟩ => ⟨S_, .i32⟩
  | .hbm, ⟨55, _⟩ => ⟨S640000, .i32⟩
  | .hbm, ⟨56, _⟩ => ⟨S640000, .i32⟩
  | .hbm, ⟨57, _⟩ => ⟨S640000, .i32⟩
  | .hbm, ⟨58, _⟩ => ⟨S640000x1, .i32⟩
  | .hbm, ⟨59, _⟩ => ⟨S640000x16, .f32⟩
  | .hbm, ⟨60, _⟩ => ⟨S640000x16, .f32⟩
  | .hbm, ⟨61, _⟩ => ⟨S640000x16, .f32⟩
  | .hbm, ⟨62, _⟩ => ⟨S_, .f32⟩
  | .hbm, ⟨63, _⟩ => ⟨S10000x16, .f32⟩
  | .hbm, ⟨64, _⟩ => ⟨S640000x1, .i32⟩
  | .hbm, ⟨65, _⟩ => ⟨S10000x16, .f32⟩
  | .hbm, ⟨66, _⟩ => ⟨S10000x8, .f32⟩
  | .hbm, ⟨67, _⟩ => ⟨S1x8, .f32⟩
  | .hbm, ⟨68, _⟩ => ⟨S10000x8, .f32⟩
  | .hbm, ⟨69, _⟩ => ⟨S10000x8, .f32⟩
  | .hbm, ⟨70, _⟩ => ⟨S_, .f32⟩
  | .hbm, ⟨71, _⟩ => ⟨S8, .f32⟩
  | .hbm, ⟨72, _⟩ => ⟨S_, .f32⟩
  | .hbm, ⟨73, _⟩ => ⟨S8, .f32⟩
  | .hbm, ⟨74, _⟩ => ⟨S8, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call0_cst : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S640000x1_S640000x128_0_1 : S640000x1.BroadcastsInDim S640000x128 (![0, 1] : Fin 2 → Fin S640000x128.rank)
  bcast_S_S10000x128 : S_.BroadcastsInDim S10000x128 (![] : Fin 0 → Fin S10000x128.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S640000x1_S640000x16_0_1 : S640000x1.BroadcastsInDim S640000x16 (![0, 1] : Fin 2 → Fin S640000x16.rank)
  bcast_S8_S1x8_1 : S8.BroadcastsInDim S1x8 (![1] : Fin 1 → Fin S1x8.rank)
  bcast_S1x8_S10000x8_0_1 : S1x8.BroadcastsInDim S10000x8 (![0, 1] : Fin 2 → Fin S10000x8.rank)
  reducesTo_S10000x8_S8_d0 : S10000x8.ReducesTo [0] S8
  h_S_ : 0 < S_.numel
  bcast_S_S8 : S_.BroadcastsInDim S8 (![] : Fin 0 → Fin S8.rank)
  gather_S10000_S640000x1_S640000_n_0_n_n_0_1_1_wf : GatherDims.WF S10000 S640000x1 S640000 [] [0] [] [0] [] 1 ![1]
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  dot_S10000x128_S128x16_S10000x16_1_0_0_1_n_n_wf : DotDims.WF S10000x128 S128x16 S10000x16 [1] [0] [0] [1] [] []
  gather_S10000x16_S640000x1_S640000x16_1_0_n_n_0_1_116_wf : GatherDims.WF S10000x16 S640000x1 S640000x16 [1] [0] [] [0] [] 1 ![1, 16]
  scatter_S10000x16_S640000x1_S640000x16_1_0_0_1_wf : ScatterDims.WF S10000x16 S640000x1 S640000x16 [1] [0] [0] 1
  dot_S10000x16_S16x8_S10000x8_1_0_0_1_n_n_wf : DotDims.WF S10000x16 S16x8 S10000x8 [1] [0] [0] [1] [] []

variable [Facts₀]

def gather_S10000_S640000x1_S640000_n_0_n_n_0_1_1 : GatherDims S10000 S640000x1 S640000 where
  offsetDims := []
  collapsedSliceDims := [0]
  operandBatchingDims := []
  startIndicesBatchingDims := []
  startIndexMap := [0]
  indexVectorDim := 1
  sliceSizes := ![1]
  wf := gather_S10000_S640000x1_S640000_n_0_n_n_0_1_1_wf
def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S10000x16_S640000x1_S640000x16_1_0_n_n_0_1_116 : GatherDims S10000x16 S640000x1 S640000x16 where
  offsetDims := [1]
  collapsedSliceDims := [0]
  operandBatchingDims := []
  startIndicesBatchingDims := []
  startIndexMap := [0]
  indexVectorDim := 1
  sliceSizes := ![1, 16]
  wf := gather_S10000x16_S640000x1_S640000x16_1_0_n_n_0_1_116_wf
def scatter_S10000x16_S640000x1_S640000x16_1_0_0_1 : ScatterDims S10000x16 S640000x1 S640000x16 where
  updateWindowDims := [1]
  insertedWindowDims := [0]
  scatterDimsToOperandDims := [0]
  indexVectorDim := 1
  wf := scatter_S10000x16_S640000x1_S640000x16_1_0_0_1_wf
def dot_S10000x16_S16x8_S10000x8_1_0_0_1_n_n : DotDims S10000x16 S16x8 S10000x8 where
  lhsContracting := [1]
  rhsContracting := [0]
  lhsNonContracting := [0]
  rhsNonContracting := [1]
  lhsBatch := []
  rhsBatch := []
  wf := dot_S10000x16_S16x8_S10000x8_1_0_0_1_n_n_wf

class Facts : Prop extends Facts₀ where

variable [Facts]
-- ==== Proof.KFrame0.lean ====
/-
  The first matrix-product region (25 grid points, a tile of 400 rows of the adjacency matrix per point) at
  any contents `V` of the core's buffers at its entry: what each window's staging buffer holds after the body, the body's
  triple, the pipeline's proof data and the body obligation.  The body loads the four operand blocks whole, computes
  `max ((A_tile · X) · W1 + b1) 0` and stores it over the whole output block; it keeps nothing between points.
-/
import proofs.«406582_j58411555225956_1_alg».proof.Proof.Gen.Kernel.Launch
import proofs.«406582_j58411555225956_1_alg».proof.Proof.Gen.Kernel.Skeleton
import proofs.«406582_j58411555225956_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, fetched there or not, for any proof data
    whose array is `V`'s and whose body leaves the block in place: where the window is not fetched its block index has
    not moved since the point before, and the window is neither cut nor ever idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, fetched there or not, for any proof data
    whose array is `V`'s and whose body leaves the block in place: where the window is not fetched its block index has
    not moved since the point before, and the window is neither cut nor ever idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, fetched there or not, for any proof data
    whose array is `V`'s and whose body leaves the block in place: where the window is not fetched its block index has
    not moved since the point before, and the window is neither cut nor ever idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, fetched there or not, for any proof data
    whose array is `V`'s and whose body leaves the block in place: where the window is not fetched its block index has
    not moved since the point before, and the window is neither cut nor ever idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S128x16 := Rect.unit (s := S128x16) ![0, 0] S128x16.size inb_S128x16_S128x16_0_0
abbrev r0_3 : Rect S1x16 := Rect.unit (s := S1x16) ![0, 0] S1x16.size inb_S1x16_S1x16_0_0
abbrev r0_4 : Rect S400x16 := Rect.unit (s := S400x16) ![0, 0] S400x16.size inb_S400x16_S400x16_0_0

/-- The output block after the body, from the four input blocks: its one store, over the whole block. -/
def out0_4 (x0 : Vec F S400x10000 .bf16) (x1 : Vec F S10000x128 .bf16) (x2 : Vec F S128x16 .bf16) (x3 : Vec F S1x16 .f32) : Vec F S400x16 .f32 :=
  View.canon [⟨r0_4, k0_pay1 (View.ld x0 r0_0) (View.ld x1 r0_1) (View.ld x2 r0_2) (View.ld x3 r0_3)⟩]

/-- The one store is over the whole 400×16 block, so every index of the block lies in its rectangle. -/
theorem cover0_4 (p0 : Vec F S400x16 .f32) (y : S400x16.Idx) :
    ∃ pc ∈ ([⟨r0_4, p0⟩] : List (View.Piece (Elt F) S400x16 .f32)), y ∈ pc.1.set :=
  View.cover_of_tiled [⟨r0_4, p0⟩] S400x16.size (by rfl) y

set_option maxHeartbeats 1000000 in
/-- The body's triple on whole staging buffers: with the four input buffers at `x0 … x3` and the output buffer at
    anything, the body runs to its continuation with the inputs as they were and the output at `out0_4 x0 x1 x2 x3`.
    It reads each input whole, reads the output once without using the value, and stores the payload of the four
    reads over the whole output block; the buffer after that one store is the canonical form of the store list
    because the store covers the block. -/
theorem sound_kernel0 (c : Dev nD) (E : Set ℕ) (i : grid0.Coords)
    (arg1 : Memref sig .tc .vmem S400x10000 .bf16) (harg1 : arg1.IsWhole)
    (arg2 : Memref sig .tc .vmem S10000x128 .bf16) (harg2 : arg2.IsWhole)
    (arg3 : Memref sig .tc .vmem S128x16 .bf16) (harg3 : arg3.IsWhole)
    (arg4 : Memref sig .tc .vmem S1x16 .f32) (harg4 : arg4.IsWhole)
    (arg5 : Memref sig .tc .vmem S400x16 .f32) (harg5 : arg5.IsWhole)
    (x0 : Vec F S400x10000 .bf16) (x1 : Vec F S10000x128 .bf16) (x2 : Vec F S128x16 .bf16) (x3 : Vec F S1x16 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__conv1_kernel i arg1 harg1 arg2 harg2 arg3 harg3 arg4 harg4 arg5 harg5) K := by
  simp only [cc0__conv1_kernel_eq_skeleton]; unfold cc0__conv1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the first pipeline on core `c`: the arrays as the region finds them; after the body each input's
    buffer at its block and the output's at `out0_4` of the input blocks; nothing kept between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is handed at point `t`: the invariant, the core's debts, and the five windows' current staging
    buffers, each at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KFrame1.lean ====
/-
  The second matrix-product region (25 grid points, a tile of 400 rows of the adjacency matrix per point) at any
  contents `V` of the core's buffers at its entry.  The body keeps a running sum in a scratch buffer of shape 1×8: at
  the first point it resets the scratch to zero; at every point it adds the column sums of `(A_tile · H) · W2 + b2` to the
  scratch; at the last point it stores the scratch times the constant `1/10000` into the output block.  The output window
  is idle (not stored, not written back) at every point but the last.
-/
import proofs.«406582_j58411555225956_1_alg».proof.Proof.Gen.Kernel.Launch
import proofs.«406582_j58411555225956_1_alg».proof.Proof.Gen.Kernel.Skeleton
import proofs.«406582_j58411555225956_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Grid point number `n` (taken modulo the 25 points, so that it is defined for every natural number). -/
def pt1 (n : ℕ) : Fin cfg1.N := ⟨n % 25, by rw [show cfg1.N = 25 from N_1]; exact Nat.mod_lt _ (by decide)⟩

theorem pt1_val (t : Fin cfg1.N) : pt1 t.val = t := by
  apply Fin.ext
  have h : t.val < 25 := lt_of_lt_of_eq t.isLt (show cfg1.N = 25 from N_1)
  show t.val % 25 = t.val
  exact Nat.mod_eq_of_lt h

/-- The scratch operand: a whole scoped buffer of the kernel's own. -/
abbrev scM1 : Memref sig .tc .vmem S1x8 .f32 := Memref.whole cc1_scratch0

/-- THE RUNNING SUM: what the scratch holds after the body at point `n` — the point's tile sum added to what the point
    before left, the first point starting from the zero vector the body has just stored. -/
def acc1 (c : Dev nD) : ℕ → Vec F S1x8 .f32
  | 0 => k1_pay2 (iblk1 V c 0 (pt1 0)) (iblk1 V c 1 (pt1 0)) (iblk1 V c 2 (pt1 0)) (iblk1 V c 3 (pt1 0)) (k1_pay1 (F := F))
  | n + 1 => k1_pay2 (iblk1 V c 0 (pt1 (n + 1))) (iblk1 V c 1 (pt1 (n + 1))) (iblk1 V c 2 (pt1 (n + 1))) (iblk1 V c 3 (pt1 (n + 1))) (acc1 c n)

/-- The core's scoped buffers that are neither a staging buffer of this pipeline nor its scratch, each at some contents. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region invariant before point `n`: before the first point every scoped buffer at anything; afterwards the
    scratch at the running sum the point before left, the other scoped buffers at anything, the generator register at
    some state. -/
def PhiS (c : Dev nD) : ℕ → sProp 𝕄
  | 0 => Pipeline.ΦA spec1 c
  | n + 1 => iprop(owns (c : Thread nD τ) scM1 fullShare (acc1 V c n) ∗ restS (F := F) c ∗ (∃ r, prngReg c r))

/-- The proof data of the second pipeline on core `c`: the arrays as the region finds them; after the body each input's
    buffer at its block; the output's at the running sum times the constant (consulted at the last point only: at the
    others the window is idle); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (acc1 V c t.val) := by dsimp only [dat1]

/-! ## The body's branch conditions, over the 25 grid points -/

/-- The condition of the body's first conditional (reset the running sum), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the body's second conditional (store the mean into the output block). -/
abbrev cond1_1 (i : grid1.Coords) : Prop := k1_cond2 i = 1#1
/-- It holds at the last point only. -/
theorem hcond1_1 : ∀ t : Fin cfg1.N, cond1_1 (grid1.coords t) ↔ t.val = 24 :=
  (by decide +kernel : ∀ t : Fin grid1.N, cond1_1 (grid1.coords t) ↔ t.val = 24)

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it holds the output window is live. -/
theorem liveAt1_4 : ∀ t : Fin cfg1.N, cond1_1 (grid1.coords t) → cfg1.idle 4 (grid1.coords t) = false := by decide +kernel

/-! ## The body on whole buffers, case by case -/

/-- The whole-block rectangle of a 1×8 vector, and the zero offsets spelt as a constant function. -/
abbrev r1_S : Rect S1x8 := Rect.unit (s := S1x8) ![0, 0] S1x8.size inb_S1x8_S1x8_0_0
theorem hzero1 : (![0, 0] : Fin 2 → ℕ) = fun _ => 0 := by funext a; fin_cases a <;> rfl

/-- One store over the whole 1×8 block covers it; so do two. -/
theorem cover1_one (p : Vec F S1x8 .f32) (y : S1x8.Idx) :
    ∃ pc ∈ ([⟨r1_S, p⟩] : List (View.Piece (Elt F) S1x8 .f32)), y ∈ pc.1.set :=
  ⟨_, List.mem_singleton_self _, View.mem_set_unit_zero (S := S1x8) hzero1 inb_S1x8_S1x8_0_0 y⟩
theorem cover1_two (p q : Vec F S1x8 .f32) (y : S1x8.Idx) :
    ∃ pc ∈ ([⟨r1_S, p⟩, ⟨r1_S, q⟩] : List (View.Piece (Elt F) S1x8 .f32)), y ∈ pc.1.set :=
  ⟨_, List.mem_cons_self, View.mem_set_unit_zero (S := S1x8) hzero1 inb_S1x8_S1x8_0_0 y⟩

set_option maxHeartbeats 1000000 in
/-- CASE A (the first point). With the four input buffers at `x0 … x3`, the output buffer at `xi4` and the scratch at
    anything, the body resets the scratch to the zero vector, reads it back, and stores the tile's column sums added to
    it; the output buffer is not touched. -/
theorem run1_A (c : Dev nD) (E : Set ℕ) (i : grid1.Coords)
    (arg1 : Memref sig .tc .vmem S400x10000 .bf16) (harg1 : arg1.IsWhole)
    (arg2 : Memref sig .tc .vmem S10000x16 .bf16) (harg2 : arg2.IsWhole)
    (arg3 : Memref sig .tc .vmem S16x8 .bf16) (harg3 : arg3.IsWhole)
    (arg4 : Memref sig .tc .vmem S1x8 .f32) (harg4 : arg4.IsWhole)
    (arg5 : Memref sig .tc .vmem S1x8 .f32) (harg5 : arg5.IsWhole)
    (arg6 : Memref sig .tc .vmem S1x8 .f32) (harg6 : arg6.IsWhole)
    (hc0 : cond1_0 i) (hc1 : ¬cond1_1 i)
    (x0 : Vec F S400x10000 .bf16) (x1 : Vec F S10000x16 .bf16) (x2 : Vec F S16x8 .bf16) (x3 : Vec F S1x8 .f32) (xi4 : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xi4 ∗ (∃ d, owns (c : Thread nD τ) arg6 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare xi4
            ∗ owns (c : Thread nD τ) arg6 fullShare (k1_pay2 x0 x1 x2 x3 (k1_pay1 (F := F)))) -∗ K ⟨⟩))
      ⊢ wp frame (wpE (defs₀ (F := F)) Variants.none c none) E
          (cc1__conv2_kernel i arg1 harg1 arg2 harg2 arg3 harg3 arg4 harg4 arg5 harg5 arg6 harg6) K := by
  simp only [cc1__conv2_kernel_eq_skeleton]; unfold cc1__conv2_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (cover1_two _ _), View.canon_cons_unit_zero (S := S1x8) hzero1]
  simp only [View.readAt_eq_ld, View.ld_unit_zero (S := S400x10000) hzero1, View.ld_unit_zero (S := S10000x16) hzero1,
    View.ld_unit_zero (S := S16x8) hzero1, View.ld_unit_zero (S := S1x8) hzero1, View.readCov_unit_zero (S := S1x8) _ hzero1]

set_option maxHeartbeats 1000000 in
/-- CASE B (a point between the first and the last). With the scratch at `xs`, the body stores the tile's column sums
    added to `xs` into the scratch; the output buffer is not touched. -/
theorem run1_B (c : Dev nD) (E : Set ℕ) (i : grid1.Coords)
    (arg1 : Memref sig .tc .vmem S400x10000 .bf16) (harg1 : arg1.IsWhole)
    (arg2 : Memref sig .tc .vmem S10000x16 .bf16) (harg2 : arg2.IsWhole)
    (arg3 : Memref sig .tc .vmem S16x8 .bf16) (harg3 : arg3.IsWhole)
    (arg4 : Memref sig .tc .vmem S1x8 .f32) (harg4 : arg4.IsWhole)
    (arg5 : Memref sig .tc .vmem S1x8 .f32) (harg5 : arg5.IsWhole)
    (arg6 : Memref sig .tc .vmem S1x8 .f32) (harg6 : arg6.IsWhole)
    (hc0 : ¬cond1_0 i) (hc1 : ¬cond1_1 i)
    (x0 : Vec F S400x10000 .bf16) (x1 : Vec F S10000x16 .bf16) (x2 : Vec F S16x8 .bf16) (x3 : Vec F S1x8 .f32) (xi4 : Vec F S1x8 .f32) (xs : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xi4 ∗ owns (c : Thread nD τ) arg6 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare xi4
            ∗ owns (c : Thread nD τ) arg6 fullShare (k1_pay2 x0 x1 x2 x3 xs)) -∗ K ⟨⟩))
      ⊢ wp frame (wpE (defs₀ (F := F)) Variants.none c none) E
          (cc1__conv2_kernel i arg1 harg1 arg2 harg2 arg3 harg3 arg4 harg4 arg5 harg5 arg6 harg6) K := by
  simp only [cc1__conv2_kernel_eq_skeleton]; unfold cc1__conv2_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (cover1_one _), View.canon_unit_zero (S := S1x8) hzero1]
  simp only [View.readAt_eq_ld, View.ld_unit_zero (S := S400x10000) hzero1, View.ld_unit_zero (S := S10000x16) hzero1,
    View.ld_unit_zero (S := S16x8) hzero1, View.ld_unit_zero (S := S1x8) hzero1]

set_option maxHeartbeats 1000000 in
/-- CASE C (the last point). With the scratch at `xs` and the output buffer at anything, the body stores the tile's
    column sums added to `xs` into the scratch, reads that sum back, and stores it times the constant over the whole
    output block. -/
theorem run1_C (c : Dev nD) (E : Set ℕ) (i : grid1.Coords)
    (arg1 : Memref sig .tc .vmem S400x10000 .bf16) (harg1 : arg1.IsWhole)
    (arg2 : Memref sig .tc .vmem S10000x16 .bf16) (harg2 : arg2.IsWhole)
    (arg3 : Memref sig .tc .vmem S16x8 .bf16) (harg3 : arg3.IsWhole)
    (arg4 : Memref sig .tc .vmem S1x8 .f32) (harg4 : arg4.IsWhole)
    (arg5 : Memref sig .tc .vmem S1x8 .f32) (harg5 : arg5.IsWhole)
    (arg6 : Memref sig .tc .vmem S1x8 .f32) (harg6 : arg6.IsWhole)
    (hc0 : ¬cond1_0 i) (hc1 : cond1_1 i)
    (x0 : Vec F S400x10000 .bf16) (x1 : Vec F S10000x16 .bf16) (x2 : Vec F S16x8 .bf16) (x3 : Vec F S1x8 .f32) (xs : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k1_pay3 (k1_pay2 x0 x1 x2 x3 xs))
            ∗ owns (c : Thread nD τ) arg6 fullShare (k1_pay2 x0 x1 x2 x3 xs)) -∗ K ⟨⟩))
      ⊢ wp frame (wpE (defs₀ (F := F)) Variants.none c none) E
          (cc1__conv2_kernel i arg1 harg1 arg2 harg2 arg3 harg3 arg4 harg4 arg5 harg5 arg6 harg6) K := by
  simp only [cc1__conv2_kernel_eq_skeleton]; unfold cc1__conv2_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover1_one _), View.canon_unit_zero (S := S1x8) hzero1]
    simp only [View.readAt_eq_ld, View.ld_unit_zero (S := S400x10000) hzero1, View.ld_unit_zero (S := S10000x16) hzero1,
    View.ld_unit_zero (S := S16x8) hzero1, View.ld_unit_zero (S := S1x8) hzero1, View.readCov_unit_zero (S := S1x8) _ hzero1]
  iexists _; isplitr
  swap; · iexact HS
  ipureintro
  sl_unfold_words
  rw [View.read_writes_eq_canon _ _ _ (cover1_one _), View.canon_unit_zero (S := S1x8) hzero1]
  simp only [View.readAt_eq_ld, View.ld_unit_zero (S := S400x10000) hzero1, View.ld_unit_zero (S := S10000x16) hzero1,
    View.ld_unit_zero (S := S16x8) hzero1, View.ld_unit_zero (S := S1x8) hzero1]

/-! ## What the input windows hold when the body runs -/

/-- Input window 0's staging buffer holds the window's block at every point, fetched there or not, for any proof data
    whose array is `V`'s and whose body leaves the block in place: where the window is not fetched its block index has
    not moved since the point before, and the window is neither cut nor ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, fetched there or not, for any proof data
    whose array is `V`'s and whose body leaves the block in place: where the window is not fetched its block index has
    not moved since the point before, and the window is neither cut nor ever idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, fetched there or not, for any proof data
    whose array is `V`'s and whose body leaves the block in place: where the window is not fetched its block index has
    not moved since the point before, and the window is neither cut nor ever idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, fetched there or not, for any proof data
    whose array is `V`'s and whose body leaves the block in place: where the window is not fetched its block index has
    not moved since the point before, and the window is neither cut nor ever idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The running sum and the invariant, point by point -/

/-- The running sum at the first point: the tile's column sums added to the zero vector. -/
theorem acc1_first (c : Dev nD) (t : Fin cfg1.N) (h : t.val = 0) :
    acc1 V c t.val = k1_pay2 (iblk1 V c 0 t) (iblk1 V c 1 t) (iblk1 V c 2 t) (iblk1 V c 3 t) (k1_pay1 (F := F)) := by
  have e : pt1 0 = t := by rw [← h]; exact pt1_val t
  rw [h]
  show k1_pay2 (iblk1 V c 0 (pt1 0)) (iblk1 V c 1 (pt1 0)) (iblk1 V c 2 (pt1 0)) (iblk1 V c 3 (pt1 0)) (k1_pay1 (F := F)) = _
  rw [e]

/-- The running sum at a later point: the tile's column sums added to the running sum of the point before. -/
theorem acc1_later (c : Dev nD) (t : Fin cfg1.N) (h : t.val ≠ 0) :
    acc1 V c t.val = k1_pay2 (iblk1 V c 0 t) (iblk1 V c 1 t) (iblk1 V c 2 t) (iblk1 V c 3 t) (acc1 V c (t.val - 1)) := by
  obtain ⟨n, hn⟩ := t
  cases n with
  | zero => exact absurd rfl h
  | succ n =>
    have e : pt1 (n + 1) = ⟨n + 1, hn⟩ := pt1_val ⟨n + 1, hn⟩
    show k1_pay2 (iblk1 V c 0 (pt1 (n + 1))) (iblk1 V c 1 (pt1 (n + 1))) (iblk1 V c 2 (pt1 (n + 1))) (iblk1 V c 3 (pt1 (n + 1))) (acc1 V c n) = _
    rw [e]; rfl

/-- The invariant before a point that is not the first: the scratch at the running sum of the point before. -/
theorem PhiS_later (c : Dev nD) (n : ℕ) (hz : n ≠ 0) :
    PhiS V c n = iprop(owns (c : Thread nD τ) scM1 fullShare (acc1 V c (n - 1)) ∗ restS (F := F) c ∗ (∃ r, prngReg c r)) := by
  cases n with
  | zero => exact absurd rfl hz
  | succ n => rfl

/-- The invariant at a point's start and end, restated at the point's number. -/
theorem PhiS_castSucc (c : Dev nD) (t : Fin cfg1.N) : (dat1 V c).Φ t.castSucc = PhiS V c t.val := by
  dsimp only [dat1]; simp only [Fin.coe_castSucc]
theorem PhiS_succ (c : Dev nD) (t : Fin cfg1.N) :
    (dat1 V c).Φ t.succ = iprop(owns (c : Thread nD τ) scM1 fullShare (acc1 V c t.val) ∗ restS (F := F) c ∗ (∃ r, prngReg c r)) := rfl

/-- The library's invariant of the region's entry, with the scratch split off as a memref owned at some contents and
    the other seven scoped buffers gathered. -/
theorem PhiA1_eq (c : Dev nD) :
    (Pipeline.ΦA spec1 c : sProp 𝕄)
      = iprop(((∃ d, owns (c : Thread nD τ) scM1 fullShare d) ∗ restS (F := F) c) ∗ (∃ r, prngReg c r)) := by
  unfold Pipeline.ΦA; rw [scopedRest1_eq]; unfold restS; simp only [scM1, owns_whole]
  refine congrArg (fun X : sProp 𝕄 => iprop(X ∗ (∃ r, prngReg c r))) (BI.equiv_iff.mp ⟨?_, ?_⟩)
  · show ((_ : sProp 𝕄) ⊢ (_ : sProp 𝕄))
    iintro ⟨R1, R2, R3, R4, R5, R6, R7, HS⟩
    isplitl [HS]; · iexact HS
    isplitl [R1]; · iexact R1
    isplitl [R2]; · iexact R2
    isplitl [R3]; · iexact R3
    isplitl [R4]; · iexact R4
    isplitl [R5]; · iexact R5
    isplitl [R6]; · iexact R6
    iexact R7
  · show ((_ : sProp 𝕄) ⊢ (_ : sProp 𝕄))
    iintro ⟨HS, R1, R2, R3, R4, R5, R6, R7⟩
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS

/-! ## The proof data's windows when the body runs -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point `t`: the invariant, the core's debts, and the five windows' current staging
    buffers, each at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back: each buffer at what the body leaves, the output's untouched where the window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window, never idle, is handed back at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
/-- The output window at the last point is handed back at the running sum times the constant; -/
theorem leaves1_4_last (c : Dev nD) (t : Fin cfg1.N) (h : cond1_1 (grid1.coords t)) :
    (dat1 V c).leavesExact 4 t = owns (c : Thread nD τ) (st1_4 t) fullShare (k1_pay3 (acc1 V c t.val)) := by
  unfold Dat.leavesExact; rw [liveAt1_4 t h, after1_4]

set_option maxHeartbeats 4800000 in
/-- The body at any point. The four input buffers hold their blocks. At the first point the invariant hands the body the
    scratch at anything and the body leaves the first running sum in it; at a later point the invariant hands it the
    running sum of the point before and the body leaves this point's; at the last point the body also fills the output
    block with the running sum times the constant, and at every other point it hands the output buffer back as found.
    The other scoped buffers, the generator register and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, PhiS_succ, PhiS_castSucc,
    leaves1_0, leaves1_1, leaves1_2, leaves1_3]
  have hN : t.val < 25 := lt_of_lt_of_eq t.isLt (show cfg1.N = 25 from N_1)
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1), acc1_first V c t h0, h0]
    show iprop(Pipeline.ΦA spec1 c ∗ _) ⊢ _
    rw [PhiA1_eq]
    iintro ⟨⟨⟨HS, HR⟩, Hg⟩, Ho, ⟨%d0, H0⟩, ⟨%d1, H1⟩, ⟨%d2, H2⟩, ⟨%d3, H3⟩, ⟨%d4, H4⟩⟩
    iapply (run1_A c Set.univ _ _ _ _ _ _ _ _ _ _ _ _ _ hc0 hc1 (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · rw [PhiS_later V c _ h0, acc1_later V c t h0]
    have hc0 : ¬cond1_0 (grid1.coords t) := fun h => h0 ((hcond1_0 t).mp h)
    by_cases h1 : t.val = 24
    · -- the last point
      have hc1 : cond1_1 (grid1.coords t) := (hcond1_1 t).mpr h1
      rw [leaves1_4_last V c t hc1, acc1_later V c t h0]
      iintro ⟨⟨HS, HR, Hg⟩, Ho, ⟨%d0, H0⟩, ⟨%d1, H1⟩, ⟨%d2, H2⟩, ⟨%d3, H3⟩, ⟨%d4, H4⟩⟩
      iapply (run1_C c Set.univ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a point in between
      have hc1 : ¬cond1_1 (grid1.coords t) := fun h => h1 ((hcond1_1 t).mp h)
      rw [Dat.leavesExact_idle (dat1 V c) 4 t (idleAt1_4 t hc1) (noFlush1_4 t hc1)]
      iintro ⟨⟨HS, HR, Hg⟩, Ho, ⟨%d0, H0⟩, ⟨%d1, H1⟩, ⟨%d2, H2⟩, ⟨%d3, H3⟩, ⟨%d4, H4⟩⟩
      iapply (run1_B c Set.univ _ _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : (Pipeline.ΦA spec1 c : sProp 𝕄) ⊢ (dat1 V c).Φ 0 := by
  rw [show (dat1 V c).Φ 0 = Pipeline.ΦA spec1 c from rfl]

/-- After the last point the invariant gives every scoped buffer back at some contents: the running sum is forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val from rfl, Fin.val_last,
    PhiS_later V c _ (by rw [show cfg1.N = 25 from N_1]; decide), PhiA1_eq]
  iintro ⟨HS, HR, Hg⟩
  isplitr [Hg]
  · isplitl [HS]; · iexists _; iexact HS
    iexact HR
  iexact Hg

end Cert.Kernel.Hand

end
-- ==== Proof.KFold.lean ====
/-
  The contents of the core's buffers at each boundary of the program: at launch, after the host operations that build
  the dense adjacency matrix and convert the operands, after the first region (its output array at what the pipeline's
  write-backs leave), after the conversion between the regions, after the second region, after the final reshape.  A fold
  from the launch memory; each region's proof data sits at the contents its region is entered from.
-/
import proofs.«406582_j58411555225956_1_alg».proof.Proof.KFrame0
import proofs.«406582_j58411555225956_1_alg».proof.Proof.KFrame1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the conversion between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final reshape: the contents at the return. -/
abbrev W5 : Dev nD → Valuation τ sig (Elt F) := fun c => StableHlo.after hostOps2 (W4 m ρ c)

end Cert.Kernel.Hand

end
-- ==== Proof.KRun.lean ====
/-
  The run of the whole program: the host operations, the first region, the conversion, the second region, the final
  reshape, as the segments of one launch.  Every weakly fair execution terminates without a fault, and at the end every
  buffer that outlives the regions holds the contents the fold of KIFold names; in particular the arguments end as launched.
-/
import proofs.«406582_j58411555225956_1_alg».proof.Proof.KFold
import proofs.«406582_j58411555225956_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An unscoped TensorCore reference is among those held across the program. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of both pipelines and what a core holds between two segments -/

/-- Both pipelines' proof data, each at the contents its region is entered from: the first at the buffers after the
    host operations, the second at the buffers after the conversion that follows the first region. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core owes another core anything, so no pair of cores is given a level. -/
abbrev L : GSem nD τ sig → Finset Unit := fun _ => ∅
abbrev lv : GSem nD τ sig → Unit → ℕ := fun _ _ => 0

/-- What a core holds beside its buffers through every segment: its generator register at some state, and the
    record that it owes nothing. -/
abbrev R (c : Dev nD) : sProp 𝕄 := iprop((∃ r, prngReg c r) ∗ ∃ W, owes (c : Thread nD τ) (0 : CellTallies nD τ sig Unit) W)

/-- A stretch of host operations as a segment: from every unscoped buffer at the contents `W` to every unscoped buffer
    at what the operations, run in order, leave from `W`; the register and the empty debt ride along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last state without the debt record: every unscoped buffer at the contents after the final reshape, the
    generator register at some state. -/
abbrev Tend (c : Dev nD) : sProp 𝕄 := iprop(StableHlo.held (c : Thread nD τ) (Pipeline.ucRefs τ sig) (W5 m ρ c) ∗ ∃ r, prngReg c r)

/-! ## The regions as segments -/

-- the library's entailments are stated over the pinned configuration of pipeline `p`; matching them against the printed
-- configuration needs plain definitions unfolded inside the type of an unknown
set_option backward.isDefEq.respectTransparency.types false in
/-- THE FIRST REGION as a segment: entered from every unscoped buffer at the contents after the host operations, left
    with its output array at what the write-backs of the 25 points leave and every other buffer as entered.  Its arrays
    are split out of the unscoped buffers at the entry and put back at the exit; the generator register goes into the
    class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers split into the pipeline's arrays (at the entry contents) and the rest; the register goes
    -- to the invariant, the empty debt is the proof data's first tally
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant is the scoped buffers no window stages beside the register
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    -- the arrays at what the write-backs leave and the untouched rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entailments are stated over the pinned configuration of pipeline `p`; matching them against the printed
-- configuration needs plain definitions unfolded inside the type of an unknown
set_option backward.isDefEq.respectTransparency.types false in
/-- THE SECOND REGION as a segment: entered from every unscoped buffer at the contents after the conversion, left with
    its output array at what the single write-back of the last point leaves and every other buffer as entered.  Its
    invariant carries the running sum in the scratch between points: it starts from the class invariant and ends in it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers split into the pipeline's arrays (at the entry contents) and the rest; the register goes
    -- to the invariant, the empty debt is the proof data's first tally
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- what the entry hands over makes the class invariant, which is the running-sum invariant before the first point
    refine BIBase.Entails.trans ?_ (hin1 (V3 m ρ) c)
    unfold Pipeline.ΦA
    iintro ⟨Hp, -, Hr⟩
    isplitl [Hr]; · iexact Hr
    iexact Hp
  hout c := by
    -- after the last point the running sum is forgotten: the invariant gives the class invariant back
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    -- the arrays at what the write-backs leave and the untouched rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: the host operations from the launch contents, the first region, the
    conversion from the first region's exit contents, the second region, the final reshape from the second region's
    exit contents. -/
abbrev progSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The program is the run of its segments: it is the chain of the segments' fragments, and the segments' run unfolds
    to that chain. -/
theorem main_run (c : Dev nD) : main (F := F) c = Pipeline.Seg.run (progSegs m ρ) := (main_chain c).trans (by chain_rfl)

-- the launch theorem's implicit arguments are found by matching its conclusion with this statement, which needs plain
-- definitions unfolded inside the type of an unknown
set_option backward.isDefEq.respectTransparency.types false in
/-- THE RUN: from any memory with zero counters every weakly fair execution of the program terminates, nothing faulting,
    and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (progSegs m ρ)
    (fun c Q => by rw [main_run m ρ c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun c => by
      -- the last stretch leaves the buffers, the register and the empty debt; the debt is set beside the other two
      show iprop(StableHlo.held (c : Thread nD τ) (Pipeline.ucRefs τ sig) (W5 m ρ c)
          ∗ (∃ r, prngReg c r) ∗ ∃ W, owes (c : Thread nD τ) (0 : CellTallies nD τ sig Unit) W) ⊢ _
      iintro ⟨Hh, Hp, HO⟩
      isplitr [HO]
      · isplitl [Hh]; · iexact Hh
        iexact Hp
      iexact HO⟩)
    (hinit := by
      -- each core makes its first state alone: the launch buffers, the register at its launch state, the empty debt
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- holding every unscoped buffer at the last contents beside a final state reads that state's memory
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- No host operation and no region writes an argument: the fold at an argument's buffer is the launch memory. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The run read at the result and at the arguments: the result buffer at the fold's contents, each argument as launched. -/
theorem run_result : θ_run defs (onTc (τ := τ) (main (F := F))) ⟨m, fun _ => 0, ρ⟩ (fun r => ∀ c : Dev nD,
      r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    ⟨h c _ (mem_uc main_v39 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.Kernel.Hand

end
-- ==== Proof.KIFrame0.lean ====
/-
  The first matrix-product region (25 grid points, a tile of 400 rows of the adjacency matrix per point) at
  any contents `V` of the core's buffers at its entry: what each window's staging buffer holds after the body, the body's
  triple, the pipeline's proof data and the body obligation.  The body loads the four operand blocks whole, computes
  `max ((A_tile · X) · W1 + b1) 0` and stores it over the whole output block; it keeps nothing between points.
-/
import proofs.«406582_j58411555225956_1_alg».proof.Proof.Gen.KernelIdeal.Launch
import proofs.«406582_j58411555225956_1_alg».proof.Proof.Gen.KernelIdeal.Skeleton
import proofs.«406582_j58411555225956_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, fetched there or not, for any proof data
    whose array is `V`'s and whose body leaves the block in place: where the window is not fetched its block index has
    not moved since the point before, and the window is neither cut nor ever idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, fetched there or not, for any proof data
    whose array is `V`'s and whose body leaves the block in place: where the window is not fetched its block index has
    not moved since the point before, and the window is neither cut nor ever idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, fetched there or not, for any proof data
    whose array is `V`'s and whose body leaves the block in place: where the window is not fetched its block index has
    not moved since the point before, and the window is neither cut nor ever idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's staging buffer holds the window's block at every point, fetched there or not, for any proof data
    whose array is `V`'s and whose body leaves the block in place: where the window is not fetched its block index has
    not moved since the point before, and the window is neither cut nor ever idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S128x16 := Rect.unit (s := S128x16) ![0, 0] S128x16.size inb_S128x16_S128x16_0_0
abbrev r0_3 : Rect S1x16 := Rect.unit (s := S1x16) ![0, 0] S1x16.size inb_S1x16_S1x16_0_0
abbrev r0_4 : Rect S400x16 := Rect.unit (s := S400x16) ![0, 0] S400x16.size inb_S400x16_S400x16_0_0

/-- The output block after the body, from the four input blocks: its one store, over the whole block. -/
def out0_4 (x0 : Vec F S400x10000 .bf16) (x1 : Vec F S10000x128 .bf16) (x2 : Vec F S128x16 .bf16) (x3 : Vec F S1x16 .f32) : Vec F S400x16 .f32 :=
  View.canon [⟨r0_4, k0_pay1 (View.ld x0 r0_0) (View.ld x1 r0_1) (View.ld x2 r0_2) (View.ld x3 r0_3)⟩]

/-- The one store is over the whole 400×16 block, so every index of the block lies in its rectangle. -/
theorem cover0_4 (p0 : Vec F S400x16 .f32) (y : S400x16.Idx) :
    ∃ pc ∈ ([⟨r0_4, p0⟩] : List (View.Piece (Elt F) S400x16 .f32)), y ∈ pc.1.set :=
  View.cover_of_tiled [⟨r0_4, p0⟩] S400x16.size (by rfl) y

set_option maxHeartbeats 1000000 in
/-- The body's triple on whole staging buffers: with the four input buffers at `x0 … x3` and the output buffer at
    anything, the body runs to its continuation with the inputs as they were and the output at `out0_4 x0 x1 x2 x3`.
    It reads each input whole, reads the output once without using the value, and stores the payload of the four
    reads over the whole output block; the buffer after that one store is the canonical form of the store list
    because the store covers the block. -/
theorem sound_kernel0 (c : Dev nD) (E : Set ℕ) (i : grid0.Coords)
    (arg1 : Memref sig .tc .vmem S400x10000 .bf16) (harg1 : arg1.IsWhole)
    (arg2 : Memref sig .tc .vmem S10000x128 .bf16) (harg2 : arg2.IsWhole)
    (arg3 : Memref sig .tc .vmem S128x16 .bf16) (harg3 : arg3.IsWhole)
    (arg4 : Memref sig .tc .vmem S1x16 .f32) (harg4 : arg4.IsWhole)
    (arg5 : Memref sig .tc .vmem S400x16 .f32) (harg5 : arg5.IsWhole)
    (x0 : Vec F S400x10000 .bf16) (x1 : Vec F S10000x128 .bf16) (x2 : Vec F S128x16 .bf16) (x3 : Vec F S1x16 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1 x2 x3)) -∗ K ⟨⟩))
      ⊢ wp frame (wpE (defs₀ (F := F)) Variants.none c none) E
          (cc0__conv1_kernel i arg1 harg1 arg2 harg2 arg3 harg3 arg4 harg4 arg5 harg5) K := by
  simp only [cc0__conv1_kernel_eq_skeleton]; unfold cc0__conv1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of the first pipeline on core `c`: the arrays as the region finds them; after the body each input's
    buffer at its block and the output's at `out0_4` of the input blocks; nothing kept between points, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is handed at point `t`: the invariant, the core's debts, and the five windows' current staging
    buffers, each at what the pipeline has put there, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it hands back: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the four input buffers hold their blocks, so the body's triple applies at those blocks; the
    invariant and the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the first pipeline, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIFrame1.lean ====
/-
  The second matrix-product region (25 grid points, a tile of 400 rows of the adjacency matrix per point) at any
  contents `V` of the core's buffers at its entry.  The body keeps a running sum in a scratch buffer of shape 1×8: at
  the first point it resets the scratch to zero; at every point it adds the column sums of `(A_tile · H) · W2 + b2` to the
  scratch; at the last point it stores the scratch times the constant `1/10000` into the output block.  The output window
  is idle (not stored, not written back) at every point but the last.
-/
import proofs.«406582_j58411555225956_1_alg».proof.Proof.Gen.KernelIdeal.Launch
import proofs.«406582_j58411555225956_1_alg».proof.Proof.Gen.KernelIdeal.Skeleton
import proofs.«406582_j58411555225956_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Grid point number `n` (taken modulo the 25 points, so that it is defined for every natural number). -/
def pt1 (n : ℕ) : Fin cfg1.N := ⟨n % 25, by rw [show cfg1.N = 25 from N_1]; exact Nat.mod_lt _ (by decide)⟩

theorem pt1_val (t : Fin cfg1.N) : pt1 t.val = t := by
  apply Fin.ext
  have h : t.val < 25 := lt_of_lt_of_eq t.isLt (show cfg1.N = 25 from N_1)
  show t.val % 25 = t.val
  exact Nat.mod_eq_of_lt h

/-- The scratch operand: a whole scoped buffer of the kernel's own. -/
abbrev scM1 : Memref sig .tc .vmem S1x8 .f32 := Memref.whole cc1_scratch0

/-- THE RUNNING SUM: what the scratch holds after the body at point `n` — the point's tile sum added to what the point
    before left, the first point starting from the zero vector the body has just stored. -/
def acc1 (c : Dev nD) : ℕ → Vec F S1x8 .f32
  | 0 => k1_pay2 (iblk1 V c 0 (pt1 0)) (iblk1 V c 1 (pt1 0)) (iblk1 V c 2 (pt1 0)) (iblk1 V c 3 (pt1 0)) (k1_pay1 (F := F))
  | n + 1 => k1_pay2 (iblk1 V c 0 (pt1 (n + 1))) (iblk1 V c 1 (pt1 (n + 1))) (iblk1 V c 2 (pt1 (n + 1))) (iblk1 V c 3 (pt1 (n + 1))) (acc1 c n)

/-- The core's scoped buffers that are neither a staging buffer of this pipeline nor its scratch, each at some contents. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- The region invariant before point `n`: before the first point every scoped buffer at anything; afterwards the
    scratch at the running sum the point before left, the other scoped buffers at anything, the generator register at
    some state. -/
def PhiS (c : Dev nD) : ℕ → sProp 𝕄
  | 0 => Pipeline.ΦA spec1 c
  | n + 1 => iprop(owns (c : Thread nD τ) scM1 fullShare (acc1 V c n) ∗ restS (F := F) c ∗ (∃ r, prngReg c r))

/-- The proof data of the second pipeline on core `c`: the arrays as the region finds them; after the body each input's
    buffer at its block; the output's at the running sum times the constant (consulted at the last point only: at the
    others the window is idle); the invariant `PhiS`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (acc1 V c t.val)
  Φ t := PhiS V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = k1_pay3 (acc1 V c t.val) := by dsimp only [dat1]

/-! ## The body's branch conditions, over the 25 grid points -/

/-- The condition of the body's first conditional (reset the running sum), from the grid coordinate. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)

/-- The condition of the body's second conditional (store the mean into the output block). -/
abbrev cond1_1 (i : grid1.Coords) : Prop := k1_cond2 i = 1#1
/-- It holds at the last point only. -/
theorem hcond1_1 : ∀ t : Fin cfg1.N, cond1_1 (grid1.coords t) ↔ t.val = 24 :=
  (by decide +kernel : ∀ t : Fin grid1.N, cond1_1 (grid1.coords t) ↔ t.val = 24)

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Where the second condition fails the output window is idle and its block is not written back. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
/-- Where it holds the output window is live. -/
theorem liveAt1_4 : ∀ t : Fin cfg1.N, cond1_1 (grid1.coords t) → cfg1.idle 4 (grid1.coords t) = false := by decide +kernel

/-! ## The body on whole buffers, case by case -/

/-- The whole-block rectangle of a 1×8 vector, and the zero offsets spelt as a constant function. -/
abbrev r1_S : Rect S1x8 := Rect.unit (s := S1x8) ![0, 0] S1x8.size inb_S1x8_S1x8_0_0
theorem hzero1 : (![0, 0] : Fin 2 → ℕ) = fun _ => 0 := by funext a; fin_cases a <;> rfl

/-- One store over the whole 1×8 block covers it; so do two. -/
theorem cover1_one (p : Vec F S1x8 .f32) (y : S1x8.Idx) :
    ∃ pc ∈ ([⟨r1_S, p⟩] : List (View.Piece (Elt F) S1x8 .f32)), y ∈ pc.1.set :=
  ⟨_, List.mem_singleton_self _, View.mem_set_unit_zero (S := S1x8) hzero1 inb_S1x8_S1x8_0_0 y⟩
theorem cover1_two (p q : Vec F S1x8 .f32) (y : S1x8.Idx) :
    ∃ pc ∈ ([⟨r1_S, p⟩, ⟨r1_S, q⟩] : List (View.Piece (Elt F) S1x8 .f32)), y ∈ pc.1.set :=
  ⟨_, List.mem_cons_self, View.mem_set_unit_zero (S := S1x8) hzero1 inb_S1x8_S1x8_0_0 y⟩

set_option maxHeartbeats 1000000 in
/-- CASE A (the first point). With the four input buffers at `x0 … x3`, the output buffer at `xi4` and the scratch at
    anything, the body resets the scratch to the zero vector, reads it back, and stores the tile's column sums added to
    it; the output buffer is not touched. -/
theorem run1_A (c : Dev nD) (E : Set ℕ) (i : grid1.Coords)
    (arg1 : Memref sig .tc .vmem S400x10000 .bf16) (harg1 : arg1.IsWhole)
    (arg2 : Memref sig .tc .vmem S10000x16 .bf16) (harg2 : arg2.IsWhole)
    (arg3 : Memref sig .tc .vmem S16x8 .bf16) (harg3 : arg3.IsWhole)
    (arg4 : Memref sig .tc .vmem S1x8 .f32) (harg4 : arg4.IsWhole)
    (arg5 : Memref sig .tc .vmem S1x8 .f32) (harg5 : arg5.IsWhole)
    (arg6 : Memref sig .tc .vmem S1x8 .f32) (harg6 : arg6.IsWhole)
    (hc0 : cond1_0 i) (hc1 : ¬cond1_1 i)
    (x0 : Vec F S400x10000 .bf16) (x1 : Vec F S10000x16 .bf16) (x2 : Vec F S16x8 .bf16) (x3 : Vec F S1x8 .f32) (xi4 : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xi4 ∗ (∃ d, owns (c : Thread nD τ) arg6 fullShare d)
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare xi4
            ∗ owns (c : Thread nD τ) arg6 fullShare (k1_pay2 x0 x1 x2 x3 (k1_pay1 (F := F)))) -∗ K ⟨⟩))
      ⊢ wp frame (wpE (defs₀ (F := F)) Variants.none c none) E
          (cc1__conv2_kernel i arg1 harg1 arg2 harg2 arg3 harg3 arg4 harg4 arg5 harg5 arg6 harg6) K := by
  simp only [cc1__conv2_kernel_eq_skeleton]; unfold cc1__conv2_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (cover1_two _ _), View.canon_cons_unit_zero (S := S1x8) hzero1]
  simp only [View.readAt_eq_ld, View.ld_unit_zero (S := S400x10000) hzero1, View.ld_unit_zero (S := S10000x16) hzero1,
    View.ld_unit_zero (S := S16x8) hzero1, View.ld_unit_zero (S := S1x8) hzero1, View.readCov_unit_zero (S := S1x8) _ hzero1]

set_option maxHeartbeats 1000000 in
/-- CASE B (a point between the first and the last). With the scratch at `xs`, the body stores the tile's column sums
    added to `xs` into the scratch; the output buffer is not touched. -/
theorem run1_B (c : Dev nD) (E : Set ℕ) (i : grid1.Coords)
    (arg1 : Memref sig .tc .vmem S400x10000 .bf16) (harg1 : arg1.IsWhole)
    (arg2 : Memref sig .tc .vmem S10000x16 .bf16) (harg2 : arg2.IsWhole)
    (arg3 : Memref sig .tc .vmem S16x8 .bf16) (harg3 : arg3.IsWhole)
    (arg4 : Memref sig .tc .vmem S1x8 .f32) (harg4 : arg4.IsWhole)
    (arg5 : Memref sig .tc .vmem S1x8 .f32) (harg5 : arg5.IsWhole)
    (arg6 : Memref sig .tc .vmem S1x8 .f32) (harg6 : arg6.IsWhole)
    (hc0 : ¬cond1_0 i) (hc1 : ¬cond1_1 i)
    (x0 : Vec F S400x10000 .bf16) (x1 : Vec F S10000x16 .bf16) (x2 : Vec F S16x8 .bf16) (x3 : Vec F S1x8 .f32) (xi4 : Vec F S1x8 .f32) (xs : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare xi4 ∗ owns (c : Thread nD τ) arg6 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare xi4
            ∗ owns (c : Thread nD τ) arg6 fullShare (k1_pay2 x0 x1 x2 x3 xs)) -∗ K ⟨⟩))
      ⊢ wp frame (wpE (defs₀ (F := F)) Variants.none c none) E
          (cc1__conv2_kernel i arg1 harg1 arg2 harg2 arg3 harg3 arg4 harg4 arg5 harg5 arg6 harg6) K := by
  simp only [cc1__conv2_kernel_eq_skeleton]; unfold cc1__conv2_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_words
  rw [View.read_writes_eq_canon _ _ _ (cover1_one _), View.canon_unit_zero (S := S1x8) hzero1]
  simp only [View.readAt_eq_ld, View.ld_unit_zero (S := S400x10000) hzero1, View.ld_unit_zero (S := S10000x16) hzero1,
    View.ld_unit_zero (S := S16x8) hzero1, View.ld_unit_zero (S := S1x8) hzero1]

set_option maxHeartbeats 1000000 in
/-- CASE C (the last point). With the scratch at `xs` and the output buffer at anything, the body stores the tile's
    column sums added to `xs` into the scratch, reads that sum back, and stores it times the constant over the whole
    output block. -/
theorem run1_C (c : Dev nD) (E : Set ℕ) (i : grid1.Coords)
    (arg1 : Memref sig .tc .vmem S400x10000 .bf16) (harg1 : arg1.IsWhole)
    (arg2 : Memref sig .tc .vmem S10000x16 .bf16) (harg2 : arg2.IsWhole)
    (arg3 : Memref sig .tc .vmem S16x8 .bf16) (harg3 : arg3.IsWhole)
    (arg4 : Memref sig .tc .vmem S1x8 .f32) (harg4 : arg4.IsWhole)
    (arg5 : Memref sig .tc .vmem S1x8 .f32) (harg5 : arg5.IsWhole)
    (arg6 : Memref sig .tc .vmem S1x8 .f32) (harg6 : arg6.IsWhole)
    (hc0 : ¬cond1_0 i) (hc1 : cond1_1 i)
    (x0 : Vec F S400x10000 .bf16) (x1 : Vec F S10000x16 .bf16) (x2 : Vec F S16x8 .bf16) (x3 : Vec F S1x8 .f32) (xs : Vec F S1x8 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ owns (c : Thread nD τ) arg6 fullShare xs
        ∗ (iprop(owns (c : Thread nD τ) arg1 fullShare x0 ∗ owns (c : Thread nD τ) arg2 fullShare x1
        ∗ owns (c : Thread nD τ) arg3 fullShare x2 ∗ owns (c : Thread nD τ) arg4 fullShare x3
            ∗ owns (c : Thread nD τ) arg5 fullShare (k1_pay3 (k1_pay2 x0 x1 x2 x3 xs))
            ∗ owns (c : Thread nD τ) arg6 fullShare (k1_pay2 x0 x1 x2 x3 xs)) -∗ K ⟨⟩))
      ⊢ wp frame (wpE (defs₀ (F := F)) Variants.none c none) E
          (cc1__conv2_kernel i arg1 harg1 arg2 harg2 arg3 harg3 arg4 harg4 arg5 harg5 arg6 harg6) K := by
  simp only [cc1__conv2_kernel_eq_skeleton]; unfold cc1__conv2_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_words
    rw [View.read_writes_eq_canon _ _ _ (cover1_one _), View.canon_unit_zero (S := S1x8) hzero1]
    simp only [View.readAt_eq_ld, View.ld_unit_zero (S := S400x10000) hzero1, View.ld_unit_zero (S := S10000x16) hzero1,
    View.ld_unit_zero (S := S16x8) hzero1, View.ld_unit_zero (S := S1x8) hzero1, View.readCov_unit_zero (S := S1x8) _ hzero1]
  iexists _; isplitr
  swap; · iexact HS
  ipureintro
  sl_unfold_words
  rw [View.read_writes_eq_canon _ _ _ (cover1_one _), View.canon_unit_zero (S := S1x8) hzero1]
  simp only [View.readAt_eq_ld, View.ld_unit_zero (S := S400x10000) hzero1, View.ld_unit_zero (S := S10000x16) hzero1,
    View.ld_unit_zero (S := S16x8) hzero1, View.ld_unit_zero (S := S1x8) hzero1]

/-! ## What the input windows hold when the body runs -/

/-- Input window 0's staging buffer holds the window's block at every point, fetched there or not, for any proof data
    whose array is `V`'s and whose body leaves the block in place: where the window is not fetched its block index has
    not moved since the point before, and the window is neither cut nor ever idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds the window's block at every point, fetched there or not, for any proof data
    whose array is `V`'s and whose body leaves the block in place: where the window is not fetched its block index has
    not moved since the point before, and the window is neither cut nor ever idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds the window's block at every point, fetched there or not, for any proof data
    whose array is `V`'s and whose body leaves the block in place: where the window is not fetched its block index has
    not moved since the point before, and the window is neither cut nor ever idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds the window's block at every point, fetched there or not, for any proof data
    whose array is `V`'s and whose body leaves the block in place: where the window is not fetched its block index has
    not moved since the point before, and the window is neither cut nor ever idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The running sum and the invariant, point by point -/

/-- The running sum at the first point: the tile's column sums added to the zero vector. -/
theorem acc1_first (c : Dev nD) (t : Fin cfg1.N) (h : t.val = 0) :
    acc1 V c t.val = k1_pay2 (iblk1 V c 0 t) (iblk1 V c 1 t) (iblk1 V c 2 t) (iblk1 V c 3 t) (k1_pay1 (F := F)) := by
  have e : pt1 0 = t := by rw [← h]; exact pt1_val t
  rw [h]
  show k1_pay2 (iblk1 V c 0 (pt1 0)) (iblk1 V c 1 (pt1 0)) (iblk1 V c 2 (pt1 0)) (iblk1 V c 3 (pt1 0)) (k1_pay1 (F := F)) = _
  rw [e]

/-- The running sum at a later point: the tile's column sums added to the running sum of the point before. -/
theorem acc1_later (c : Dev nD) (t : Fin cfg1.N) (h : t.val ≠ 0) :
    acc1 V c t.val = k1_pay2 (iblk1 V c 0 t) (iblk1 V c 1 t) (iblk1 V c 2 t) (iblk1 V c 3 t) (acc1 V c (t.val - 1)) := by
  obtain ⟨n, hn⟩ := t
  cases n with
  | zero => exact absurd rfl h
  | succ n =>
    have e : pt1 (n + 1) = ⟨n + 1, hn⟩ := pt1_val ⟨n + 1, hn⟩
    show k1_pay2 (iblk1 V c 0 (pt1 (n + 1))) (iblk1 V c 1 (pt1 (n + 1))) (iblk1 V c 2 (pt1 (n + 1))) (iblk1 V c 3 (pt1 (n + 1))) (acc1 V c n) = _
    rw [e]; rfl

/-- The invariant before a point that is not the first: the scratch at the running sum of the point before. -/
theorem PhiS_later (c : Dev nD) (n : ℕ) (hz : n ≠ 0) :
    PhiS V c n = iprop(owns (c : Thread nD τ) scM1 fullShare (acc1 V c (n - 1)) ∗ restS (F := F) c ∗ (∃ r, prngReg c r)) := by
  cases n with
  | zero => exact absurd rfl hz
  | succ n => rfl

/-- The invariant at a point's start and end, restated at the point's number. -/
theorem PhiS_castSucc (c : Dev nD) (t : Fin cfg1.N) : (dat1 V c).Φ t.castSucc = PhiS V c t.val := by
  dsimp only [dat1]; simp only [Fin.coe_castSucc]
theorem PhiS_succ (c : Dev nD) (t : Fin cfg1.N) :
    (dat1 V c).Φ t.succ = iprop(owns (c : Thread nD τ) scM1 fullShare (acc1 V c t.val) ∗ restS (F := F) c ∗ (∃ r, prngReg c r)) := rfl

/-- The library's invariant of the region's entry, with the scratch split off as a memref owned at some contents and
    the other seven scoped buffers gathered. -/
theorem PhiA1_eq (c : Dev nD) :
    (Pipeline.ΦA spec1 c : sProp 𝕄)
      = iprop(((∃ d, owns (c : Thread nD τ) scM1 fullShare d) ∗ restS (F := F) c) ∗ (∃ r, prngReg c r)) := by
  unfold Pipeline.ΦA; rw [scopedRest1_eq]; unfold restS; simp only [scM1, owns_whole]
  refine congrArg (fun X : sProp 𝕄 => iprop(X ∗ (∃ r, prngReg c r))) (BI.equiv_iff.mp ⟨?_, ?_⟩)
  · show ((_ : sProp 𝕄) ⊢ (_ : sProp 𝕄))
    iintro ⟨R1, R2, R3, R4, R5, R6, R7, HS⟩
    isplitl [HS]; · iexact HS
    isplitl [R1]; · iexact R1
    isplitl [R2]; · iexact R2
    isplitl [R3]; · iexact R3
    isplitl [R4]; · iexact R4
    isplitl [R5]; · iexact R5
    isplitl [R6]; · iexact R6
    iexact R7
  · show ((_ : sProp 𝕄) ⊢ (_ : sProp 𝕄))
    iintro ⟨HS, R1, R2, R3, R4, R5, R6, R7⟩
    isplitl [R1]; · iexact R1
    isplitl [R2]; · iexact R2
    isplitl [R3]; · iexact R3
    isplitl [R4]; · iexact R4
    isplitl [R5]; · iexact R5
    isplitl [R6]; · iexact R6
    isplitl [R7]; · iexact R7
    iexact HS

/-! ## The proof data's windows when the body runs -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is handed at point `t`: the invariant, the core's debts, and the five windows' current staging
    buffers, each at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back: each buffer at what the body leaves, the output's untouched where the window is idle. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window, never idle, is handed back at its block. -/
theorem leaves1_0 (c : Dev nD) (t : Fin cfg1.N) :
    (dat1 V c).leavesExact 0 t = owns (c : Thread nD τ) (st1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (st1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (st1_2 t) fullShare (iblk1 V c 2 t) := by
  unfold Dat.leavesExact; rw [liveAt1_2 t, after1_2]
theorem leaves1_3 (c : Dev nD) (t : Fin cfg1.N) :
    (dat1 V c).leavesExact 3 t = owns (c : Thread nD τ) (st1_3 t) fullShare (iblk1 V c 3 t) := by
  unfold Dat.leavesExact; rw [liveAt1_3 t, after1_3]
/-- The output window at the last point is handed back at the running sum times the constant; -/
theorem leaves1_4_last (c : Dev nD) (t : Fin cfg1.N) (h : cond1_1 (grid1.coords t)) :
    (dat1 V c).leavesExact 4 t = owns (c : Thread nD τ) (st1_4 t) fullShare (k1_pay3 (acc1 V c t.val)) := by
  unfold Dat.leavesExact; rw [liveAt1_4 t h, after1_4]

set_option maxHeartbeats 4800000 in
/-- The body at any point. The four input buffers hold their blocks. At the first point the invariant hands the body the
    scratch at anything and the body leaves the first running sum in it; at a later point the invariant hands it the
    running sum of the point before and the body leaves this point's; at the last point the body also fills the output
    block with the running sum times the constant, and at every other point it hands the output buffer back as found.
    The other scoped buffers, the generator register and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl, PhiS_succ, PhiS_castSucc,
    leaves1_0, leaves1_1, leaves1_2, leaves1_3]
  have hN : t.val < 25 := lt_of_lt_of_eq t.isLt (show cfg1.N = 25 from N_1)
  by_cases h0 : t.val = 0
  · -- the first point
    have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1), acc1_first V c t h0, h0]
    show iprop(Pipeline.ΦA spec1 c ∗ _) ⊢ _
    rw [PhiA1_eq]
    iintro ⟨⟨⟨HS, HR⟩, Hg⟩, Ho, ⟨%d0, H0⟩, ⟨%d1, H1⟩, ⟨%d2, H2⟩, ⟨%d3, H3⟩, ⟨%d4, H4⟩⟩
    iapply (run1_A c Set.univ _ _ _ _ _ _ _ _ _ _ _ _ _ hc0 hc1 (iblk1 V c 0 t) (iblk1 V c 1 t) (iblk1 V c 2 t) (iblk1 V c 3 t) _ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    iexists _; iexact H4
  · rw [PhiS_later V c _ h0, acc1_later V c t h0]
    have hc0 : ¬cond1_0 (grid1.coords t) := fun h => h0 ((hcond1_0 t).mp h)
    by_cases h1 : t.val = 24
    · -- the last point
      have hc1 : cond1_1 (grid1.coords t) := (hcond1_1 t).mpr h1
      rw [leaves1_4_last V c t hc1, acc1_later V c t h0]
      iintro ⟨⟨HS, HR, Hg⟩, Ho, ⟨%d0, H0⟩, ⟨%d1, H1⟩, ⟨%d2, H2⟩, ⟨%d3, H3⟩, ⟨%d4, H4⟩⟩
      iapply (run1_C c Set.univ _ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexact H4
    · -- a point in between
      have hc1 : ¬cond1_1 (grid1.coords t) := fun h => h1 ((hcond1_1 t).mp h)
      rw [Dat.leavesExact_idle (dat1 V c) 4 t (idleAt1_4 t hc1) (noFlush1_4 t hc1)]
      iintro ⟨⟨HS, HR, Hg⟩, Ho, ⟨%d0, H0⟩, ⟨%d1, H1⟩, ⟨%d2, H2⟩, ⟨%d3, H3⟩, ⟨%d4, H4⟩⟩
      iapply (run1_B c Set.univ _ _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      iexists _; iexact H4

/-- The body obligation of the second pipeline, at every point. -/
theorem body_obligation1 (c : Dev nD) : BodyObligation (dat1 (F := F) V c) (defs₀ (F := F)) Variants.none () Set.univ := fun t => by
  rw [bigSep_W1, bigSep_W1]
  exact sound_body1 V c t

/-- What the region's entry hands the pipeline is the invariant before the first point. -/
theorem hin1 (c : Dev nD) : (Pipeline.ΦA spec1 c : sProp 𝕄) ⊢ (dat1 V c).Φ 0 := by
  rw [show (dat1 V c).Φ 0 = Pipeline.ΦA spec1 c from rfl]

/-- After the last point the invariant gives every scoped buffer back at some contents: the running sum is forgotten. -/
theorem hout1 (c : Dev nD) : (dat1 V c).Φ (Fin.last cfg1.N) ⊢ (Pipeline.ΦA spec1 c : sProp 𝕄) := by
  rw [show (dat1 V c).Φ (Fin.last cfg1.N) = PhiS V c (Fin.last cfg1.N).val from rfl, Fin.val_last,
    PhiS_later V c _ (by rw [show cfg1.N = 25 from N_1]; decide), PhiA1_eq]
  iintro ⟨HS, HR, Hg⟩
  isplitr [Hg]
  · isplitl [HS]; · iexists _; iexact HS
    iexact HR
  iexact Hg

end Cert.KernelIdeal.Hand

end
-- ==== Proof.KIFold.lean ====
/-
  The contents of the core's buffers at each boundary of the program: at launch, after the host operations that build
  the dense adjacency matrix and convert the operands, after the first region (its output array at what the pipeline's
  write-backs leave), after the conversion between the regions, after the second region, after the final reshape.  A fold
  from the launch memory; each region's proof data sits at the contents its region is entered from.
-/
import proofs.«406582_j58411555225956_1_alg».proof.Proof.KIFrame0
import proofs.«406582_j58411555225956_1_alg».proof.Proof.KIFrame1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host operations before the first region. -/
abbrev W1 : Dev nD → Valuation τ sig (Elt F) := fun c => StableHlo.after hostOps0 (W0 m ρ c)
/-- The same read at the TensorCore's references (what the first region's proof data take). -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the conversion between the regions. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the second region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the final reshape: the contents at the return. -/
abbrev W5 : Dev nD → Valuation τ sig (Elt F) := fun c => StableHlo.after hostOps2 (W4 m ρ c)

end Cert.KernelIdeal.Hand

end
-- ==== Proof.KIRun.lean ====
/-
  The run of the whole program: the host operations, the first region, the conversion, the second region, the final
  reshape, as the segments of one launch.  Every weakly fair execution terminates without a fault, and at the end every
  buffer that outlives the regions holds the contents the fold of KIFold names; in particular the arguments end as launched.
-/
import proofs.«406582_j58411555225956_1_alg».proof.Proof.KIFold
import proofs.«406582_j58411555225956_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- An unscoped TensorCore reference is among those held across the program. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The proof data of both pipelines and what a core holds between two segments -/

/-- Both pipelines' proof data, each at the contents its region is entered from: the first at the buffers after the
    host operations, the second at the buffers after the conversion that follows the first region. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

abbrev 𝒱₀ : Variants := Variants.none
/-- No core owes another core anything, so no pair of cores is given a level. -/
abbrev L : GSem nD τ sig → Finset Unit := fun _ => ∅
abbrev lv : GSem nD τ sig → Unit → ℕ := fun _ _ => 0

/-- What a core holds beside its buffers through every segment: its generator register at some state, and the
    record that it owes nothing. -/
abbrev R (c : Dev nD) : sProp 𝕄 := iprop((∃ r, prngReg c r) ∗ ∃ W, owes (c : Thread nD τ) (0 : CellTallies nD τ sig Unit) W)

/-- A stretch of host operations as a segment: from every unscoped buffer at the contents `W` to every unscoped buffer
    at what the operations, run in order, leave from `W`; the register and the empty debt ride along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last state without the debt record: every unscoped buffer at the contents after the final reshape, the
    generator register at some state. -/
abbrev Tend (c : Dev nD) : sProp 𝕄 := iprop(StableHlo.held (c : Thread nD τ) (Pipeline.ucRefs τ sig) (W5 m ρ c) ∗ ∃ r, prngReg c r)

/-! ## The regions as segments -/

-- the library's entailments are stated over the pinned configuration of pipeline `p`; matching them against the printed
-- configuration needs plain definitions unfolded inside the type of an unknown
set_option backward.isDefEq.respectTransparency.types false in
/-- THE FIRST REGION as a segment: entered from every unscoped buffer at the contents after the host operations, left
    with its output array at what the write-backs of the 25 points leave and every other buffer as entered.  Its arrays
    are split out of the unscoped buffers at the entry and put back at the exit; the generator register goes into the
    class invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    -- the unscoped buffers split into the pipeline's arrays (at the entry contents) and the rest; the register goes
    -- to the invariant, the empty debt is the proof data's first tally
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- the class invariant is the scoped buffers no window stages beside the register
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    -- the arrays at what the write-backs leave and the untouched rest are the unscoped buffers at the exit contents
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entailments are stated over the pinned configuration of pipeline `p`; matching them against the printed
-- configuration needs plain definitions unfolded inside the type of an unknown
set_option backward.isDefEq.respectTransparency.types false in
/-- THE SECOND REGION as a segment: entered from every unscoped buffer at the contents after the conversion, left with
    its output array at what the single write-back of the last point leaves and every other buffer as entered.  Its
    invariant carries the running sum in the scratch between points: it starts from the class invariant and ends in it. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    -- the unscoped buffers split into the pipeline's arrays (at the entry contents) and the rest; the register goes
    -- to the invariant, the empty debt is the proof data's first tally
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    -- what the entry hands over makes the class invariant, which is the running-sum invariant before the first point
    refine BIBase.Entails.trans ?_ (hin1 (V3 m ρ) c)
    unfold Pipeline.ΦA
    iintro ⟨Hp, -, Hr⟩
    isplitl [Hr]; · iexact Hr
    iexact Hp
  hout c := by
    -- after the last point the running sum is forgotten: the invariant gives the class invariant back
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    -- the arrays at what the write-backs leave and the untouched rest are the unscoped buffers at the exit contents
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's five segments in order: the host operations from the launch contents, the first region, the
    conversion from the first region's exit contents, the second region, the final reshape from the second region's
    exit contents. -/
abbrev progSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

/-- The program is the run of its segments: it is the chain of the segments' fragments, and the segments' run unfolds
    to that chain. -/
theorem main_run (c : Dev nD) : main (F := F) c = Pipeline.Seg.run (progSegs m ρ) := (main_chain c).trans (by chain_rfl)

-- the launch theorem's implicit arguments are found by matching its conclusion with this statement, which needs plain
-- definitions unfolded inside the type of an unknown
set_option backward.isDefEq.respectTransparency.types false in
/-- THE RUN: from any memory with zero counters every weakly fair execution of the program terminates, nothing faulting,
    and every final state has every unscoped buffer at the last boundary's contents. -/
theorem run : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (progSegs m ρ)
    (fun c Q => by rw [main_run m ρ c])
    (by simp only [progSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no further ghost resource is dealt
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl, fun _ => .rfl, fun c => by
      -- the last stretch leaves the buffers, the register and the empty debt; the debt is set beside the other two
      show iprop(StableHlo.held (c : Thread nD τ) (Pipeline.ucRefs τ sig) (W5 m ρ c)
          ∗ (∃ r, prngReg c r) ∗ ∃ W, owes (c : Thread nD τ) (0 : CellTallies nD τ sig Unit) W) ⊢ _
      iintro ⟨Hh, Hp, HO⟩
      isplitr [HO]
      · isplitl [Hh]; · iexact Hh
        iexact Hp
      iexact HO⟩)
    (hinit := by
      -- each core makes its first state alone: the launch buffers, the register at its launch state, the empty debt
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- holding every unscoped buffer at the last contents beside a final state reads that state's memory
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- No host operation and no region writes an argument: the fold at an argument's buffer is the launch memory. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The run read at the result and at the arguments: the result buffer at the fold's contents, each argument as launched. -/
theorem run_result : θ_run defs (onTc (τ := τ) (main (F := F))) ⟨m, fun _ => 0, ρ⟩ (fun r => ∀ c : Dev nD,
      r.2.mem ((c.tc : Thread nD τ).loc main_v39) = W5 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
    ⟨h c _ (mem_uc main_v39 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run m ρ)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_result m ρ)

end Cert.KernelIdeal.Hand

end
-- ==== Proof.Spec.lean ====
/-
  The mathematics of the two-layer graph convolution, stated once over plain index types.

  An edge list `row, col : Fin 640000 → Fin 10000` with per-node weights `nrm` gives every edge the value
  `nrm (row e) * nrm (col e)`.  One program first gathers the edge values into a dense matrix
  `adj r c = ∑ e with (row e, col e) = (r, c)` and multiplies by it; the other sums, for every row `r`, the edge values of
  the edges with `row e = r` times the row `col e` of the operand.  Over the reals the two are the same sum, regrouped:
  `∑ c, (∑ e, [row e = r ∧ col e = c] v e) * x c = ∑ e, [row e = r] v e * x (col e)` (distributivity, then the inner sum over
  `c` has one nonzero term).  The mean over the 10000 rows is taken tile by tile (25 tiles of 400 rows) on one side
  and in one sum on the other.
-/
import Idealize.ShloMosaic.PureOps.Ideal
import Idealize.ShloMosaic.Lib.ValueIdx

noncomputable section

open scoped BigOperators

namespace Cert.Spec

/-- The value of edge `e`. -/
def vals (nrm : Fin 10000 → EReal) (row col : Fin 640000 → Fin 10000) (e : Fin 640000) : EReal :=
  nrm (row e) * nrm (col e)

/-- The dense adjacency matrix: entry `(r, c)` sums the values of the edges from `r` to `c`. -/
def adj (nrm : Fin 10000 → EReal) (row col : Fin 640000 → Fin 10000) (r c : Fin 10000) : EReal :=
  ∑ e : Fin 640000, if row e = r ∧ col e = c then vals nrm row col e else 0

/-- Row `400 * t + p`: row `p` of tile `t`. -/
def tileRow (t : Fin 25) (p : Fin 400) : Fin 10000 := ⟨400 * t.val + p.val, by omega⟩

/-- First layer through the dense matrix: `relu ((A x) W1 + b1)`. -/
def denseHidden (A : Fin 10000 → Fin 10000 → EReal) (x : Fin 10000 → Fin 128 → EReal) (W1 : Fin 128 → Fin 16 → EReal)
    (b1 : Fin 16 → EReal) (r : Fin 10000) (j : Fin 16) : EReal :=
  max ((∑ k : Fin 128, (∑ c : Fin 10000, A r c * x c k) * W1 k j) + b1 j) 0

/-- Second layer through the dense matrix, summed tile by tile over the rows and scaled by `1/10000`. -/
def denseMean (A : Fin 10000 → Fin 10000 → EReal) (h : Fin 10000 → Fin 16 → EReal) (W2 : Fin 16 → Fin 8 → EReal)
    (b2 : Fin 8 → EReal) (j : Fin 8) : EReal :=
  (∑ t : Fin 25, ∑ p : Fin 400, ((∑ k : Fin 16, (∑ c : Fin 10000, A (tileRow t p) c * h c k) * W2 k j) + b2 j))
    * ((1 / 10000 : ℝ) : EReal)

/-- The result computed through the dense adjacency matrix. -/
def denseResult (nrm : Fin 10000 → EReal) (row col : Fin 640000 → Fin 10000) (x : Fin 10000 → Fin 128 → EReal)
    (W1 : Fin 128 → Fin 16 → EReal) (b1 : Fin 16 → EReal) (W2 : Fin 16 → Fin 8 → EReal) (b2 : Fin 8 → EReal) (j : Fin 8) : EReal :=
  denseMean (adj nrm row col) (denseHidden (adj nrm row col) x W1 b1) W2 b2 j

/-- Row `r` of the edge-wise product with an operand of width `d`: the edges out of `r`, each its value times the
    operand's row at its target. -/
def edgeSum {d : Nat} (nrm : Fin 10000 → EReal) (row col : Fin 640000 → Fin 10000) (x : Fin 10000 → Fin d → EReal)
    (r : Fin 10000) (k : Fin d) : EReal :=
  ∑ e : Fin 640000, if row e = r then vals nrm row col e * x (col e) k else 0

/-- First layer edge by edge. -/
def edgeHidden (nrm : Fin 10000 → EReal) (row col : Fin 640000 → Fin 10000) (x : Fin 10000 → Fin 128 → EReal)
    (W1 : Fin 128 → Fin 16 → EReal) (b1 : Fin 16 → EReal) (r : Fin 10000) (j : Fin 16) : EReal :=
  max ((∑ k : Fin 128, edgeSum nrm row col x r k * W1 k j) + b1 j) 0

/-- The result computed edge by edge: the mean over the rows of the second layer. -/
def edgeResult (nrm : Fin 10000 → EReal) (row col : Fin 640000 → Fin 10000) (x : Fin 10000 → Fin 128 → EReal)
    (W1 : Fin 128 → Fin 16 → EReal) (b1 : Fin 16 → EReal) (W2 : Fin 16 → Fin 8 → EReal) (b2 : Fin 8 → EReal) (j : Fin 8) : EReal :=
  (∑ r : Fin 10000, ((∑ k : Fin 16, edgeSum nrm row col (edgeHidden nrm row col x W1 b1) r k * W2 k j) + b2 j))
    * ((1 / 10000 : ℝ) : EReal)

/-! ### Coerced reals are closed under the operations used -/

/-- The coercion of a real to an extended real commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem real_zero : ∃ a : ℝ, (0 : EReal) = (a : EReal) := ⟨0, EReal.coe_zero.symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_max {a b : EReal} (ha : ∃ r : ℝ, a = (r : EReal)) (hb : ∃ r : ℝ, b = (r : EReal)) :
    ∃ r : ℝ, max a b = (r : EReal) := by
  rcases le_total a b with h | h
  · rw [max_eq_right h]; exact hb
  · rw [max_eq_left h]; exact ha

theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [coe_sum]; exact Finset.sum_congr rfl (fun i _ => hg i)⟩

/-! ### The regrouping over the reals -/

/-- Distribute, exchange the two sums, and collapse the inner sum over the columns to its one nonzero term. -/
theorem regroup {ι κ : Type*} [Fintype ι] [Fintype κ] [DecidableEq κ] (v : ι → ℝ) (row col : ι → κ) (y : κ → ℝ) (r : κ) :
    ∑ c : κ, (∑ e : ι, if row e = r ∧ col e = c then v e else 0) * y c
      = ∑ e : ι, if row e = r then v e * y (col e) else 0 := by
  simp_rw [Finset.sum_mul]
  rw [Finset.sum_comm]
  refine Finset.sum_congr rfl (fun e _ => ?_)
  by_cases h : row e = r
  · simp only [h, true_and, if_true, ite_mul, zero_mul]
    rw [Finset.sum_ite_eq]
    simp
  · simp [h]

/-- The product of the dense matrix with a real operand of any width is the edge-wise sum. -/
theorem adj_mul_eq_edgeSum {d : Nat} (nrm : Fin 10000 → EReal) (row col : Fin 640000 → Fin 10000)
    (x : Fin 10000 → Fin d → EReal) (hn : ∀ r, ∃ a : ℝ, nrm r = (a : EReal))
    (hx : ∀ r k, ∃ a : ℝ, x r k = (a : EReal)) (r : Fin 10000) (k : Fin d) :
    ∑ c : Fin 10000, adj nrm row col r c * x c k = edgeSum nrm row col x r k := by
  choose n' hn' using hn
  choose x' hx' using hx
  have hv : ∀ e, vals nrm row col e = ((n' (row e) * n' (col e) : ℝ) : EReal) := by
    intro e
    rw [vals, hn', hn', EReal.coe_mul]
  have hadj : ∀ c, adj nrm row col r c
      = ((∑ e : Fin 640000, if row e = r ∧ col e = c then n' (row e) * n' (col e) else 0 : ℝ) : EReal) := by
    intro c
    rw [adj, coe_sum]
    refine Finset.sum_congr rfl (fun e _ => ?_)
    split_ifs
    · exact hv e
    · exact EReal.coe_zero.symm
  have hL : ∑ c : Fin 10000, adj nrm row col r c * x c k
      = ((∑ c : Fin 10000, (∑ e : Fin 640000, if row e = r ∧ col e = c then n' (row e) * n' (col e) else 0)
          * x' c k : ℝ) : EReal) := by
    rw [coe_sum]
    refine Finset.sum_congr rfl (fun c _ => ?_)
    rw [hadj, hx', EReal.coe_mul]
  have hR : edgeSum nrm row col x r k
      = ((∑ e : Fin 640000, if row e = r then n' (row e) * n' (col e) * x' (col e) k else 0 : ℝ) : EReal) := by
    rw [edgeSum, coe_sum]
    refine Finset.sum_congr rfl (fun e _ => ?_)
    split_ifs
    · rw [hv, hx', ← EReal.coe_mul]
    · exact EReal.coe_zero.symm
  rw [hL, hR, regroup (fun e => n' (row e) * n' (col e)) row col (fun c => x' c k) r]

/-- The edge-wise sum of a real operand is real. -/
theorem real_edgeSum {d : Nat} (nrm : Fin 10000 → EReal) (row col : Fin 640000 → Fin 10000)
    (x : Fin 10000 → Fin d → EReal) (hn : ∀ r, ∃ a : ℝ, nrm r = (a : EReal))
    (hx : ∀ r k, ∃ a : ℝ, x r k = (a : EReal)) (r : Fin 10000) (k : Fin d) :
    ∃ a : ℝ, edgeSum nrm row col x r k = (a : EReal) := by
  rw [edgeSum]
  refine real_sum _ _ (fun e => ?_)
  split_ifs
  · exact real_mul (real_mul (hn _) (hn _)) (hx _ _)
  · exact real_zero

/-- The hidden layer is real: a maximum of two reals. -/
theorem real_edgeHidden (nrm : Fin 10000 → EReal) (row col : Fin 640000 → Fin 10000) (x : Fin 10000 → Fin 128 → EReal)
    (W1 : Fin 128 → Fin 16 → EReal) (b1 : Fin 16 → EReal)
    (hn : ∀ r, ∃ a : ℝ, nrm r = (a : EReal)) (hx : ∀ r k, ∃ a : ℝ, x r k = (a : EReal))
    (hW1 : ∀ k j, ∃ a : ℝ, W1 k j = (a : EReal)) (hb1 : ∀ j, ∃ a : ℝ, b1 j = (a : EReal)) (r : Fin 10000) (j : Fin 16) :
    ∃ a : ℝ, edgeHidden nrm row col x W1 b1 r j = (a : EReal) := by
  rw [edgeHidden]
  refine real_max (real_add (real_sum _ _ (fun k => ?_)) (hb1 j)) real_zero
  exact real_mul (real_edgeSum nrm row col x hn hx r k) (hW1 k j)

/-! ### The rows, tile by tile -/

/-- The rows `400 * t + p` run over every row exactly once: quotient and remainder by 400. -/
def tileEquiv : Fin 25 × Fin 400 ≃ Fin 10000 where
  toFun tp := tileRow tp.1 tp.2
  invFun r := (⟨r.val / 400, by omega⟩, ⟨r.val % 400, by omega⟩)
  left_inv := by
    rintro ⟨t, p⟩
    ext
    · simp only [tileRow]; omega
    · simp only [tileRow]; omega
  right_inv := by
    intro r
    ext
    simp only [tileRow]
    omega

/-- A sum over 25 tiles of 400 rows is the sum over the 10000 rows. -/
theorem sum_tileRow {M : Type*} [AddCommMonoid M] (f : Fin 10000 → M) :
    ∑ t : Fin 25, ∑ p : Fin 400, f (tileRow t p) = ∑ r : Fin 10000, f r := by
  rw [← Equiv.sum_comp tileEquiv f, Fintype.sum_prod_type]
  rfl

/-- Over real inputs the dense and the edge-wise computations agree. -/
theorem denseResult_eq_edgeResult (nrm : Fin 10000 → EReal) (row col : Fin 640000 → Fin 10000) (x : Fin 10000 → Fin 128 → EReal)
    (W1 : Fin 128 → Fin 16 → EReal) (b1 : Fin 16 → EReal) (W2 : Fin 16 → Fin 8 → EReal) (b2 : Fin 8 → EReal)
    (hn : ∀ r, ∃ a : ℝ, nrm r = (a : EReal)) (hx : ∀ r k, ∃ a : ℝ, x r k = (a : EReal))
    (hW1 : ∀ k j, ∃ a : ℝ, W1 k j = (a : EReal)) (hb1 : ∀ j, ∃ a : ℝ, b1 j = (a : EReal))
    (hW2 : ∀ k j, ∃ a : ℝ, W2 k j = (a : EReal)) (hb2 : ∀ j, ∃ a : ℝ, b2 j = (a : EReal)) (j : Fin 8) :
    denseResult nrm row col x W1 b1 W2 b2 j = edgeResult nrm row col x W1 b1 W2 b2 j := by
  -- the first layers agree entry by entry
  have hH : denseHidden (adj nrm row col) x W1 b1 = edgeHidden nrm row col x W1 b1 := by
    funext r i
    rw [denseHidden, edgeHidden]
    simp only [adj_mul_eq_edgeSum nrm row col x hn hx]
  -- the second layer's operand is real
  have hreal := real_edgeHidden nrm row col x W1 b1 hn hx hW1 hb1
  rw [denseResult, denseMean, edgeResult, hH]
  simp only [adj_mul_eq_edgeSum nrm row col (edgeHidden nrm row col x W1 b1) hn hreal]
  rw [sum_tileRow (fun r => (∑ k : Fin 16, edgeSum nrm row col (edgeHidden nrm row col x W1 b1) r k * W2 k j) + b2 j)]

end Cert.Spec

end
-- ==== Proof.Inputs.lean ====
/-
  Arrays as plain functions of their coordinates, and the two facts the precondition gives: every float entry is a real
  number, every edge endpoint is a node number below 10000.
-/
import Idealize.ShloMosaic.PureOps.Ideal
import Idealize.ShloMosaic.Lib.ValueIdx

noncomputable section

namespace Cert.Inp

open Idealize.ShloMosaic Idealize.ShloMosaic.ValueIdx

/-- A rank-2 array as a function of its two coordinates. -/
def mat {a b : Nat} {α : Type} (x : (⟨2, ![a, b]⟩ : Shape).Idx → α) : Fin a → Fin b → α := fun r k => x (ix2 r k)

/-- A rank-1 array as a function of its coordinate. -/
def vec {a : Nat} {α : Type} (x : (⟨1, ![a]⟩ : Shape).Idx → α) : Fin a → α := fun r => x (ix1 r)

/-- The one row of a 1×b array as a function of the column. -/
def row0 {b : Nat} {α : Type} (x : (⟨2, ![1, b]⟩ : Shape).Idx → α) : Fin b → α := fun k => x (ix2 0 k)

/-- The node an edge endpoint names: the 32-bit word read as a natural number (reduced modulo 10000, so that it is
    defined for every word; for a word in range it is the word itself). -/
def nodeOf (ix : (⟨1, ![640000]⟩ : Shape).Idx → BitVec 32) : Fin 640000 → Fin 10000 :=
  fun e => ⟨(ix (ix1 e)).toNat % 10000, Nat.mod_lt _ (by norm_num)⟩

/-- Every endpoint is a node number: as a signed integer, at least 0 and below 10000. -/
def InRange (ix : (⟨1, ![640000]⟩ : Shape).Idx → BitVec 32) : Prop :=
  ∀ e, 0 ≤ (ix e).toInt ∧ (ix e).toInt < 10000

/-- Every entry of the array is a real number. -/
def IsReal {S : Shape} (x : S.Idx → EReal) : Prop := ∀ i, ∃ a : ℝ, x i = (a : EReal)

end Cert.Inp

end
-- ==== Proof.KIVal0.lean ====
/-
  What the first region leaves in its output array, at the ideal instance: row `r` of the array is
  `max ((A_r · X) · W1 + b1) 0`, the adjacency row times the feature matrix times the first weight matrix plus the bias,
  clipped below at zero — read off the pipeline's write-backs, tile by tile (25 tiles of 400 rows cover the array).
-/
import proofs.«406582_j58411555225956_1_alg».proof.Proof.KIFrame0
import proofs.«406582_j58411555225956_1_alg».proof.Proof.Spec
import proofs.«406582_j58411555225956_1_alg».proof.Proof.Inputs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Hand
open Idealize.ShloMosaic Idealize.ShloMosaic.TcCoe Idealize.ShloMosaic.ValueIdx Idealize.SL.Sem
open Cert.Inp

/-! ## The two products of the body, at an index -/

theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The tile of the adjacency matrix times the features, into a zero accumulator: entry (p, k) is the sum over the
    10000 columns. -/
theorem mmA_apply (x0 : FVec Ideal S400x10000 .bf16) (x1 : FVec Ideal S10000x128 .bf16) (p : Fin 400) (k : Fin 128) :
    FloatOps.matmul dot_S400x10000_S10000x128_S400x128_1_0_0_1_n_n none x0 x1 (constant (F := Ideal) S400x128 .f32 0x00000000#32) (ix2 p k)
      = ∑ c : Fin 10000, x0 (ix2 p c) * x1 (ix2 c k) := by
  rw [Ideal.matmul_constant_zero_apply, ← Equiv.sum_comp (ValueIdx.contrEquiv1 dot_S400x10000_S10000x128_S400x128_1_0_0_1_n_n 10000 rfl rfl).symm]
  refine Finset.sum_congr rfl fun c _ => ?_
  have hk := ValueIdx.contrEquiv1_symm_val dot_S400x10000_S10000x128_S400x128_1_0_0_1_n_n 10000 rfl rfl c
  have el : dot_S400x10000_S10000x128_S400x128_1_0_0_1_n_n.lhsIdx (ix2 p k) ((ValueIdx.contrEquiv1 dot_S400x10000_S10000x128_S400x128_1_0_0_1_n_n 10000 rfl rfl).symm c) = ix2 p c := funext fun a => Fin.ext (by
    match a with
    | ⟨0, _⟩ => exact lhsA_0 _ _
    | ⟨1, _⟩ => exact (lhsA_1 _ _).trans hk)
  have er : dot_S400x10000_S10000x128_S400x128_1_0_0_1_n_n.rhsIdx (ix2 p k) ((ValueIdx.contrEquiv1 dot_S400x10000_S10000x128_S400x128_1_0_0_1_n_n 10000 rfl rfl).symm c) = ix2 c k := funext fun a => Fin.ext (by
    match a with
    | ⟨0, _⟩ => exact (rhsA_0 _ _).trans hk
    | ⟨1, _⟩ => exact rhsA_1 _ _)
  rw [el, er]

theorem lhsB_0 (i : S400x16.Idx) (q : dot_S400x128_S128x16_S400x16_1_0_0_1_n_n.contr.Idx) :
    (dot_S400x128_S128x16_S400x16_1_0_0_1_n_n.lhsIdx i q 0).val = (i 0).val := by
  unfold DotDims.lhsIdx
  rw [dif_neg (show ¬(0 : Fin S400x128.rank) ∈ dot_S400x128_S128x16_S400x16_1_0_0_1_n_n.lhsBatch by decide), dif_pos (show (0 : Fin S400x128.rank) ∈ dot_S400x128_S128x16_S400x16_1_0_0_1_n_n.lhsNonContracting by decide)]
  rfl
theorem lhsB_1 (i : S400x16.Idx) (q : dot_S400x128_S128x16_S400x16_1_0_0_1_n_n.contr.Idx) :
    (dot_S400x128_S128x16_S400x16_1_0_0_1_n_n.lhsIdx i q 1).val = (q ⟨0, by decide⟩).val :=
  dot_S400x128_S128x16_S400x16_1_0_0_1_n_n.lhsIdx_val_of_single rfl i q
theorem rhsB_0 (i : S400x16.Idx) (q : dot_S400x128_S128x16_S400x16_1_0_0_1_n_n.contr.Idx) :
    (dot_S400x128_S128x16_S400x16_1_0_0_1_n_n.rhsIdx i q 0).val = (q ⟨0, by decide⟩).val :=
  dot_S400x128_S128x16_S400x16_1_0_0_1_n_n.rhsIdx_val_of_single rfl i q
theorem rhsB_1 (i : S400x16.Idx) (q : dot_S400x128_S128x16_S400x16_1_0_0_1_n_n.contr.Idx) :
    (dot_S400x128_S128x16_S400x16_1_0_0_1_n_n.rhsIdx i q 1).val = (i 1).val := by
  unfold DotDims.rhsIdx
  rw [dif_neg (show ¬(1 : Fin S128x16.rank) ∈ dot_S400x128_S128x16_S400x16_1_0_0_1_n_n.rhsBatch by decide), dif_pos (show (1 : Fin S128x16.rank) ∈ dot_S400x128_S128x16_S400x16_1_0_0_1_n_n.rhsNonContracting by decide)]
  rfl

/-- That product times the first weight matrix, into a zero accumulator: entry (p, j) is the sum over the 128 features. -/
theorem mmB_apply (y : FVec Ideal S400x128 .bf16) (x2 : FVec Ideal S128x16 .bf16) (p : Fin 400) (j : Fin 16) :
    FloatOps.matmul dot_S400x128_S128x16_S400x16_1_0_0_1_n_n none y x2 (constant (F := Ideal) S400x16 .f32 0x00000000#32) (ix2 p j)
      = ∑ k : Fin 128, y (ix2 p k) * x2 (ix2 k j) := by
  rw [Ideal.matmul_constant_zero_apply, ← Equiv.sum_comp (ValueIdx.contrEquiv1 dot_S400x128_S128x16_S400x16_1_0_0_1_n_n 128 rfl rfl).symm]
  refine Finset.sum_congr rfl fun k _ => ?_
  have hk := ValueIdx.contrEquiv1_symm_val dot_S400x128_S128x16_S400x16_1_0_0_1_n_n 128 rfl rfl k
  have el : dot_S400x128_S128x16_S400x16_1_0_0_1_n_n.lhsIdx (ix2 p j) ((ValueIdx.contrEquiv1 dot_S400x128_S128x16_S400x16_1_0_0_1_n_n 128 rfl rfl).symm k) = ix2 p k := funext fun a => Fin.ext (by
    match a with
    | ⟨0, _⟩ => exact lhsB_0 _ _
    | ⟨1, _⟩ => exact (lhsB_1 _ _).trans hk)
  have er : dot_S400x128_S128x16_S400x16_1_0_0_1_n_n.rhsIdx (ix2 p j) ((ValueIdx.contrEquiv1 dot_S400x128_S128x16_S400x16_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-- The bias row broadcast down the 400 rows of the tile reads, at (p, j), the row's entry j. -/
theorem bias_apply (x3 : FVec Ideal S1x16 .f32) (p : Fin 400) (j : Fin 16) :
    broadcastTo S400x16 x3 broadcasts_S1x16_S400x16 (ix2 p j) = x3 (ix2 0 j) :=
  broadcastTo_apply x3 broadcasts_S1x16_S400x16 (ix2 p j) (ix2 0 j) (fun a => match a with
    | ⟨0, _⟩ => by show (0 : Nat) = if (1 : Nat) = 1 then 0 else _; rw [if_pos rfl]
    | ⟨1, _⟩ => by show j.val = if (16 : Nat) = 1 then 0 else j.val; rw [if_neg (by decide)])

/-- The body's arithmetic at an index of the output block: the two products, the bias, the clip at zero. -/
theorem pay_apply (x0 : Vec Ideal S400x10000 .bf16) (x1 : Vec Ideal S10000x128 .bf16) (x2 : Vec Ideal S128x16 .bf16) (x3 : Vec Ideal S1x16 .f32)
    (p : Fin 400) (j : Fin 16) :
    k0_pay1 (F := Ideal) x0 x1 x2 x3 (ix2 p j)
      = max ((∑ k : Fin 128, (∑ c : Fin 10000, x0 (ix2 p c) * x1 (ix2 c k)) * x2 (ix2 k j)) + x3 (ix2 0 j)) 0 := by
  unfold k0_pay1
  simp only [shapeCast_self]
  refine (maximumf_apply _ _ _).trans ?_
  rw [addf_apply, broadcast_apply]
  simp only [matmul]
  rw [mmB_apply, bias_apply]
  simp only [truncf_apply, mmA_apply]
  exact congrArg (max _) Ideal.ofBits_zero_f32

variable (V : (c : Dev nD) → (b : Ref sig .tc) → Buf (Elt Ideal) ((c : Thread nD τ).loc b))

/-! ## From the blocks to the array -/

theorem hz : (![0, 0] : Fin 2 → Nat) = fun _ => 0 := funext fun a => by
  match a with
  | ⟨0, _⟩ => rfl
  | ⟨1, _⟩ => rfl

/-- The first layer of the four operand arrays as the region finds them, as one function of the output array's index. -/
abbrev hidden (c : Dev nD) : S10000x16.Idx → EReal := fun i =>
  Cert.Spec.denseHidden (mat (V c main_v30 : S10000x10000.Idx → EReal)) (mat (V c main_v31 : S10000x128.Idx → EReal))
    (mat (V c main_v32 : S128x16.Idx → EReal)) (row0 (V c main_v34 : S1x16.Idx → EReal)) (i 0) (i 1)

/-- The body's arithmetic on blocks that are: row r of the adjacency matrix under row p of the tile, and the three
    small operands whole, is the first layer at row r. -/
theorem pay_eq_hidden (A : S10000x10000.Idx → EReal) (X : S10000x128.Idx → EReal) (W : S128x16.Idx → EReal) (b : S1x16.Idx → EReal)
    (x0 : Vec Ideal S400x10000 .bf16) (x1 : Vec Ideal S10000x128 .bf16) (x2 : Vec Ideal S128x16 .bf16) (x3 : Vec Ideal S1x16 .f32)
    (r : Fin 10000) (p : Fin 400) (j : Fin 16)
    (h0 : ∀ cc : Fin 10000, x0 (ix2 p cc) = A (ix2 r cc)) (h1 : ∀ (cc : Fin 10000) (k : Fin 128), x1 (ix2 cc k) = X (ix2 cc k))
    (h2 : ∀ k : Fin 128, x2 (ix2 k j) = W (ix2 k j)) (h3 : x3 (ix2 0 j) = b (ix2 0 j)) :
    k0_pay1 (F := Ideal) x0 x1 x2 x3 (ix2 p j) = Cert.Spec.denseHidden (mat A) (mat X) (mat W) (row0 b) r j := by
  rw [pay_apply]
  unfold Cert.Spec.denseHidden mat row0
  simp only [h0, h1, h2, h3]

/-- The printed index maps, decided over the 25 points: the adjacency window and the output window move down one
    tile per point, the three small operands' windows stay at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What a point writes back is its block of the first layer of the operand arrays. -/
theorem flushed_eq (c : Dev nD) (t : Fin cfg0.N) :
    (dat0 (F := Ideal) V c).flushed 4 t = ((cfg0.win 4).blk t).view.read (Elt Ideal) (hidden V c) := by
  show (cfg0.win 4).cut (grid0.coords t) ((dat0 (F := Ideal) V c).after 4 t) = _
  rw [after0_4]
  unfold out0_4
  rw [View.canon_unit_zero hz]
  simp only [View.ld_unit_zero (S := S400x10000) hz, View.ld_unit_zero (S := S10000x128) hz, View.ld_unit_zero (S := S128x16) hz,
    View.ld_unit_zero (S := S1x16) hz]
  obtain ⟨e00, e01, e10, e11, e20, e21, e30, e31, e40, e41⟩ := idx_facts t
  funext y
  obtain ⟨p, j, rfl⟩ : ∃ (p : Fin 400) (j : Fin 16), y = ix2 p j := ⟨y 0, y 1, eq_ix2 y⟩
  show k0_pay1 (F := Ideal) (iblk0 V c 0 t) (iblk0 V c 1 t) (iblk0 V c 2 t) (iblk0 V c 3 t) (ix2 p j)
    = hidden V c (((cfg0.win 4).blk t).view.emb (ix2 p j))
  have hj : ((cfg0.win 4).blk t).view.emb (ix2 p j) 1 = j :=
    Fin.ext (by show win0_4.index t (1 : Fin 2) * 16 + 1 * j.val = j.val; omega)
  refine (pay_eq_hidden (V c main_v30) (V c main_v31) (V c main_v32) (V c main_v34)
    (iblk0 V c 0 t) (iblk0 V c 1 t) (iblk0 V c 2 t) (iblk0 V c 3 t) (((cfg0.win 4).blk t).view.emb (ix2 p j) 0) p j ?_ ?_ ?_ ?_).trans ?_
  · intro cc
    show V c main_v30 (((cfg0.win 0).blk t).view.emb (ix2 p cc)) = V c main_v30 (ix2 (((cfg0.win 4).blk t).view.emb (ix2 p j) 0) cc)
    refine congrArg _ (funext fun a => Fin.ext ?_)
    match a with
    | ⟨0, _⟩ => show win0_0.index t (0 : Fin 2) * 400 + 1 * p.val = win0_4.index t (0 : Fin 2) * 400 + 1 * p.val; omega
    | ⟨1, _⟩ => show win0_0.index t (1 : Fin 2) * 10000 + 1 * cc.val = cc.val; omega
  · intro cc k
    show V c main_v31 (((cfg0.win 1).blk t).view.emb (ix2 cc k)) = V c main_v31 (ix2 cc k)
    refine congrArg _ (funext fun a => Fin.ext ?_)
    match a with
    | ⟨0, _⟩ => show win0_1.index t (0 : Fin 2) * 10000 + 1 * cc.val = cc.val; omega
    | ⟨1, _⟩ => show win0_1.index t (1 : Fin 2) * 128 + 1 * k.val = k.val; omega
  · intro k
    show V c main_v32 (((cfg0.win 2).blk t).view.emb (ix2 k j)) = V c main_v32 (ix2 k j)
    refine congrArg _ (funext fun a => Fin.ext ?_)
    match a with
    | ⟨0, _⟩ => show win0_2.index t (0 : Fin 2) * 128 + 1 * k.val = k.val; omega
    | ⟨1, _⟩ => show win0_2.index t (1 : Fin 2) * 16 + 1 * j.val = j.val; omega
  · show V c main_v34 (((cfg0.win 3).blk t).view.emb (ix2 0 j)) = V c main_v34 (ix2 0 j)
    refine congrArg _ (funext fun a => Fin.ext ?_)
    match a with
    | ⟨0, _⟩ => show win0_3.index t (0 : Fin 2) * 1 + 1 * 0 = 0; omega
    | ⟨1, _⟩ => show win0_3.index t (1 : Fin 2) * 16 + 1 * j.val = j.val; omega
  · show Cert.Spec.denseHidden _ _ _ _ _ j = Cert.Spec.denseHidden _ _ _ _ _ (((cfg0.win 4).blk t).view.emb (ix2 p j) 1)
    rw [hj]

/-- An index of the array is in a point's block iff each coordinate is in the block's range on its axis. -/
theorem mem_blk (t : Fin cfg0.N) (i : S10000x16.Idx) :
    i ∈ ((cfg0.win 4).blk t).view.set ↔ ∀ a : Fin 2, win0_4.index t a * S400x16.size a ≤ (i a).val ∧ (i a).val < win0_4.index t a * S400x16.size a + S400x16.size a := by
  show i ∈ ((View.whole main_v36).slice (win0_4.rect t)).set ↔ _
  rw [View.set_slice_whole, Rect.mem_set_unit]
  exact Iff.rfl

/-- Every row of the array is in some point's block: row r in the block of point r / 400. -/
theorem cover (i : S10000x16.Idx) : ∃ t : Fin cfg0.N, (cfg0.win 4).flush t = true ∧ i ∈ ((cfg0.win 4).blk t).view.set := by
  have hi0 : (i 0).val < 10000 := (i 0).isLt
  have hi1 : (i 1).val < 16 := (i 1).isLt
  have ht : (i 0).val / 400 < cfg0.N := by show (i 0).val / 400 < grid0.N; rw [N_0]; omega
  obtain ⟨-, -, -, -, -, -, -, -, e40, e41⟩ := idx_facts ⟨(i 0).val / 400, ht⟩
  have e40' : win0_4.index ⟨(i 0).val / 400, ht⟩ (0 : Fin 2) = (i 0).val / 400 := e40
  refine ⟨⟨(i 0).val / 400, ht⟩, flush0_4 _, ?_⟩
  rw [mem_blk]
  intro a
  match a with
  | ⟨0, _⟩ =>
    show win0_4.index ⟨(i 0).val / 400, ht⟩ (0 : Fin 2) * 400 ≤ (i 0).val ∧ (i 0).val < win0_4.index ⟨(i 0).val / 400, ht⟩ (0 : Fin 2) * 400 + 400
    omega
  | ⟨1, _⟩ =>
    show win0_4.index ⟨(i 0).val / 400, ht⟩ (1 : Fin 2) * 16 ≤ (i 1).val ∧ (i 1).val < win0_4.index ⟨(i 0).val / 400, ht⟩ (1 : Fin 2) * 16 + 16
    omega

/-- After its 25 points the first pipeline's output array holds the first layer computed through the dense matrix, of the
    four operand arrays as the region found them (the adjacency matrix, the features, the first weights, the bias row). -/
theorem arr0_4 (c : Dev nD) :
    (dat0 (F := Ideal) V c).arrAt 4 cfg0.N
      = fun i : S10000x16.Idx => Cert.Spec.denseHidden (mat (V c main_v30 : S10000x10000.Idx → EReal)) (mat (V c main_v31 : S10000x128.Idx → EReal))
          (mat (V c main_v32 : S128x16.Idx → EReal)) (row0 (V c main_v34 : S1x16.Idx → EReal)) (i 0) (i 1) :=
  (dat0 (F := Ideal) V c).arrAt_eq_of_cover 4 (hidden V c) (fun t _ => flushed_eq V c t) cover

end Cert.KernelIdeal.Val0

end
-- ==== Proof.KIVal1.lean ====
/-
  What the second region leaves in its output array, at the ideal instance: the column sums, over all 10000 rows taken
  tile by tile, of `(A · H) · W2 + b2`, times `1/10000` — the running sum the body keeps in its scratch, written back at
  the last point.
-/
import proofs.«406582_j58411555225956_1_alg».proof.Proof.KIFrame1
import proofs.«406582_j58411555225956_1_alg».proof.Proof.Spec
import proofs.«406582_j58411555225956_1_alg».proof.Proof.Inputs
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

namespace Cert.KernelIdeal.Val1

open Cert.KernelIdeal Cert.KernelIdeal.Gen Cert.KernelIdeal.Hand
open Idealize.ShloMosaic Idealize.ShloMosaic.TcCoe Idealize.ShloMosaic.ValueIdx Idealize.SL.Sem
open Cert.Inp

/-! ## The two matrix products at an index -/

theorem lhs_AH_0 (i : S400x16.Idx) (q : dot_S400x10000_S10000x16_S400x16_1_0_0_1_n_n.contr.Idx) :
    (dot_S400x10000_S10000x16_S400x16_1_0_0_1_n_n.lhsIdx i q 0).val = (i 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhs_AH_1 (i : S400x16.Idx) (q : dot_S400x10000_S10000x16_S400x16_1_0_0_1_n_n.contr.Idx) :
    (dot_S400x10000_S10000x16_S400x16_1_0_0_1_n_n.lhsIdx i q 1).val = (q ⟨0, by decide⟩).val :=
  dot_S400x10000_S10000x16_S400x16_1_0_0_1_n_n.lhsIdx_val_of_single rfl i q
theorem rhs_AH_0 (i : S400x16.Idx) (q : dot_S400x10000_S10000x16_S400x16_1_0_0_1_n_n.contr.Idx) :
    (dot_S400x10000_S10000x16_S400x16_1_0_0_1_n_n.rhsIdx i q 0).val = (q ⟨0, by decide⟩).val :=
  dot_S400x10000_S10000x16_S400x16_1_0_0_1_n_n.rhsIdx_val_of_single rfl i q
theorem rhs_AH_1 (i : S400x16.Idx) (q : dot_S400x10000_S10000x16_S400x16_1_0_0_1_n_n.contr.Idx) :
    (dot_S400x10000_S10000x16_S400x16_1_0_0_1_n_n.rhsIdx i q 1).val = (i 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The tile of the adjacency matrix times the hidden features, into the zero accumulator: the plain sum over the
    10000 columns. -/
theorem matmul_AH_apply (x0 : FVec Ideal S400x10000 .bf16) (x1 : FVec Ideal S10000x16 .bf16) (p : Fin 400) (k : Fin 16) :
    matmul dot_S400x10000_S10000x16_S400x16_1_0_0_1_n_n none x0 x1 (constant (F := Ideal) S400x16 .f32 0x00000000#32) (ix2 p k)
      = ∑ c : Fin 10000, x0 (ix2 p c) * x1 (ix2 c k) := by
  simp only [matmul]
  rw [Ideal.matmul_constant_zero_apply, ← Equiv.sum_comp (ValueIdx.contrEquiv1 dot_S400x10000_S10000x16_S400x16_1_0_0_1_n_n 10000 rfl rfl).symm]
  refine Finset.sum_congr rfl fun c _ => ?_
  have hk := ValueIdx.contrEquiv1_symm_val dot_S400x10000_S10000x16_S400x16_1_0_0_1_n_n 10000 rfl rfl c
  have el : dot_S400x10000_S10000x16_S400x16_1_0_0_1_n_n.lhsIdx (ix2 p k) ((ValueIdx.contrEquiv1 dot_S400x10000_S10000x16_S400x16_1_0_0_1_n_n 10000 rfl rfl).symm c) = ix2 p c := funext fun a => Fin.ext (by
    match a with
    | ⟨0, _⟩ => exact lhs_AH_0 _ _
    | ⟨1, _⟩ => exact (lhs_AH_1 _ _).trans hk)
  have er : dot_S400x10000_S10000x16_S400x16_1_0_0_1_n_n.rhsIdx (ix2 p k) ((ValueIdx.contrEquiv1 dot_S400x10000_S10000x16_S400x16_1_0_0_1_n_n 10000 rfl rfl).symm c) = ix2 c k := funext fun a => Fin.ext (by
    match a with
    | ⟨0, _⟩ => exact (rhs_AH_0 _ _).trans hk
    | ⟨1, _⟩ => exact rhs_AH_1 _ _)
  rw [el, er]

theorem lhs_TW_0 (i : S400x8.Idx) (q : dot_S400x16_S16x8_S400x8_1_0_0_1_n_n.contr.Idx) :
    (dot_S400x16_S16x8_S400x8_1_0_0_1_n_n.lhsIdx i q 0).val = (i 0).val := by
  unfold DotDims.lhsIdx
  rw [dif_neg (show ¬(0 : Fin S400x16.rank) ∈ dot_S400x16_S16x8_S400x8_1_0_0_1_n_n.lhsBatch by decide), dif_pos (show (0 : Fin S400x16.rank) ∈ dot_S400x16_S16x8_S400x8_1_0_0_1_n_n.lhsNonContracting by decide)]
  rfl
theorem lhs_TW_1 (i : S400x8.Idx) (q : dot_S400x16_S16x8_S400x8_1_0_0_1_n_n.contr.Idx) :
    (dot_S400x16_S16x8_S400x8_1_0_0_1_n_n.lhsIdx i q 1).val = (q ⟨0, by decide⟩).val :=
  dot_S400x16_S16x8_S400x8_1_0_0_1_n_n.lhsIdx_val_of_single rfl i q
theorem rhs_TW_0 (i : S400x8.Idx) (q : dot_S400x16_S16x8_S400x8_1_0_0_1_n_n.contr.Idx) :
    (dot_S400x16_S16x8_S400x8_1_0_0_1_n_n.rhsIdx i q 0).val = (q ⟨0, by decide⟩).val :=
  dot_S400x16_S16x8_S400x8_1_0_0_1_n_n.rhsIdx_val_of_single rfl i q
theorem rhs_TW_1 (i : S400x8.Idx) (q : dot_S400x16_S16x8_S400x8_1_0_0_1_n_n.contr.Idx) :
    (dot_S400x16_S16x8_S400x8_1_0_0_1_n_n.rhsIdx i q 1).val = (i 1).val := by
  unfold DotDims.rhsIdx
  rw [dif_neg (show ¬(1 : Fin S16x8.rank) ∈ dot_S400x16_S16x8_S400x8_1_0_0_1_n_n.rhsBatch by decide), dif_pos (show (1 : Fin S16x8.rank) ∈ dot_S400x16_S16x8_S400x8_1_0_0_1_n_n.rhsNonContracting by decide)]
  rfl

/-- The 400×16 product times the second weights, into the zero accumulator: the plain sum over the 16 hidden
    features. -/
theorem matmul_TW_apply (y : FVec Ideal S400x16 .bf16) (x2 : FVec Ideal S16x8 .bf16) (p : Fin 400) (j : Fin 8) :
    matmul dot_S400x16_S16x8_S400x8_1_0_0_1_n_n none y x2 (constant (F := Ideal) S400x8 .f32 0x00000000#32) (ix2 p j)
      = ∑ k : Fin 16, y (ix2 p k) * x2 (ix2 k j) := by
  simp only [matmul]
  rw [Ideal.matmul_constant_zero_apply, ← Equiv.sum_comp (ValueIdx.contrEquiv1 dot_S400x16_S16x8_S400x8_1_0_0_1_n_n 16 rfl rfl).symm]
  refine Finset.sum_congr rfl fun c _ => ?_
  have hk := ValueIdx.contrEquiv1_symm_val dot_S400x16_S16x8_S400x8_1_0_0_1_n_n 16 rfl rfl c
  have el : dot_S400x16_S16x8_S400x8_1_0_0_1_n_n.lhsIdx (ix2 p j) ((ValueIdx.contrEquiv1 dot_S400x16_S16x8_S400x8_1_0_0_1_n_n 16 rfl rfl).symm c) = ix2 p c := funext fun a => Fin.ext (by
    match a with
    | ⟨0, _⟩ => exact lhs_TW_0 _ _
    | ⟨1, _⟩ => exact (lhs_TW_1 _ _).trans hk)
  have er : dot_S400x16_S16x8_S400x8_1_0_0_1_n_n.rhsIdx (ix2 p j) ((ValueIdx.contrEquiv1 dot_S400x16_S16x8_S400x8_1_0_0_1_n_n 16 rfl rfl).symm c) = ix2 c j := funext fun a => Fin.ext (by
    match a with
    | ⟨0, _⟩ => exact (rhs_TW_0 _ _).trans hk
    | ⟨1, _⟩ => exact rhs_TW_1 _ _)
  rw [el, er]

/-! ## The body's three stored values at an index -/

/-- The value the first point resets the scratch to: zero. -/
theorem pay1_apply (i : S1x8.Idx) : (k1_pay1 (F := Ideal)) i = 0 := by
  unfold k1_pay1
  rw [shapeCast_self]
  show Ideal.ofBits .f32 0x00000000#32 = 0
  exact Ideal.ofBits_zero_f32

/-- The index the row reduction inserts the row coordinate into. -/
theorem lift_rows (h : S400x8.Reduces [0] S8) (j : Fin 8) (p : Fin 400) : h.lift (ix1 j) p = ix2 p j := by
  funext a
  apply Fin.ext
  match a with
  | ⟨0, _⟩ => rfl
  | ⟨1, _⟩ => rfl

/-- The column sums over the 400 rows of a 400×8 vector, as a 1×8 row. -/
theorem colsum_apply (v : FVec Ideal S400x8 .f32) (h : S400x8.Reduces [0] S8) (hφ : FKind.Formats .f32)
    (hacc : (0x00000000#32 : BitVec 32) = FKind.add.neutral .f32 hφ) (hc : S8.ShapeCasts S1x8) (j : Fin 8) :
    shapeCast S1x8 (multiReduction (F := Ideal) .add [0] S8 v 0x00000000#32 h hφ hacc) hc (ix2 0 j) = ∑ p : Fin 400, v (ix2 p j) := by
  refine (shapeCast_a_1a_apply _ hc 0 j).trans ?_
  refine (Ideal.multiReduction_add_single v 0x00000000#32 h hφ hacc (ix1 j)).trans ?_
  exact Finset.sum_congr rfl fun p _ => congrArg v (lift_rows h j p)

/-- A tile's addend at column `j`: the sum over its 400 rows of `(A_tile · H) · W2 + b2`, of the four blocks. -/
def tileAdd (x0 : Vec Ideal S400x10000 .bf16) (x1 : Vec Ideal S10000x16 .bf16) (x2 : Vec Ideal S16x8 .bf16)
    (x3 : Vec Ideal S1x8 .f32) (j : Fin 8) : EReal :=
  ∑ p : Fin 400, ((∑ k : Fin 16, (∑ c : Fin 10000, x0 (ix2 p c) * x1 (ix2 c k)) * x2 (ix2 k j)) + x3 (ix2 0 j))

/-- What a point stores into the scratch: what the scratch held plus the column sums, over the tile's 400 rows, of
    `(A_tile · H) · W2 + b2`. -/
theorem pay2_apply (x0 : Vec Ideal S400x10000 .bf16) (x1 : Vec Ideal S10000x16 .bf16) (x2 : Vec Ideal S16x8 .bf16)
    (x3 : Vec Ideal S1x8 .f32) (s : Vec Ideal S1x8 .f32) (j : Fin 8) :
    k1_pay2 x0 x1 x2 x3 s (ix2 0 j) = s (ix2 0 j) + tileAdd x0 x1 x2 x3 j := by
  unfold k1_pay2 tileAdd
  simp only [shapeCast_self]
  rw [addf_apply]
  refine congrArg (s (ix2 0 j) + ·) ?_
  refine (colsum_apply _ _ _ _ _ j).trans ?_
  refine Finset.sum_congr rfl fun p _ => ?_
  rw [addf_apply]
  refine congrArg₂ (· + ·) ?_ (broadcastTo_1b_ab_apply _ _ p j)
  refine (matmul_TW_apply _ _ p j).trans ?_
  refine Finset.sum_congr rfl fun k _ => ?_
  rw [truncf_apply]
  exact congrArg (· * x2 (ix2 k j)) (matmul_AH_apply _ _ p k)

/-- The named constant is the rational 1/10000. -/
theorem inv_10000 : Named.named (F := Ideal) Cert.KernelIdeal.κ "inv_10000" (φ := .f32) 0x38D1B717#32 = ((1 / 10000 : ℝ) : EReal) :=
  IdealRules.named_const.ideal_named_scalar _ _ _ _ rfl

/-- What the last point stores into the output block: the scratch times 1/10000. -/
theorem pay3_apply (s : Vec Ideal S1x8 .f32) (i : S1x8.Idx) : k1_pay3 s i = s i * ((1 / 10000 : ℝ) : EReal) := by
  unfold k1_pay3
  rw [mulf_apply, broadcast_apply, inv_10000]

/-! ## The blocks at a point, read off the arrays -/

variable (V : (c : Dev nD) → (b : Ref sig .tc) → Buf (Elt Ideal) ((c : Thread nD τ).loc b))

/-- The index maps at each of the 25 points: the adjacency window's block index is the point on the rows and zero on
    the columns; every other window's is zero on both axes. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The adjacency block at point `t` is rows `400 t + p` of the matrix. -/
theorem blk0_apply (c : Dev nD) (t : Fin cfg1.N) (p : Fin 400) (cc : Fin 10000) (r : Fin 10000)
    (hr : r.val = 400 * t.val + p.val) :
    iblk1 V c 0 t (ix2 p cc) = (V c main_v30 : S10000x10000.Idx → EReal) (ix2 r cc) := by
  obtain ⟨e0, e1, -⟩ := idx_facts t
  show (V c main_v30 : S10000x10000.Idx → EReal) (((cfg1.win 0).blk t).view.emb (ix2 p cc)) = _
  refine congrArg _ ?_
  funext a; apply Fin.ext
  match a with
  | ⟨0, _⟩ => show win1_0.index t (0 : Fin 2) * 400 + 1 * p.val = r.val; omega
  | ⟨1, _⟩ => show win1_0.index t (1 : Fin 2) * 10000 + 1 * cc.val = cc.val; omega

/-- The hidden-features block at any point is the whole array. -/
theorem blk1_apply (c : Dev nD) (t : Fin cfg1.N) (cc : Fin 10000) (k : Fin 16) :
    iblk1 V c 1 t (ix2 cc k) = (V c main_v37 : S10000x16.Idx → EReal) (ix2 cc k) := by
  obtain ⟨-, -, e0, e1, -⟩ := idx_facts t
  show (V c main_v37 : S10000x16.Idx → EReal) (((cfg1.win 1).blk t).view.emb (ix2 cc k)) = _
  refine congrArg _ ?_
  funext a; apply Fin.ext
  match a with
  | ⟨0, _⟩ => show win1_1.index t (0 : Fin 2) * 10000 + 1 * cc.val = cc.val; omega
  | ⟨1, _⟩ => show win1_1.index t (1 : Fin 2) * 16 + 1 * k.val = k.val; omega

/-- The second-weights block at any point is the whole array. -/
theorem blk2_apply (c : Dev nD) (t : Fin cfg1.N) (k : Fin 16) (j : Fin 8) :
    iblk1 V c 2 t (ix2 k j) = (V c main_v33 : S16x8.Idx → EReal) (ix2 k j) := by
  obtain ⟨-, -, -, -, e0, e1, -⟩ := idx_facts t
  show (V c main_v33 : S16x8.Idx → EReal) (((cfg1.win 2).blk t).view.emb (ix2 k j)) = _
  refine congrArg _ ?_
  funext a; apply Fin.ext
  match a with
  | ⟨0, _⟩ => show win1_2.index t (0 : Fin 2) * 16 + 1 * k.val = k.val; omega
  | ⟨1, _⟩ => show win1_2.index t (1 : Fin 2) * 8 + 1 * j.val = j.val; omega

/-- The bias block at any point is the whole row. -/
theorem blk3_apply (c : Dev nD) (t : Fin cfg1.N) (u : Fin 1) (j : Fin 8) :
    iblk1 V c 3 t (ix2 u j) = (V c main_v35 : S1x8.Idx → EReal) (ix2 u j) := by
  obtain ⟨-, -, -, -, -, -, e0, e1, -⟩ := idx_facts t
  show (V c main_v35 : S1x8.Idx → EReal) (((cfg1.win 3).blk t).view.emb (ix2 u j)) = _
  refine congrArg _ ?_
  funext a; apply Fin.ext
  match a with
  | ⟨0, _⟩ => show win1_3.index t (0 : Fin 2) * 1 + 1 * u.val = u.val; omega
  | ⟨1, _⟩ => show win1_3.index t (1 : Fin 2) * 8 + 1 * j.val = j.val; omega

/-! ## The running sum -/

/-- After the body at point number `n` the scratch holds, at column `j`, the sum of the addends of the points up to
    `n`: each point adds its own to what the point before left, the first to zero. -/
theorem acc_apply (c : Dev nD) (j : Fin 8) : ∀ n : ℕ,
    acc1 V c n (ix2 0 j)
      = ∑ t ∈ Finset.range (n + 1),
          tileAdd (iblk1 V c 0 (pt1 t)) (iblk1 V c 1 (pt1 t)) (iblk1 V c 2 (pt1 t)) (iblk1 V c 3 (pt1 t)) j
  | 0 => by
    show k1_pay2 (iblk1 V c 0 (pt1 0)) (iblk1 V c 1 (pt1 0)) (iblk1 V c 2 (pt1 0)) (iblk1 V c 3 (pt1 0)) (k1_pay1 (F := Ideal)) (ix2 0 j) = _
    refine (pay2_apply _ _ _ _ _ j).trans ?_
    rw [pay1_apply, zero_add, Finset.sum_range_one]
  | n + 1 => by
    show k1_pay2 (iblk1 V c 0 (pt1 (n + 1))) (iblk1 V c 1 (pt1 (n + 1))) (iblk1 V c 2 (pt1 (n + 1))) (iblk1 V c 3 (pt1 (n + 1))) (acc1 V c n) (ix2 0 j) = _
    refine (pay2_apply _ _ _ _ _ j).trans ?_
    rw [acc_apply c j n, Finset.sum_range_succ _ (n + 1)]

/-- The addend of tile `t`, read off the arrays: the sum over the tile's rows `400 t + p`. -/
theorem tileAdd_blocks (c : Dev nD) (t : Fin 25) (j : Fin 8) :
    tileAdd (iblk1 V c 0 (pt1 t.val)) (iblk1 V c 1 (pt1 t.val)) (iblk1 V c 2 (pt1 t.val)) (iblk1 V c 3 (pt1 t.val)) j
      = ∑ p : Fin 400, ((∑ k : Fin 16, (∑ cc : Fin 10000,
            mat (α := EReal) (V c main_v30 : S10000x10000.Idx → EReal) (Cert.Spec.tileRow t p) cc * mat (α := EReal) (V c main_v37 : S10000x16.Idx → EReal) cc k)
          * mat (α := EReal) (V c main_v33 : S16x8.Idx → EReal) k j) + row0 (α := EReal) (V c main_v35 : S1x8.Idx → EReal) j) := by
  unfold tileAdd
  refine Finset.sum_congr rfl fun p _ => ?_
  refine congrArg₂ (· + ·) ?_ (blk3_apply V c _ 0 j)
  refine Finset.sum_congr rfl fun k _ => ?_
  refine congrArg₂ (· * ·) ?_ (blk2_apply V c _ k j)
  refine Finset.sum_congr rfl fun cc _ => ?_
  refine congrArg₂ (· * ·) (blk0_apply V c _ p cc (Cert.Spec.tileRow t p) ?_) (blk1_apply V c _ cc k)
  show 400 * t.val + p.val = 400 * (t.val % 25) + p.val
  have := t.isLt
  omega

/-- The function the output array ends holding. -/
def G (c : Dev nD) : S1x8.Idx → EReal := fun i =>
  Cert.Spec.denseMean (mat (V c main_v30 : S10000x10000.Idx → EReal)) (mat (V c main_v37 : S10000x16.Idx → EReal))
    (mat (V c main_v33 : S16x8.Idx → EReal)) (row0 (V c main_v35 : S1x8.Idx → EReal)) (i 1)

/-- What the last point stores into the output block is the tiled mean, index by index. -/
theorem out_last (c : Dev nD) (y : S1x8.Idx) : k1_pay3 (acc1 V c 24) y = G V c y := by
  obtain ⟨u, j, rfl⟩ : ∃ (u : Fin 1) (j : Fin 8), y = ix2 u j := ⟨y 0, y 1, eq_ix2 y⟩
  obtain rfl : u = 0 := Subsingleton.elim _ _
  rw [pay3_apply, acc_apply V c j 24, Finset.sum_range]
  show _ = Cert.Spec.denseMean _ _ _ _ j
  unfold Cert.Spec.denseMean
  refine congrArg (· * ((1 / 10000 : ℝ) : EReal)) ?_
  exact Finset.sum_congr rfl fun t _ => tileAdd_blocks V c t j

/-! ## The output array after the 25 points -/

/-- What a point that writes the output block back writes is the block of `G`: only the last point does, and it
    has just stored the running sum times 1/10000. -/
theorem flushed_eq (c : Dev nD) (t : Fin cfg1.N) (hf : (cfg1.win 4).flush t = true) :
    (dat1 (F := Ideal) V c).flushed 4 t = ((cfg1.win 4).blk t).view.read (Elt Ideal) (G V c) := by
  have ht : t.val = 24 := by
    have h1 := (flush1_4 t).mp hf
    have h2 : t.val < 25 := lt_of_lt_of_eq t.isLt (show cfg1.N = 25 from N_1)
    omega
  obtain ⟨-, -, -, -, -, -, -, -, e0, e1⟩ := idx_facts t
  show (cfg1.win 4).cut (grid1.coords t) ((dat1 (F := Ideal) V c).after 4 t) = _
  rw [after1_4, ht]
  funext y
  show k1_pay3 (acc1 V c 24) y = G V c (((cfg1.win 4).blk t).view.emb y)
  rw [out_last]
  refine congrArg (G V c) ?_
  funext a; apply Fin.ext
  match a with
  | ⟨0, _⟩ => show (y 0).val = win1_4.index t (0 : Fin 2) * 1 + 1 * (y 0).val; omega
  | ⟨1, _⟩ => show (y 1).val = win1_4.index t (1 : Fin 2) * 8 + 1 * (y 1).val; omega

/-- The last point's block is the whole 1×8 array. -/
theorem cover (i : S1x8.Idx) :
    ∃ t : Fin cfg1.N, (cfg1.win 4).flush t = true ∧ i ∈ ((cfg1.win 4).blk t).view.set := by
  refine ⟨pt1 24, (flush1_4 _).mpr rfl, ?_⟩
  obtain ⟨-, -, -, -, -, -, -, -, e0, e1⟩ := idx_facts (pt1 24)
  show i ∈ ((View.whole main_v38).slice (win1_4.rect (pt1 24))).set
  rw [View.set_slice_whole, Rect.mem_set_unit]
  intro a
  match a with
  | ⟨0, _⟩ =>
    show win1_4.index (pt1 24) (0 : Fin 2) * 1 ≤ (i 0).val ∧ (i 0).val < win1_4.index (pt1 24) (0 : Fin 2) * 1 + 1
    have hi : (i 0).val < 1 := (i 0).isLt
    omega
  | ⟨1, _⟩ =>
    show win1_4.index (pt1 24) (1 : Fin 2) * 8 ≤ (i 1).val ∧ (i 1).val < win1_4.index (pt1 24) (1 : Fin 2) * 8 + 8
    have hi : (i 1).val < 8 := (i 1).isLt
    omega

/-- After its 25 points the second pipeline's 1×8 output array holds the tiled mean of the second layer computed through
    the dense matrix, of the four operand arrays as the region found them (the adjacency matrix, the hidden features, the
    second weights, the bias row). -/
theorem arr1_4 (c : Dev nD) :
    (dat1 (F := Ideal) V c).arrAt 4 cfg1.N
      = fun i : S1x8.Idx => Cert.Spec.denseMean (mat (V c main_v30 : S10000x10000.Idx → EReal)) (mat (V c main_v37 : S10000x16.Idx → EReal))
          (mat (V c main_v33 : S16x8.Idx → EReal)) (row0 (V c main_v35 : S1x8.Idx → EReal)) (i 1) :=
  (dat1 (F := Ideal) V c).arrAt_eq_of_cover 4 (G V c) (fun t hf => flushed_eq V c t hf) (cover)

end Cert.KernelIdeal.Val1

end
-- ==== Proof.LibIndexMaps.lean ====
/-
  Index maps of the one-index scatters and gathers, read at one element.

  A scatter whose scatter indices are an [e × 1] column (the index vector on axis 1, one component, sent to
  operand axis 0, that axis inserted) sends update row p to operand row idx[p, 0], read as a signed integer
  and NOT clamped: the update lands on operand row r exactly when that integer is r.  With a window axis
  (updates [e × f] into an operand [n × f]) the column coordinate is carried over unchanged.  Summed over the
  updates, the accumulating scatter adds to operand row r every update row whose index word reads r.

  A gather with the same column of start indices reads operand row idx[p, 0], read signed and clamped into
  the operand; when the integer is a row number k < n the clamp does nothing and the result is the
  operand's row k (its element k for a rank-1 operand, its element (k, c) at result column c for a rank-2
  operand with the second axis an offset axis).  With an [e × 2] array of start indices and both operand
  axes collapsed, result element p is the operand at (idx[p, 0], idx[p, 1]) when both are in range.

  Each statement takes the dimension numbers' fields as hypotheses, so it applies to any record with
  those fields.
-/
import Idealize.ShloMosaic.PureOps.Ideal
import Idealize.ShloMosaic.Lib.ValueIdx

noncomputable section

namespace Cert.Gcn.IndexMaps

open Idealize.ShloMosaic Idealize.ShloMosaic.ValueIdx

/-! ## Axes and coordinates -/

/-- A position on an axis of two places is the first or the second. -/
theorem fin2_cases (a : Fin 2) : a = 0 ∨ a = 1 := by
  rcases a with ⟨v, hv⟩
  rcases (by omega : v = 0 ∨ v = 1) with rfl | rfl
  · exact Or.inl rfl
  · exact Or.inr rfl

/-- The axes a shape keeps are the ones not listed. -/
theorem mem_kept {s : Shape} (axes : List (Fin s.rank)) (a : Fin s.rank) : a ∈ s.kept axes ↔ a ∉ axes := by
  simp [Shape.kept, List.mem_filter, List.mem_finRange]

/-- Of two axes, the ones kept beside the second are the first alone. -/
theorem kept_snd {s : Shape} (hr : s.rank = 2) (axes : List (Fin s.rank))
    (hne : ∃ a ∈ axes, a.val = 1) : ∀ x ∈ s.kept axes, x.val = 0 := by
  intro x hx
  rw [mem_kept] at hx
  obtain ⟨a, ha, hav⟩ := hne
  have hxa : x ≠ a := fun h => hx (h ▸ ha)
  have hxv : x.val ≠ a.val := fun h => hxa (Fin.ext h)
  have := x.isLt
  omega

/-- A coordinate of a rank-2 index on the axis numbered 0 is its first coordinate. -/
theorem coord_of_val0 {e f : ℕ} (j : (⟨2, ![e, f]⟩ : Shape).Idx) (X : Fin 2) (hX : X.val = 0) : (j X).val = (j 0).val := by
  have : X = 0 := Fin.ext hX
  subst this; rfl

/-- A coordinate of a rank-2 index on the axis numbered 1 is its second coordinate. -/
theorem coord_of_val1 {e f : ℕ} (j : (⟨2, ![e, f]⟩ : Shape).Idx) (X : Fin 2) (hX : X.val = 1) : (j X).val = (j 1).val := by
  have : X = 1 := Fin.ext hX
  subst this; rfl

/-- A sum over a rank-1 index set is the sum over its coordinate range. -/
theorem sum_idx1 {M : Type*} [AddCommMonoid M] {n : ℕ} (f : (⟨1, ![n]⟩ : Shape).Idx → M) :
    ∑ i, f i = ∑ a : Fin n, f (ix1 a) := by
  let eqv : (⟨1, ![n]⟩ : Shape).Idx ≃ Fin n :=
    ⟨fun i => i 0, ix1, fun i => (eq_ix1 i).symm, fun _ => rfl⟩
  rw [← Equiv.sum_comp eqv.symm f]
  rfl

/-! ## The scatter of rank-1 updates into a rank-1 operand -/

/-- Update p reads its one start-index component at (p, 0). -/
theorem scatter1_siIdx {n e : ℕ} (d : ScatterDims ⟨1, ![n]⟩ ⟨2, ![e, 1]⟩ ⟨1, ![e]⟩)
    (hivd : d.indexVectorDim = 1) (j : (⟨1, ![e]⟩ : Shape).Idx) (c : Fin d.scatterDimsToOperandDims.length) :
    d.siIdx j c = ix2 (n0 := e) (n1 := 1) (j 0) 0 := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A1) Rank-1 operand, [e × 1] scatter indices, rank-1 updates: update p lands on element r exactly when
    the index word at (p, 0), read signed, is r. -/
theorem scatter1_resultIdx_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (j : (⟨1, ![e]⟩ : Shape).Idx) (i : (⟨1, ![n]⟩ : Shape).Idx) :
    d.resultIdx? j idx = some i ↔ (idx (ix2 (j 0) (0 : Fin 1))).toInt = (((i 0).val : ℕ) : Int) := by
  have hm : (0 : Fin 1) ∈ d.scatterDimsToOperandDims := by rw [hsd]; exact List.mem_singleton.mpr rfl
  have hk : (0 : Fin 1) ∉ d.sKept := by rw [ScatterDims.sKept, mem_kept, hiw]; simp
  have hstart : d.start j idx 0 = (idx (ix2 (j 0) (0 : Fin 1))).toInt := by
    unfold ScatterDims.start
    rw [dif_pos hm, scatter1_siIdx d hivd]
  have hwin : d.window j 0 = 0 := by
    unfold ScatterDims.window
    rw [dif_neg hk]
  have hlt : (i 0).val < n := (i 0).isLt
  unfold ScatterDims.resultIdx?
  split_ifs with h
  · rw [Option.some.injEq]
    have h0 := h 0
    rw [hstart, hwin] at h0
    constructor
    · intro hf
      have hv := congrArg Fin.val (congrFun hf 0)
      simp only [hstart, hwin] at hv
      omega
    · intro he
      funext a
      obtain rfl : a = 0 := Subsingleton.elim _ _
      apply Fin.ext
      simp only [hstart, hwin]
      omega
  · constructor
    · intro hh; cases hh
    · intro he
      exfalso
      apply h
      intro a
      obtain rfl : a = 0 := Subsingleton.elim _ _
      rw [hstart, hwin, he]
      show (0 : Int) ≤ ((i 0).val : ℕ) + ((0 : ℕ) : Int) ∧ (((i 0).val : ℕ) : Int) + ((0 : ℕ) : Int) < (n : ℕ)
      omega

/-- (A1), by coordinates. -/
theorem scatter1_resultIdx_ix_iff {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (idx : IVec ⟨2, ![e, 1]⟩ w) (p : Fin e) (r : Fin n) :
    d.resultIdx? (ix1 p) idx = some (ix1 r) ↔ (idx (ix2 p (0 : Fin 1))).toInt = ((r.val : ℕ) : Int) :=
  scatter1_resultIdx_iff d huw hiw hsd hivd idx (ix1 p) (ix1 r)

/-- The accumulating scatter of rank-1 updates, read at element r: the operand's element plus the updates
    whose index word reads r. -/
theorem hostScatterAdd1_apply {n e w : ℕ} (d : ScatterDims ⟨1, ![n]⟩ ⟨2, ![e, 1]⟩ ⟨1, ![e]⟩)
    (huw : d.updateWindowDims = []) (hiw : d.insertedWindowDims = [0])
    (hsd : d.scatterDimsToOperandDims = [0]) (hivd : d.indexVectorDim = 1)
    (x : (⟨1, ![n]⟩ : Shape).Idx → EReal) (idx : IVec ⟨2, ![e, 1]⟩ w) (upd : (⟨1, ![e]⟩ : Shape).Idx → EReal)
    (r : Fin n) :
    Ideal.hostScatterAdd d x idx upd (ix1 r)
      = x (ix1 r) + ∑ p : Fin e, if (idx (ix2 p (0 : Fin 1))).toInt = ((r.val : ℕ) : Int) then upd (ix1 p) else 0 := by
  unfold Ideal.hostScatterAdd
  congr 1
  rw [Finset.sum_filter, sum_idx1]
  refine Finset.sum_congr rfl (fun p _ => ?_)
  simp only [scatter1_resultIdx_ix_iff d huw hiw hsd hivd]

/-! ## The scatter of [e × f] updates into an [n × f] operand -/

/-- Update (p, c) reads its one start-index component at (p, 0). -/
theorem scatter2_siIdx {n f e : ℕ} (d : ScatterDims ⟨2, ![n, f]⟩ ⟨2, ![e, 1]⟩ ⟨2, ![e, f]⟩)
    (huw : d.updateWindowDims = [1]) (hivd : d.indexVectorDim = 1) (j : (⟨2, ![e, f]⟩ : Shape).Idx)
    (c : Fin d.scatterDimsToOperandDims.length) :
    d.siIdx j c = ix2 (n0 := e) (n1 := 1) (j 0) 0 := by
  have hus : ∀ x ∈ d.uScatter, x.val = 0 :=
    kept_snd rfl _ (by rw [huw]; exact ⟨1, List.mem_singleton.mpr rfl, rfl⟩)
  funext b
  match b with
  | ⟨0, _⟩ =>
    unfold ScatterDims.siIdx
    rw [dif_neg (by rw [hivd]; simp)]
    unfold ScatterDims.siCoord
    apply Fin.ext
    simp only [Fin.val_cast]
    exact coord_of_val0 j _ (hus _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A2) [n × f] operand, [e × 1] scatter indices, [e × f] updates, the second axis a window axis: update
    (p, c) lands on element (r, c') exactly when the index word at (p, 0), read signed, is r and c = c'. -/
theorem scatter2_resultIdx_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (j : (⟨2, ![e, f]⟩ : Shape).Idx) (i : (⟨2, ![n, f]⟩ : Shape).Idx) :
    d.resultIdx? j idx = some i ↔
      (idx (ix2 (j 0) (0 : Fin 1))).toInt = (((i 0).val : ℕ) : Int) ∧ (j 1).val = (i 1).val := by
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [ScatterDims.sKept, mem_kept, hiw]; simp
  have hk1 : (1 : Fin 2) ∈ d.sKept := by rw [ScatterDims.sKept, mem_kept, hiw]; simp
  have hs0 : d.start j idx 0 = (idx (ix2 (j 0) (0 : Fin 1))).toInt := by
    unfold ScatterDims.start
    rw [dif_pos hm0, scatter2_siIdx d huw hivd]
  have hs1 : d.start j idx 1 = 0 := by
    unfold ScatterDims.start
    rw [dif_neg hm1]
  have hw0 : d.window j 0 = 0 := by
    unfold ScatterDims.window
    rw [dif_neg hk0]
  have hw1 : d.window j 1 = (j 1).val := by
    unfold ScatterDims.window
    rw [dif_pos hk1]
    refine coord_of_val1 j _ ?_
    have hall : ∀ x ∈ d.updateWindowDims, x.val = 1 := by rw [huw]; simp
    exact hall _ (List.getElem_mem _)
  have hlt0 : (i 0).val < n := (i 0).isLt
  have hlt1 : (i 1).val < f := (i 1).isLt
  have hjlt1 : (j 1).val < f := (j 1).isLt
  unfold ScatterDims.resultIdx?
  split_ifs with h
  · rw [Option.some.injEq]
    have h0 := h 0
    rw [hs0, hw0] at h0
    constructor
    · intro hf
      have hv0 := congrArg Fin.val (congrFun hf 0)
      have hv1 := congrArg Fin.val (congrFun hf 1)
      simp only [hs0, hw0] at hv0
      simp only [hs1, hw1] at hv1
      constructor <;> omega
    · rintro ⟨he, hc⟩
      funext a
      rcases fin2_cases a with rfl | rfl
      · apply Fin.ext
        simp only [hs0, hw0]
        omega
      · apply Fin.ext
        simp only [hs1, hw1]
        omega
  · constructor
    · intro hh; cases hh
    · rintro ⟨he, hc⟩
      exfalso
      apply h
      intro a
      rcases fin2_cases a with rfl | rfl
      · rw [hs0, hw0, he]
        show (0 : Int) ≤ ((i 0).val : ℕ) + ((0 : ℕ) : Int) ∧ (((i 0).val : ℕ) : Int) + ((0 : ℕ) : Int) < (n : ℕ)
        omega
      · rw [hs1, hw1]
        show (0 : Int) ≤ 0 + (((j 1).val : ℕ) : Int) ∧ (0 : Int) + (((j 1).val : ℕ) : Int) < (f : ℕ)
        omega

/-- (A2), by coordinates. -/
theorem scatter2_resultIdx_ix_iff {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (idx : IVec ⟨2, ![e, 1]⟩ w) (p : Fin e) (c : Fin f) (r : Fin n) (c' : Fin f) :
    d.resultIdx? (ix2 p c) idx = some (ix2 r c') ↔
      (idx (ix2 p (0 : Fin 1))).toInt = ((r.val : ℕ) : Int) ∧ c = c' := by
  rw [scatter2_resultIdx_iff d huw hiw hsd hivd idx (ix2 p c) (ix2 r c')]
  exact and_congr Iff.rfl Fin.val_inj

/-- The accumulating scatter of [e × f] updates, read at element (r, c): the operand's element plus column c
    of the update rows whose index word reads r. -/
theorem hostScatterAdd2_apply {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : (⟨2, ![n, f]⟩ : Shape).Idx → EReal) (idx : IVec ⟨2, ![e, 1]⟩ w) (upd : (⟨2, ![e, f]⟩ : Shape).Idx → EReal)
    (r : Fin n) (c : Fin f) :
    Ideal.hostScatterAdd d x idx upd (ix2 r c)
      = x (ix2 r c) + ∑ p : Fin e, if (idx (ix2 p (0 : Fin 1))).toInt = ((r.val : ℕ) : Int) then upd (ix2 p c) else 0 := by
  unfold Ideal.hostScatterAdd
  congr 1
  rw [Finset.sum_filter, sum_idx2]
  refine Finset.sum_congr rfl (fun p _ => ?_)
  simp only [scatter2_resultIdx_ix_iff d huw hiw hsd hivd]
  by_cases hT : (idx (ix2 p (0 : Fin 1))).toInt = ((r.val : ℕ) : Int)
  · simp only [hT, true_and, if_true]
    rw [Finset.sum_ite_eq']
    simp
  · simp only [hT, false_and, if_false]
    exact Finset.sum_const_zero

/-! ## The gathers with a rank-1 result -/

/-- With a rank-1 result and the index vector on axis 1 of an [e × c] array of start indices, result element p
    reads component k of its start index at (p, k). -/
theorem gather_siIdx_rank1 {s : Shape} {e c : ℕ} (d : GatherDims s ⟨2, ![e, c]⟩ ⟨1, ![e]⟩)
    (hivd : d.indexVectorDim = 1) (j : (⟨1, ![e]⟩ : Shape).Idx) (kv : ℕ) (hkv : kv < d.startIndexMap.length)
    (v : Fin c) (hv : kv = v.val) :
    d.siIdx j ⟨kv, hkv⟩ = ix2 (n0 := e) (n1 := c) (j 0) v := by
  funext b
  match b with
  | ⟨0, _⟩ =>
    unfold GatherDims.siIdx
    rw [dif_neg (by rw [hivd]; simp)]
    unfold GatherDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold GatherDims.siIdx
    rw [dif_pos (by rw [hivd])]
    apply Fin.ext
    exact hv

/-- (A3) Rank-1 operand, [e × 1] start indices, rank-1 result: when the index word at (p, 0), read signed,
    is a position k < n, result element p is the operand's element k. -/
theorem gather1_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx)
    (k : ℕ) (hk : k < n) (hidx : (idx (ix2 (j 0) (0 : Fin 1))).toInt = (k : Int)) :
    Host.gather d x idx j = x (ix1 ⟨k, hk⟩) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0 = k
  rw [GatherDims.batchCoord_eq_zero _ _ _ hb, GatherDims.offCoord_eq_zero _ _ _ hkp]
  unfold GatherDims.start
  rw [dif_pos hm, gather_siIdx_rank1 d hivd j _ _ (0 : Fin 1) hi, hidx, hsl]
  show min (k : Int).toNat (n - 1) + 0 + 0 = k
  omega

/-- (A3), by coordinates. -/
theorem gather1_ix_apply {α : Type} {n e w : ℕ} (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e)
    (k : ℕ) (hk : k < n) (hidx : (idx (ix2 p (0 : Fin 1))).toInt = (k : Int)) :
    Host.gather d x idx (ix1 p) = x (ix1 ⟨k, hk⟩) :=
  gather1_apply d hcoll hob hsim hivd x idx (ix1 p) k hk hidx

/-- (A5) [n × m] operand, [e × 2] start indices, rank-1 result, both operand axes collapsed and
    start-indexed: when the index words at (p, 0) and (p, 1), read signed, are a row r < n and a column
    c < m, result element p is the operand's element (r, c). -/
theorem gatherPair_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (j : (⟨1, ![e]⟩ : Shape).Idx)
    (r c : ℕ) (hr : r < n) (hc : c < m)
    (hidx0 : (idx (ix2 (j 0) (0 : Fin 2))).toInt = (r : Int))
    (hidx1 : (idx (ix2 (j 0) (1 : Fin 2))).toInt = (c : Int)) :
    Host.gather d x idx j = x (ix2 ⟨r, hr⟩ ⟨c, hc⟩) := by
  unfold Host.gather
  congr 1
  funext a
  apply Fin.ext
  have hb : ∀ a : Fin 2, a ∉ d.operandBatchingDims := by intro a; rw [hob]; exact List.not_mem_nil
  have hkp : ∀ a : Fin 2, a ∉ d.sKept := by
    intro a; rw [GatherDims.mem_sKept, hcoll]
    rcases fin2_cases a with rfl | rfl <;> simp
  show d.start j idx a + d.batchCoord j a + d.offCoord j a = (ix2 (⟨r, hr⟩ : Fin n) (⟨c, hc⟩ : Fin m) a).val
  rw [GatherDims.batchCoord_eq_zero _ _ _ (hb a), GatherDims.offCoord_eq_zero _ _ _ (hkp a)]
  rcases fin2_cases a with rfl | rfl
  · have hm : (0 : Fin 2) ∈ d.startIndexMap := by rw [hsim]; simp
    have hsl : d.sliceSizes 0 = 1 := d.slice_collapsed 0 (by rw [hcoll]; simp)
    have hi : List.idxOf (0 : Fin 2) d.startIndexMap = (0 : Fin 2).val := by rw [hsim]; simp
    unfold GatherDims.start
    rw [dif_pos hm, gather_siIdx_rank1 d hivd j _ _ (0 : Fin 2) hi, hidx0, hsl]
    show min (r : Int).toNat (n - 1) + 0 + 0 = r
    omega
  · have hm : (1 : Fin 2) ∈ d.startIndexMap := by rw [hsim]; simp
    have hsl : d.sliceSizes 1 = 1 := d.slice_collapsed 1 (by rw [hcoll]; simp)
    have hi : List.idxOf (1 : Fin 2) d.startIndexMap = (1 : Fin 2).val := by rw [hsim]; simp [List.idxOf_cons]
    unfold GatherDims.start
    rw [dif_pos hm, gather_siIdx_rank1 d hivd j _ _ (1 : Fin 2) hi, hidx1, hsl]
    show min (c : Int).toNat (m - 1) + 0 + 0 = c
    omega

/-- (A5), by coordinates. -/
theorem gatherPair_ix_apply {α : Type} {n m e w : ℕ} (d : GatherDims ⟨2, ![n, m]⟩ ⟨2, ![e, 2]⟩ ⟨1, ![e]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![e, 2]⟩ w) (p : Fin e)
    (r c : ℕ) (hr : r < n) (hc : c < m)
    (hidx0 : (idx (ix2 p (0 : Fin 2))).toInt = (r : Int))
    (hidx1 : (idx (ix2 p (1 : Fin 2))).toInt = (c : Int)) :
    Host.gather d x idx (ix1 p) = x (ix2 ⟨r, hr⟩ ⟨c, hc⟩) :=
  gatherPair_apply d hcoll hob hsim hivd x idx (ix1 p) r c hr hc hidx0 hidx1

/-! ## The gather with an offset axis -/

/-- Result element (p, c) reads its one start-index component at (p, 0). -/
theorem gather2_siIdx {s : Shape} {e f : ℕ} (d : GatherDims s ⟨2, ![e, 1]⟩ ⟨2, ![e, f]⟩)
    (hod : d.offsetDims = [1]) (hivd : d.indexVectorDim = 1) (j : (⟨2, ![e, f]⟩ : Shape).Idx)
    (c : Fin d.startIndexMap.length) :
    d.siIdx j c = ix2 (n0 := e) (n1 := 1) (j 0) 0 := by
  have hbd : ∀ x ∈ d.batchDims, x.val = 0 :=
    kept_snd rfl _ (by rw [hod]; exact ⟨1, List.mem_singleton.mpr rfl, rfl⟩)
  funext b
  match b with
  | ⟨0, _⟩ =>
    unfold GatherDims.siIdx
    rw [dif_neg (by rw [hivd]; simp)]
    unfold GatherDims.siCoord
    apply Fin.ext
    simp only [Fin.val_cast]
    exact coord_of_val0 j _ (hbd _ (List.getElem_mem _))
  | ⟨1, h1⟩ =>
    apply Fin.ext
    have h2 := (d.siIdx j c ⟨1, h1⟩).isLt
    have h3 : (⟨2, ![e, 1]⟩ : Shape).size ⟨1, h1⟩ = 1 := rfl
    show (d.siIdx j c ⟨1, h1⟩).val = 0
    omega

/-- (A4) [n × f] operand, [e × 1] start indices, [e × f] result, the second axis an offset axis of full
    width: when the index word at (p, 0), read signed, is a row k < n, result element (p, c) is the
    operand's element (k, c). -/
theorem gather2_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx)
    (k : ℕ) (hk : k < n) (hidx : (idx (ix2 (j 0) (0 : Fin 1))).toInt = (k : Int)) :
    Host.gather d x idx j = x (ix2 ⟨k, hk⟩ ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨k, hk⟩ : Fin n) (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hidx, hsl]
    show min (k : Int).toNat (n - 1) + 0 + 0 = k
    omega
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- (A4), by coordinates. -/
theorem gather2_ix_apply {α : Type} {n f e w : ℕ} (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f)
    (k : ℕ) (hk : k < n) (hidx : (idx (ix2 p (0 : Fin 1))).toInt = (k : Int)) :
    Host.gather d x idx (ix2 p c) = x (ix2 ⟨k, hk⟩ c) :=
  gather2_apply d hod hcoll hob hsim hivd x idx (ix2 p c) k hk hidx

end Cert.Gcn.IndexMaps

end
-- ==== Proof.LibScatterSet.lean ====
/-
  The overwriting scatter of a constant, read at one element, and the index map of the pair scatter.

  A scatter whose body returns the update (an assignment, not an accumulation) and whose updates are all one
  constant v leaves at an element the constant when some update lands on that element, and the operand's
  element when none does: the order in which the updates are taken cannot matter, since every update that
  lands on an element writes the same value there.  The scatter is a left fold over the update positions;
  the statement is proved for a fold over any list of positions with the operand generalised, and the list of
  all positions is then exchanged for the update index set through the row-major numbering, a bijection.

  The pair scatter has a rank-2 operand [n × m], scatter indices [e × 2] with the index vector on axis 1, its
  two components sent to operand axes 0 and 1, both axes inserted window axes, and rank-1 updates [e]: update
  p lands on element (r, c) exactly when the index words at (p, 0) and (p, 1), read as signed integers and
  NOT clamped, are r and c.

  Each statement takes the dimension numbers' fields as hypotheses, so it applies to any record with those
  fields.
-/
import Idealize.ShloMosaic.PureOps.Ideal
import Idealize.ShloMosaic.Lib.ValueIdx
import proofs.«406582_j58411555225956_1_alg».proof.Proof.LibIndexMaps

noncomputable section

namespace Cert.LibScatterSet

open Idealize.ShloMosaic Idealize.ShloMosaic.ValueIdx Cert.Gcn.IndexMaps

/-! ## The overwriting scatter of a constant -/

/-- Some update lands on element i exactly when some update position of the full list does: the row-major
    numbering of the update index set is a bijection. -/
theorem exists_update_iff_exists_position {s si u : Shape} {w : ℕ} (d : ScatterDims s si u) (idx : IVec si w)
    (i : s.Idx) :
    (∃ j : u.Idx, d.resultIdx? j idx = some i)
      ↔ ∃ n ∈ List.finRange u.numel, d.resultIdx? (u.rowMajor.symm n) idx = some i := by
  constructor
  · rintro ⟨j, hj⟩
    refine ⟨u.rowMajor j, List.mem_finRange _, ?_⟩
    rw [Equiv.symm_apply_apply]
    exact hj
  · rintro ⟨n, _, hn⟩
    exact ⟨_, hn⟩

/-- A fold whose step overwrites with one constant v the elements a position's test P picks, read at element
    i: the constant if a position of the list picks i, else what the fold started from. -/
theorem foldl_overwrite_apply {α ι κ : Type} (g : (ι → α) → κ → ι → α) (P : κ → ι → Prop) (v : α)
    (hg : ∀ (r : ι → α) (n : κ) (i : ι), g r n i = (by classical exact if P n i then v else r i))
    (l : List κ) (x : ι → α) (i : ι) :
    l.foldl g x i = (by classical exact if ∃ n ∈ l, P n i then v else x i) := by
  classical
  induction l generalizing x with
  | nil => simp
  | cons a l ih =>
    rw [List.foldl_cons, ih, hg]
    by_cases hl : ∃ n ∈ l, P n i
    · have hal : ∃ n ∈ a :: l, P n i := by
        obtain ⟨n, hn, hn'⟩ := hl
        exact ⟨n, List.mem_cons_of_mem _ hn, hn'⟩
      rw [if_pos hl, if_pos hal]
    · rw [if_neg hl]
      by_cases ha : P a i
      · rw [if_pos ha, if_pos ⟨a, List.mem_cons_self, ha⟩]
      · have hal : ¬ ∃ n ∈ a :: l, P n i := by
          rintro ⟨n, hn, hn'⟩
          rcases List.mem_cons.mp hn with rfl | hn
          · exact ha hn'
          · exact hl ⟨n, hn, hn'⟩
        rw [if_neg ha, if_neg hal]

/-- The scatter that assigns one constant v, read at element i: v if some update lands on i, else the
    operand's element. -/
theorem scatter_const_apply {α : Type} {s si u : Shape} {w : ℕ} (d : ScatterDims s si u) (x : s.Idx → α) (idx : IVec si w) (v : α) (i : s.Idx) :
    Host.scatter d (fun _ b => b) x idx (fun _ => v) i = (by classical exact if ∃ j : u.Idx, d.resultIdx? j idx = some i then v else x i) := by
  classical
  unfold Host.scatter
  refine (foldl_overwrite_apply _ (fun n j => d.resultIdx? (u.rowMajor.symm n) idx = some j) v ?_
    (List.finRange u.numel) x i).trans ?_
  · intro r n j
    rcases h : d.resultIdx? (u.rowMajor.symm n) idx with _ | i0
    · have hne : ¬ ((none : Option s.Idx) = some j) := fun h' => by cases h'
      rw [if_neg hne]
    · show (if j = i0 then v else r j) = _
      by_cases hj : j = i0
      · rw [if_pos hj, if_pos (by rw [hj])]
      · rw [if_neg hj, if_neg (fun h' => hj (Option.some.inj h').symm)]
  · by_cases h : ∃ j : u.Idx, d.resultIdx? j idx = some i
    · rw [if_pos h, if_pos ((exists_update_iff_exists_position d idx i).mp h)]
    · rw [if_neg h, if_neg (fun h' => h ((exists_update_iff_exists_position d idx i).mpr h'))]

/-! ## The pair scatter's index map -/

/-- With rank-1 updates and the index vector on axis 1 of an [e × 2] array of scatter indices, update p reads
    component k of its start index at (p, k). -/
theorem scatterPair_siIdx {s : Shape} {e : ℕ} (d : ScatterDims s ⟨2, ![e, 2]⟩ ⟨1, ![e]⟩)
    (hivd : d.indexVectorDim = 1) (j : (⟨1, ![e]⟩ : Shape).Idx) (kv : ℕ)
    (hkv : kv < d.scatterDimsToOperandDims.length) (v : Fin 2) (hv : kv = v.val) :
    d.siIdx j ⟨kv, hkv⟩ = ix2 (n0 := e) (n1 := 2) (j 0) v := by
  funext b
  match b with
  | ⟨0, _⟩ =>
    unfold ScatterDims.siIdx
    rw [dif_neg (by rw [hivd]; simp)]
    unfold ScatterDims.siCoord
    apply Fin.ext
    simp only [Fin.val_cast]
    have e1 : ∀ X : Fin 1, (j X).val = (j 0).val := fun X => by
      have hX : X = 0 := Subsingleton.elim _ _
      subst hX; rfl
    exact e1 _
  | ⟨1, h1⟩ =>
    unfold ScatterDims.siIdx
    rw [dif_pos (by rw [hivd])]
    apply Fin.ext
    exact hv

/-- [n × m] operand, [e × 2] scatter indices, rank-1 updates, both operand axes scattered and inserted:
    update j lands on element i exactly when the index words at (j, 0) and (j, 1), read signed, are i's two
    coordinates. -/
theorem scatterPair_resultIdx_iff {n m e w : ℕ} (d : ScatterDims ⟨2, ![n, m]⟩ ⟨2, ![e, 2]⟩ ⟨1, ![e]⟩)
    (hiw : d.insertedWindowDims = [0, 1]) (hsd : d.scatterDimsToOperandDims = [0, 1])
    (hivd : d.indexVectorDim = 1)
    (idx : IVec ⟨2, ![e, 2]⟩ w) (j : (⟨1, ![e]⟩ : Shape).Idx) (i : (⟨2, ![n, m]⟩ : Shape).Idx) :
    d.resultIdx? j idx = some i ↔
      (idx (ix2 (j 0) (0 : Fin 2))).toInt = (((i 0).val : ℕ) : ℤ)
        ∧ (idx (ix2 (j 0) (1 : Fin 2))).toInt = (((i 1).val : ℕ) : ℤ) := by
  have hm : ∀ a : Fin 2, a ∈ d.scatterDimsToOperandDims := by
    intro a; rw [hsd]; rcases fin2_cases a with rfl | rfl <;> simp
  have hk : ∀ a : Fin 2, a ∉ d.sKept := by
    intro a; rw [ScatterDims.sKept, mem_kept, hiw]; rcases fin2_cases a with rfl | rfl <;> simp
  have hi0 : List.idxOf (0 : Fin 2) d.scatterDimsToOperandDims = (0 : Fin 2).val := by rw [hsd]; simp
  have hi1 : List.idxOf (1 : Fin 2) d.scatterDimsToOperandDims = (1 : Fin 2).val := by
    rw [hsd]; simp [List.idxOf_cons]
  have hs0 : d.start j idx 0 = (idx (ix2 (j 0) (0 : Fin 2))).toInt := by
    unfold ScatterDims.start
    rw [dif_pos (hm 0), scatterPair_siIdx d hivd j _ _ (0 : Fin 2) hi0]
  have hs1 : d.start j idx 1 = (idx (ix2 (j 0) (1 : Fin 2))).toInt := by
    unfold ScatterDims.start
    rw [dif_pos (hm 1), scatterPair_siIdx d hivd j _ _ (1 : Fin 2) hi1]
  have hw : ∀ a : Fin 2, d.window j a = 0 := by
    intro a
    unfold ScatterDims.window
    rw [dif_neg (hk a)]
  have hlt0 : (i 0).val < n := (i 0).isLt
  have hlt1 : (i 1).val < m := (i 1).isLt
  unfold ScatterDims.resultIdx?
  split_ifs with h
  · rw [Option.some.injEq]
    have h0 := h 0
    have h1 := h 1
    rw [hs0, hw] at h0
    rw [hs1, hw] at h1
    constructor
    · intro hf
      have hv0 := congrArg Fin.val (congrFun hf 0)
      have hv1 := congrArg Fin.val (congrFun hf 1)
      simp only [hs0, hw] at hv0
      simp only [hs1, hw] at hv1
      constructor <;> omega
    · rintro ⟨he0, he1⟩
      funext a
      rcases fin2_cases a with rfl | rfl
      · apply Fin.ext
        simp only [hs0, hw]
        omega
      · apply Fin.ext
        simp only [hs1, hw]
        omega
  · constructor
    · intro hh; cases hh
    · rintro ⟨he0, he1⟩
      exfalso
      apply h
      intro a
      rcases fin2_cases a with rfl | rfl
      · rw [hs0, hw, he0]
        show (0 : ℤ) ≤ ((i 0).val : ℕ) + ((0 : ℕ) : ℤ) ∧ (((i 0).val : ℕ) : ℤ) + ((0 : ℕ) : ℤ) < (n : ℕ)
        omega
      · rw [hs1, hw, he1]
        show (0 : ℤ) ≤ ((i 1).val : ℕ) + ((0 : ℕ) : ℤ) ∧ (((i 1).val : ℕ) : ℤ) + ((0 : ℕ) : ℤ) < (m : ℕ)
        omega

/-- The pair scatter's index map, by coordinates: update p lands on element (r, c) exactly when the index
    words at (p, 0) and (p, 1), read signed, are r and c. -/
theorem scatterPair_resultIdx_ix_iff {n m e w : ℕ} (d : ScatterDims ⟨2, ![n, m]⟩ ⟨2, ![e, 2]⟩ ⟨1, ![e]⟩) (huw : d.updateWindowDims = []) (hiw : d.insertedWindowDims = [0, 1]) (hsd : d.scatterDimsToOperandDims = [0, 1]) (hivd : d.indexVectorDim = 1)
    (idx : IVec ⟨2, ![e, 2]⟩ w) (p : Fin e) (r : Fin n) (c : Fin m) :
    d.resultIdx? (ValueIdx.ix1 p) idx = some (ValueIdx.ix2 r c) ↔ (idx (ValueIdx.ix2 p (0 : Fin 2))).toInt = (r.val : ℤ) ∧ (idx (ValueIdx.ix2 p (1 : Fin 2))).toInt = (c.val : ℤ) :=
  scatterPair_resultIdx_iff d hiw hsd hivd idx (ix1 p) (ix2 r c)

end Cert.LibScatterSet

end
-- ==== Proof.LibScatterHost.lean ====
/-
  The accumulating row scatter, read at one element, in the host operation's own spelling.

  An accumulating scatter of [e × f] update rows into an [n × f] array by an [e × 1] column of row words leaves at
  (r, c) the array's element plus column c of every update row whose word, read signed, is r. This is the statement
  of the index-map lemma with the operation written as the host program writes it.
-/
import proofs.«406582_j58411555225956_1_alg».proof.Proof.LibIndexMaps
import Idealize.ShloMosaic.PureOps.Contract

noncomputable section

namespace Cert.LibScatterHost

open Idealize.ShloMosaic Idealize.ShloMosaic.ValueIdx

theorem scatterAdd2_apply {φ : FTy} {n f e w : ℕ} (d : ScatterDims ⟨2, ![n, f]⟩ ⟨2, ![e, 1]⟩ ⟨2, ![e, f]⟩)
    (huw : d.updateWindowDims = [1]) (hiw : d.insertedWindowDims = [0])
    (hsd : d.scatterDimsToOperandDims = [0]) (hivd : d.indexVectorDim = 1)
    (x : FVec Ideal ⟨2, ![n, f]⟩ φ) (idx : IVec ⟨2, ![e, 1]⟩ w) (upd : FVec Ideal ⟨2, ![e, f]⟩ φ)
    (r : Fin n) (c : Fin f) :
    Host.scatterAdd (F := Ideal) d x idx upd (ix2 r c)
      = x (ix2 r c) + ∑ p : Fin e, if (idx (ix2 p (0 : Fin 1))).toInt = ((r.val : ℕ) : Int) then upd (ix2 p c) else 0 :=
  Cert.Gcn.IndexMaps.hostScatterAdd2_apply d huw hiw hsd hivd x idx upd r c

end Cert.LibScatterHost

end
-- ==== Proof.LibGatherClamp.lean ====
/-
  The one-index gathers read at one element, with the clamp kept.

  A gather whose start indices are an [e × 1] column (the index vector on axis 1, one component, sent to
  operand axis 0, that axis collapsed with a slice of one row) reads, for result row p, the operand row

      min (toNat (idx[p, 0] read as a signed integer)) (n - 1):

  a negative word is sent to row 0 (`Int.toNat` of a negative integer is 0) and a word at or past the
  number of rows n is sent to the last row n - 1.  Nothing is asked of the word.  With a rank-1 operand the
  result element p is that element of the operand; with an [n × f] operand whose second axis is an offset
  axis of full width, result element (p, c) is the operand's element (that row, c).

  Each statement takes the dimension numbers' fields as hypotheses, so it applies to any record with
  those fields; the operand must have at least one row for the clamped row to exist.
-/
import proofs.«406582_j58411555225956_1_alg».proof.Proof.LibIndexMaps

noncomputable section

namespace Cert.LibGatherClamp

open Idealize.ShloMosaic Idealize.ShloMosaic.ValueIdx Cert.Gcn.IndexMaps

/-- The clamped row lies in the operand: `min a (n - 1) < n` once the operand has a row. -/
theorem clamp_lt {n : ℕ} (hn : 0 < n) (a : ℕ) : min a (n - 1) < n :=
  Nat.lt_of_le_of_lt (Nat.min_le_right a (n - 1)) (Nat.sub_lt hn Nat.one_pos)

/-- Rank-1 operand of n ≥ 1 elements, [e × 1] start indices, rank-1 result: result element j is the
    operand's element `min (toNat (the word at (j, 0) read signed)) (n - 1)`, whatever the word is. -/
theorem gather1_clamp_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (j : (⟨1, ![e]⟩ : Shape).Idx) :
    Host.gather d x idx j
      = x (ix1 (⟨min (idx (ix2 (j 0) (0 : Fin 1))).toInt.toNat (n - 1), clamp_lt hn _⟩ : Fin n)) := by
  unfold Host.gather
  congr 1
  funext a
  obtain rfl : a = 0 := Subsingleton.elim _ _
  apply Fin.ext
  have hb : (0 : Fin 1) ∉ d.operandBatchingDims := by rw [hob]; exact List.not_mem_nil
  have hkp : (0 : Fin 1) ∉ d.sKept := by rw [GatherDims.mem_sKept, hcoll]; simp
  have hm : (0 : Fin 1) ∈ d.startIndexMap := by rw [hsim]; exact List.mem_singleton.mpr rfl
  have hsl : d.sliceSizes 0 = 1 := d.slice_collapsed 0 (by rw [hcoll]; exact List.mem_singleton.mpr rfl)
  have hi : List.idxOf (0 : Fin 1) d.startIndexMap = (0 : Fin 1).val := by rw [hsim]; simp
  show d.start j idx 0 + d.batchCoord j 0 + d.offCoord j 0
    = min (idx (ix2 (j 0) (0 : Fin 1))).toInt.toNat (n - 1)
  rw [GatherDims.batchCoord_eq_zero _ _ _ hb, GatherDims.offCoord_eq_zero _ _ _ hkp]
  unfold GatherDims.start
  rw [dif_pos hm, gather_siIdx_rank1 d hivd j _ _ (0 : Fin 1) hi, hsl]
  show min (idx (ix2 (j 0) (0 : Fin 1))).toInt.toNat (n - 1) + 0 + 0
    = min (idx (ix2 (j 0) (0 : Fin 1))).toInt.toNat (n - 1)
  rfl

/-- A gather of a rank-1 operand of n ≥ 1 elements by an [e × 1] column of start indices reads, at result
    element p, operand element `min (toNat (idx[p, 0] read signed)) (n - 1)`: a negative word reads
    element 0, a word past the end reads the last element. -/
theorem gather1_clamp_ix_apply {α : Type} {n e w : ℕ} (hn : 0 < n) (d : GatherDims ⟨1, ![n]⟩ ⟨2, ![e, 1]⟩ ⟨1, ![e]⟩)
    (hcoll : d.collapsedSliceDims = [0]) (hob : d.operandBatchingDims = [])
    (hsim : d.startIndexMap = [0]) (hivd : d.indexVectorDim = 1)
    (x : (⟨1, ![n]⟩ : Shape).Idx → α) (idx : IVec ⟨2, ![e, 1]⟩ w) (p : Fin e) :
    Host.gather d x idx (ix1 p)
      = x (ix1 (⟨min (idx (ix2 p (0 : Fin 1))).toInt.toNat (n - 1), by omega⟩ : Fin n)) :=
  gather1_clamp_apply hn d hcoll hob hsim hivd x idx (ix1 p)

/-- [n × f] operand with n ≥ 1 rows, [e × 1] start indices, [e × f] result, the second axis an offset axis
    of full width: result element j = (p, c) is the operand's element
    (`min (toNat (the word at (p, 0) read signed)) (n - 1)`, c), whatever the word is. -/
theorem gather2_clamp_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (j : (⟨2, ![e, f]⟩ : Shape).Idx) :
    Host.gather d x idx j
      = x (ix2 (⟨min (idx (ix2 (j 0) (0 : Fin 1))).toInt.toNat (n - 1), clamp_lt hn _⟩ : Fin n)
            ⟨(j 1).val, idx2_lt1 j⟩) := by
  unfold Host.gather
  congr 1
  funext a
  apply Fin.ext
  have hb : ∀ a : Fin 2, a ∉ d.operandBatchingDims := by intro a; rw [hob]; exact List.not_mem_nil
  show d.start j idx a + d.batchCoord j a + d.offCoord j a
    = (ix2 (⟨min (idx (ix2 (j 0) (0 : Fin 1))).toInt.toNat (n - 1), clamp_lt hn _⟩ : Fin n)
        (⟨(j 1).val, idx2_lt1 j⟩ : Fin f) a).val
  rw [GatherDims.batchCoord_eq_zero _ _ _ (hb a)]
  rcases fin2_cases a with rfl | rfl
  · have hkp : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    rw [GatherDims.offCoord_eq_zero _ _ _ hkp]
    unfold GatherDims.start
    rw [dif_pos hm, gather2_siIdx d hod hivd, hsl]
    show min (idx (ix2 (j 0) (0 : Fin 1))).toInt.toNat (n - 1) + 0 + 0
      = min (idx (ix2 (j 0) (0 : Fin 1))).toInt.toNat (n - 1)
    rfl
  · have hkp : (1 : Fin 2) ∈ d.sKept := by rw [GatherDims.mem_sKept, hcoll, hob]; simp
    have hm : (1 : Fin 2) ∉ d.startIndexMap := by rw [hsim]; simp
    unfold GatherDims.start GatherDims.offCoord
    rw [dif_neg hm, dif_pos hkp]
    show 0 + 0 + (j _).val = (j 1).val
    have hall : ∀ x ∈ d.offsetDims, x.val = 1 := by rw [hod]; simp
    rw [coord_of_val1 j _ (hall _ (List.getElem_mem _))]
    omega

/-- A gather of an [n × f] operand with n ≥ 1 rows by an [e × 1] column of start indices, whole rows taken,
    reads at result element (p, c) the operand's element (`min (toNat (idx[p, 0] read signed)) (n - 1)`, c):
    a negative word reads row 0, a word past the end reads the last row. -/
theorem gather2_clamp_ix_apply {α : Type} {n f e w : ℕ} (hn : 0 < n) (d : GatherDims ⟨2, ![n, f]⟩ ⟨2, ![e, 1]⟩ ⟨2, ![e, f]⟩)
    (hod : d.offsetDims = [1]) (hcoll : d.collapsedSliceDims = [0]) (hob : d.operandBatchingDims = [])
    (hsim : d.startIndexMap = [0]) (hivd : d.indexVectorDim = 1)
    (x : (⟨2, ![n, f]⟩ : Shape).Idx → α) (idx : IVec ⟨2, ![e, 1]⟩ w) (p : Fin e) (c : Fin f) :
    Host.gather d x idx (ix2 p c)
      = x (ix2 (⟨min (idx (ix2 p (0 : Fin 1))).toInt.toNat (n - 1), by omega⟩ : Fin n) c) :=
  gather2_clamp_apply hn d hod hcoll hob hsim hivd x idx (ix2 p c)

end Cert.LibGatherClamp

end
-- ==== Proof.KIHost.lean ====
/-
  The host operations before the first region, at the ideal instance, read at an index: the dense adjacency matrix the
  scatter-add builds from the edge list (entry `(r, c)` is the sum of the edge values `nrm(row e) · nrm(col e)` over the
  edges with endpoints `(r, c)`, the endpoints being node numbers in range), and the operands handed to the regions,
  which are the arguments themselves (a change of float format is the identity; a reshape keeps the entries).
-/
import proofs.«406582_j58411555225956_1_alg».proof.Proof.KIFold
import proofs.«406582_j58411555225956_1_alg».proof.Proof.Spec
import proofs.«406582_j58411555225956_1_alg».proof.Proof.Inputs
import proofs.«406582_j58411555225956_1_alg».proof.Proof.LibIndexMaps
import proofs.«406582_j58411555225956_1_alg».proof.Proof.LibScatterSet
import proofs.«406582_j58411555225956_1_alg».proof.Proof.LibScatterHost
import proofs.«406582_j58411555225956_1_alg».proof.Proof.LibGatherClamp
import Idealize.ShloMosaic.Lib.Pipeline.Value
import Idealize.ShloMosaic.Lib.ValueIdx
import Idealize.ShloMosaic.Lib.ValueLayout
import Idealize.ShloMosaic.Lib.StableHlo.Run
import Idealize.ShloMosaic.Lib.StableHlo.Predicate
import Idealize.ShloMosaic.PureOps.Ideal.Laws

set_option maxRecDepth 16384

noncomputable section

namespace Cert.KernelIdeal.Host

open Cert.KernelIdeal Cert.KernelIdeal.Gen Cert.KernelIdeal.Hand
open Idealize.ShloMosaic Idealize.ShloMosaic.TcCoe Idealize.ShloMosaic.ValueIdx Idealize.SL.Sem
open Cert.Inp

variable (m : (ℓ : Loc nD τ sig) → Buf (Elt Ideal) ℓ) (ρ : Dev nD → PrngReg)

/-- The argument arrays on core `c`, as plain arrays. -/
abbrev arg0 (c : Dev nD) : S10000x128.Idx → EReal := m ((c.tc : Thread nD τ).loc main_arg0)
abbrev arg1 (c : Dev nD) : S10000.Idx → EReal := m ((c.tc : Thread nD τ).loc main_arg1)
abbrev arg2 (c : Dev nD) : S640000.Idx → BitVec 32 := m ((c.tc : Thread nD τ).loc main_arg2)
abbrev arg3 (c : Dev nD) : S640000.Idx → BitVec 32 := m ((c.tc : Thread nD τ).loc main_arg3)
abbrev arg4 (c : Dev nD) : S128x16.Idx → EReal := m ((c.tc : Thread nD τ).loc main_arg4)
abbrev arg5 (c : Dev nD) : S16.Idx → EReal := m ((c.tc : Thread nD τ).loc main_arg5)
abbrev arg6 (c : Dev nD) : S16x8.Idx → EReal := m ((c.tc : Thread nD τ).loc main_arg6)
abbrev arg7 (c : Dev nD) : S8.Idx → EReal := m ((c.tc : Thread nD τ).loc main_arg7)

/-! ## Words in range -/

/-- A 32-bit word that reads, signed, as a number in [0, 10000) reads the same unsigned, below 10000. -/
theorem word_inRange (x : BitVec 32) (h0 : 0 ≤ x.toInt) (h1 : x.toInt < 10000) :
    x.toInt = (x.toNat : ℤ) ∧ x.toNat < 10000 := by
  have h := BitVec.toInt_eq_toNat_cond x
  have hlt := x.isLt
  split_ifs at h <;> omega

/-- The wrap of a possibly negative index word (add the extent when the word is negative) leaves a word in range as
    it is: the comparison with zero is false. -/
theorem wrap_word (x : BitVec 32) (h0 : 0 ≤ x.toInt) :
    Scalar.select (IntOp.cmpi .slt x 0#32) (IntOp.addi x 10000#32) x = x := by
  have hs : x.slt 0#32 = false := by
    simp only [BitVec.slt, BitVec.toInt_zero, decide_eq_false_iff_not, not_lt]
    exact h0
  show Scalar.select (BitVec.ofBool (x.slt 0#32)) _ _ = _
  rw [hs]
  exact select_zero _ _

/-- The wrap applied to a whole array of endpoints in range is the array. -/
theorem wrap_eq {S : Shape} (hb : (⟨0, ![]⟩ : Shape).BroadcastsInDim S ![]) (x : IVec S 32)
    (hx : ∀ e, 0 ≤ (x e).toInt) :
    select (cmpi .slt x (broadcastInDim S ![] hb (constantI ⟨0, ![]⟩ 32 0#32)))
      (addi x (broadcastInDim S ![] hb (constantI ⟨0, ![]⟩ 32 10000#32))) x = x := by
  funext e
  exact wrap_word (x e) (hx e)

/-! ## The pair of endpoint columns -/

/-- An array of e words as an [e × 1] column reads the word at its row. -/
theorem column_apply {α : Type} {e : ℕ} (hb : (⟨1, ![e]⟩ : Shape).BroadcastsInDim ⟨2, ![e, 1]⟩ ![0])
    (a : (⟨1, ![e]⟩ : Shape).Idx → α) (p : Fin e) (u : Fin 1) :
    broadcastInDim ⟨2, ![e, 1]⟩ ![0] hb a (ix2 p u) = a (ix1 p) := by
  refine broadcastInDim_apply ![0] hb a (ix2 p u) (ix1 p) (fun ax => ?_)
  obtain rfl : ax = 0 := Subsingleton.elim _ _
  show p.val = if e = 1 then 0 else p.val
  split
  · have := p.isLt; omega
  · rfl

/-- Two columns side by side: column 0 of row p is the first array's word p. -/
theorem pair_left {α : Type} {e : ℕ} (hb : (⟨1, ![e]⟩ : Shape).BroadcastsInDim ⟨2, ![e, 1]⟩ ![0])
    (hcat : Shape.Concatenates [(⟨2, ![e, 1]⟩ : Shape), ⟨2, ![e, 1]⟩] ⟨2, ![e, 2]⟩ 1)
    (a b : (⟨1, ![e]⟩ : Shape).Idx → α) (p : Fin e) :
    concatenate ⟨2, ![e, 2]⟩ 1 [⟨⟨2, ![e, 1]⟩, broadcastInDim ⟨2, ![e, 1]⟩ ![0] hb a⟩,
        ⟨⟨2, ![e, 1]⟩, broadcastInDim ⟨2, ![e, 1]⟩ ![0] hb b⟩] hcat (ix2 p (0 : Fin 2)) = a (ix1 p) := by
  refine (concatenate_pair_apply_left 1 _ _ hcat (ix2 p (0 : Fin 2)) rfl (ix2 p (0 : Fin 1)) (fun ax => ?_)).trans
    (column_apply hb a p 0)
  match ax with
  | ⟨0, _⟩ => rfl
  | ⟨1, _⟩ => rfl

/-- Two columns side by side: column 1 of row p is the second array's word p. -/
theorem pair_right {α : Type} {e : ℕ} (hb : (⟨1, ![e]⟩ : Shape).BroadcastsInDim ⟨2, ![e, 1]⟩ ![0])
    (hcat : Shape.Concatenates [(⟨2, ![e, 1]⟩ : Shape), ⟨2, ![e, 1]⟩] ⟨2, ![e, 2]⟩ 1)
    (a b : (⟨1, ![e]⟩ : Shape).Idx → α) (p : Fin e) :
    concatenate ⟨2, ![e, 2]⟩ 1 [⟨⟨2, ![e, 1]⟩, broadcastInDim ⟨2, ![e, 1]⟩ ![0] hb a⟩,
        ⟨⟨2, ![e, 1]⟩, broadcastInDim ⟨2, ![e, 1]⟩ ![0] hb b⟩] hcat (ix2 p (1 : Fin 2)) = b (ix1 p) := by
  refine (concatenate_pair_apply_right 1 _ _ hcat (ix2 p (1 : Fin 2)) rfl rfl (ix2 p (0 : Fin 1)) (fun ax hax => ?_) rfl).trans
    (column_apply hb b p 0)
  match ax, hax with
  | ⟨0, _⟩, _ => rfl
  | ⟨1, _⟩, hax => exact absurd rfl hax

/-! ## The accumulating pair scatter read at one entry -/

/-- The accumulating scatter of rank-1 updates by [e × 2] index pairs leaves at (r, c) the operand's entry plus the
    updates whose two index words, read signed, are r and c. -/
theorem pairScatterAdd_apply {φ : FTy} {n k e w : ℕ} (d : ScatterDims ⟨2, ![n, k]⟩ ⟨2, ![e, 2]⟩ ⟨1, ![e]⟩)
    (huw : d.updateWindowDims = []) (hiw : d.insertedWindowDims = [0, 1])
    (hsd : d.scatterDimsToOperandDims = [0, 1]) (hivd : d.indexVectorDim = 1)
    (x : FVec Ideal ⟨2, ![n, k]⟩ φ) (idx : IVec ⟨2, ![e, 2]⟩ w) (upd : FVec Ideal ⟨1, ![e]⟩ φ) (r : Fin n) (c : Fin k) :
    Host.scatterAdd (F := Ideal) d x idx upd (ix2 r c)
      = x (ix2 r c) + ∑ p : Fin e, if (idx (ix2 p (0 : Fin 2))).toInt = (r.val : ℤ)
          ∧ (idx (ix2 p (1 : Fin 2))).toInt = (c.val : ℤ) then upd (ix1 p) else 0 := by
  show Ideal.hostScatterAdd d x idx upd (ix2 r c) = _
  unfold Ideal.hostScatterAdd
  congr 1
  rw [Finset.sum_filter, Cert.Gcn.IndexMaps.sum_idx1]
  refine Finset.sum_congr rfl (fun p _ => ?_)
  simp only [Cert.LibScatterSet.scatterPair_resultIdx_ix_iff d huw hiw hsd hivd]

/-- Two side-by-side pieces may be replaced by equal pieces. -/
theorem pair_congr {α : Type} {t s₁ s₂ : Shape} (a : Fin t.rank) (A A' : s₁.Idx → α) (B B' : s₂.Idx → α)
    (h : Shape.Concatenates [s₁, s₂] t a) (hA : A = A') (hB : B = B') :
    concatenate t a [⟨s₁, A⟩, ⟨s₂, B⟩] h = concatenate t a [⟨s₁, A'⟩, ⟨s₂, B'⟩] h := by
  subst hA hB
  rfl

/-! ## One entry of the adjacency matrix -/

/-- The scatter-add of the edge values into a zero matrix, read at (r, c): the sum over the edges with endpoints
    (r, c) of the product of the two endpoint weights. The endpoints are node numbers, so a scattered position is
    the pair of nodes, and a gathered weight is the weight of the node. -/
theorem adjacency_entry (d : ScatterDims S10000x10000 S640000x2 S640000)
    (huw : d.updateWindowDims = []) (hiw : d.insertedWindowDims = [0, 1])
    (hsd : d.scatterDimsToOperandDims = [0, 1]) (hivd : d.indexVectorDim = 1)
    (g : GatherDims S10000 S640000x1 S640000)
    (hcoll : g.collapsedSliceDims = [0]) (hob : g.operandBatchingDims = [])
    (hsim : g.startIndexMap = [0]) (hgivd : g.indexVectorDim = 1)
    (h0 : S_.BroadcastsInDim S10000x10000 ![]) (hb : S640000.BroadcastsInDim S640000x1 ![0])
    (hcat : Shape.Concatenates [S640000x1, S640000x1] S640000x2 1)
    (nrm : S10000.Idx → EReal) (rows cols : IVec S640000 32) (hr : InRange rows) (hc : InRange cols)
    (r k : Fin 10000) :
    Host.scatterAdd (F := Ideal) (φ := .f32) d
        (broadcastInDim S10000x10000 ![] h0 (constant (F := Ideal) S_ .f32 0x00000000#32))
        (concatenate S640000x2 1 [⟨S640000x1, broadcastInDim S640000x1 ![0] hb rows⟩,
          ⟨S640000x1, broadcastInDim S640000x1 ![0] hb cols⟩] hcat)
        (mulf (Host.gather g nrm (broadcastInDim S640000x1 ![0] hb rows))
          (Host.gather g nrm (broadcastInDim S640000x1 ![0] hb cols))) (ix2 r k)
      = Cert.Spec.adj (vec nrm) (nodeOf rows) (nodeOf cols) r k := by
  rw [pairScatterAdd_apply d huw hiw hsd hivd]
  have hz : broadcastInDim S10000x10000 ![] h0 (constant (F := Ideal) S_ .f32 0x00000000#32) (ix2 r k) = 0 :=
    Ideal.ofBits_zero_f32
  rw [hz, zero_add]
  unfold Cert.Spec.adj
  refine Finset.sum_congr rfl (fun p _ => ?_)
  rw [pair_left hb hcat rows cols p, pair_right hb hcat rows cols p]
  obtain ⟨hr1, hr2⟩ := word_inRange _ (hr (ix1 p)).1 (hr (ix1 p)).2
  obtain ⟨hc1, hc2⟩ := word_inRange _ (hc (ix1 p)).1 (hc (ix1 p)).2
  have er : (rows (ix1 p)).toInt = (r.val : ℤ) ↔ nodeOf rows p = r := by
    rw [hr1]
    constructor
    · intro h
      apply Fin.ext
      show (rows (ix1 p)).toNat % 10000 = r.val
      omega
    · intro h
      have hv : (rows (ix1 p)).toNat % 10000 = r.val := congrArg Fin.val h
      omega
  have ec : (cols (ix1 p)).toInt = (k.val : ℤ) ↔ nodeOf cols p = k := by
    rw [hc1]
    constructor
    · intro h
      apply Fin.ext
      show (cols (ix1 p)).toNat % 10000 = k.val
      omega
    · intro h
      have hv : (cols (ix1 p)).toNat % 10000 = k.val := congrArg Fin.val h
      omega
  have gr : Host.gather g nrm (broadcastInDim S640000x1 ![0] hb rows) (ix1 p) = vec nrm (nodeOf rows p) := by
    rw [Cert.LibGatherClamp.gather1_clamp_ix_apply (by norm_num) g hcoll hob hsim hgivd]
    unfold vec
    refine congrArg nrm (congrArg ix1 (Fin.ext ?_))
    show min (broadcastInDim S640000x1 ![0] hb rows (ix2 p 0)).toInt.toNat (10000 - 1) = (rows (ix1 p)).toNat % 10000
    rw [column_apply hb rows p 0]
    omega
  have gc : Host.gather g nrm (broadcastInDim S640000x1 ![0] hb cols) (ix1 p) = vec nrm (nodeOf cols p) := by
    rw [Cert.LibGatherClamp.gather1_clamp_ix_apply (by norm_num) g hcoll hob hsim hgivd]
    unfold vec
    refine congrArg nrm (congrArg ix1 (Fin.ext ?_))
    show min (broadcastInDim S640000x1 ![0] hb cols (ix2 p 0)).toInt.toNat (10000 - 1) = (cols (ix1 p)).toNat % 10000
    rw [column_apply hb cols p 0]
    omega
  refine if_congr (and_congr er ec) ?_ rfl
  show Host.gather g nrm _ (ix1 p) * Host.gather g nrm _ (ix1 p) = _
  rw [gr, gc]
  rfl

/-! ## The buffers after the host operations -/

/-- The dense adjacency matrix the host builds, entry by entry, when every edge endpoint is a node number. -/
theorem adjacency (c : Dev nD) (hr : InRange (arg2 m c)) (hc : InRange (arg3 m c)) :
    mat (V1 (F := Ideal) m ρ c main_v30 : S10000x10000.Idx → EReal)
      = Cert.Spec.adj (vec (arg1 m c)) (nodeOf (arg2 m c)) (nodeOf (arg3 m c)) := by
  funext r k
  show StableHlo.after hostOps0 _ (Proc.devRef .tc main_v30) (ix2 r k) = _
  after_results_simp
  rw [pair_congr 1 _ _ _ _ _ ?hA ?hB]
  case hA => after_results_simp; rfl
  case hB => after_results_simp; rfl
  rw [wrap_eq bcast_S_S640000 (W0 m ρ c (Proc.devRef .tc main_arg2)) (fun e => (hr e).1),
    wrap_eq bcast_S_S640000 (W0 m ρ c (Proc.devRef .tc main_arg3)) (fun e => (hc e).1)]
  exact adjacency_entry scatter_S10000x10000_S640000x2_S640000_n_01_01_1 rfl rfl rfl rfl
    gather_S10000_S640000x1_S640000_n_0_n_n_0_1_1 rfl rfl rfl rfl _ _ _ _ _ _ hr hc r k

/-- The feature matrix handed to the first region is the argument. -/
theorem features (c : Dev nD) : (V1 (F := Ideal) m ρ c main_v31 : S10000x128.Idx → EReal) = arg0 m c := by
  show StableHlo.after hostOps0 _ (Proc.devRef .tc main_v31) = _
  after_results_simp
  rfl

/-- The first weight matrix handed to the first region is the argument. -/
theorem weights1 (c : Dev nD) : (V1 (F := Ideal) m ρ c main_v32 : S128x16.Idx → EReal) = arg4 m c := by
  show StableHlo.after hostOps0 _ (Proc.devRef .tc main_v32) = _
  after_results_simp
  rfl

/-- The second weight matrix handed to the second region is the argument. -/
theorem weights2 (c : Dev nD) : (V1 (F := Ideal) m ρ c main_v33 : S16x8.Idx → EReal) = arg6 m c := by
  show StableHlo.after hostOps0 _ (Proc.devRef .tc main_v33) = _
  after_results_simp
  rfl

/-- The first bias as a 1×16 row holds the argument's entries. -/
theorem bias1 (c : Dev nD) : row0 (V1 (F := Ideal) m ρ c main_v34 : S1x16.Idx → EReal) = vec (arg5 m c) := by
  have e : (V1 (F := Ideal) m ρ c main_v34 : S1x16.Idx → EReal)
      = shapeCast S1x16 (arg5 m c) shapeCasts_S16_S1x16 := by
    show StableHlo.after hostOps0 _ (Proc.devRef .tc main_v34) = _
    after_results_simp
    rfl
  rw [e]
  funext k
  exact shapeCast_a_1a_apply (arg5 m c) shapeCasts_S16_S1x16 0 k

/-- The second bias as a 1×8 row holds the argument's entries. -/
theorem bias2 (c : Dev nD) : row0 (V1 (F := Ideal) m ρ c main_v35 : S1x8.Idx → EReal) = vec (arg7 m c) := by
  have e : (V1 (F := Ideal) m ρ c main_v35 : S1x8.Idx → EReal)
      = shapeCast S1x8 (arg7 m c) shapeCasts_S8_S1x8 := by
    show StableHlo.after hostOps0 _ (Proc.devRef .tc main_v35) = _
    after_results_simp
    rfl
  rw [e]
  funext k
  exact shapeCast_a_1a_apply (arg7 m c) shapeCasts_S8_S1x8 0 k

end Cert.KernelIdeal.Host

end
-- ==== Proof.KIValue.lean ====
/-
  The kernel program's result at the ideal instance: the result buffer at the last boundary is the specification
  computed through the dense adjacency matrix.  The final reshape keeps the entries of the second region's 1×8 output;
  that output is the tiled mean of the second layer over the adjacency matrix and the hidden features; the hidden features
  are the first region's output, through a change of float format that is the identity; the adjacency matrix and the
  weights reach both regions as the host operations before the first region left them.
-/
import proofs.«406582_j58411555225956_1_alg».proof.Proof.KIFold
import proofs.«406582_j58411555225956_1_alg».proof.Proof.KIVal0
import proofs.«406582_j58411555225956_1_alg».proof.Proof.KIVal1
import proofs.«406582_j58411555225956_1_alg».proof.Proof.KIHost
import proofs.«406582_j58411555225956_1_alg».proof.Proof.Gen.KernelIdeal.Regions
import Idealize.ShloMosaic.Lib.StableHlo.Run
import Idealize.ShloMosaic.Lib.ValueLayout

set_option maxRecDepth 16384

noncomputable section

namespace Cert.KernelIdeal.Value

open Cert.KernelIdeal Cert.KernelIdeal.Gen Cert.KernelIdeal.Hand
open Idealize.ShloMosaic Idealize.ShloMosaic.TcCoe Idealize.ShloMosaic.ValueIdx Idealize.SL.Sem
open Cert.Inp

open Cert.KernelIdeal.Host

variable (m : (ℓ : Loc nD τ sig) → Buf (Elt Ideal) ℓ) (ρ : Dev nD → PrngReg)

/-- The adjacency matrix reaches the second region as the first found it: an input of the first region, not written
    by the conversion between the regions. -/
theorem V3_v30 (c : Dev nD) : V3 (F := Ideal) m ρ c main_v30 = V1 (F := Ideal) m ρ c main_v30 := by
  have h1 : W3 (F := Ideal) m ρ c (Proc.devRef .tc main_v30) = W2 (F := Ideal) m ρ c (Proc.devRef .tc main_v30) :=
    StableHlo.after_of_writes_sub hostOps1 _ hostOps1_writes (r := main_v30) (by decide)
  have h2 : W2 (F := Ideal) m ρ c (Proc.devRef .tc main_v30) = (dat0 (V1 (F := Ideal) m ρ) c).arrAt 0 cfg0.N := W2_arr m ρ c 0
  exact h1.trans (h2.trans (((dat0 (V1 (F := Ideal) m ρ) c).arrAt_in 0 rfl _).trans (A_eq0 (V1 (F := Ideal) m ρ) c 0)))

/-- The second weight matrix and the second bias row bypass the first region and the conversion. -/
theorem V3_v33 (c : Dev nD) : V3 (F := Ideal) m ρ c main_v33 = V1 (F := Ideal) m ρ c main_v33 := by
  have h1 : W3 (F := Ideal) m ρ c (Proc.devRef .tc main_v33) = W2 (F := Ideal) m ρ c (Proc.devRef .tc main_v33) :=
    StableHlo.after_of_writes_sub hostOps1 _ hostOps1_writes (r := main_v33) (by decide)
  exact h1.trans (W2_of_ne m ρ c main_v33 (by decide))

theorem V3_v35 (c : Dev nD) : V3 (F := Ideal) m ρ c main_v35 = V1 (F := Ideal) m ρ c main_v35 := by
  have h1 : W3 (F := Ideal) m ρ c (Proc.devRef .tc main_v35) = W2 (F := Ideal) m ρ c (Proc.devRef .tc main_v35) :=
    StableHlo.after_of_writes_sub hostOps1 _ hostOps1_writes (r := main_v35) (by decide)
  exact h1.trans (W2_of_ne m ρ c main_v35 (by decide))

/-- The hidden features the second region reads are the first region's output array: the conversion between them is a
    change of float format, the identity on extended reals. -/
theorem V3_v37 (c : Dev nD) :
    (V3 (F := Ideal) m ρ c main_v37 : S10000x16.Idx → EReal) = (dat0 (V1 (F := Ideal) m ρ) c).arrAt 4 cfg0.N := by
  have h1 : (W3 (F := Ideal) m ρ c (Proc.devRef .tc main_v37) : S10000x16.Idx → EReal)
      = (W2 (F := Ideal) m ρ c (Proc.devRef .tc main_v36) : S10000x16.Idx → EReal) := by
    show StableHlo.after hostOps1 _ (Proc.devRef .tc main_v37) = _
    after_results
    rfl
  exact h1.trans (W2_arr m ρ c 4)

/-- The result buffer holds the entries of the second region's 1×8 output. -/
theorem W5_v39 (c : Dev nD) (i : S8.Idx) :
    (W5 (F := Ideal) m ρ c (Proc.devRef .tc main_v39) : S8.Idx → EReal) i
      = (dat1 (V3 (F := Ideal) m ρ) c).arrAt 4 cfg1.N (ix2 0 (i 0)) := by
  have h1 : (W5 (F := Ideal) m ρ c (Proc.devRef .tc main_v39) : S8.Idx → EReal)
      = shapeCast S8 (W4 (F := Ideal) m ρ c (Proc.devRef .tc main_v38) : S1x8.Idx → EReal) shapeCasts_S1x8_S8 := by
    show StableHlo.after hostOps2 _ (Proc.devRef .tc main_v39) = _
    after_results
    rfl
  rw [h1, ← W4_arr m ρ c 4, eq_ix1 i]
  exact shapeCast_1a_a_apply _ _ _

/-- THE KERNEL'S VALUE: for in-range edge endpoints the result buffer at the return is the specification computed through
    the dense adjacency matrix, of the argument arrays. -/
theorem result_eq (c : Dev nD) (hr : InRange (arg2 m c)) (hc : InRange (arg3 m c)) :
    (W5 (F := Ideal) m ρ c (Proc.devRef .tc main_v39) : S8.Idx → EReal)
      = fun i : S8.Idx => Cert.Spec.denseResult (vec (arg1 m c)) (nodeOf (arg2 m c)) (nodeOf (arg3 m c)) (mat (arg0 m c))
          (mat (arg4 m c)) (vec (arg5 m c)) (mat (arg6 m c)) (vec (arg7 m c)) (i 0) := by
  funext i
  rw [W5_v39 m ρ c i, Cert.KernelIdeal.Val1.arr1_4 (V3 (F := Ideal) m ρ) c]
  show Cert.Spec.denseMean _ _ _ _ (i 0) = _
  rw [V3_v30, V3_v33, V3_v35, V3_v37, Cert.KernelIdeal.Val0.arr0_4 (V1 (F := Ideal) m ρ) c]
  rw [adjacency m ρ c hr hc, features m ρ c, weights1 m ρ c, weights2 m ρ c, bias1 m ρ c, bias2 m ρ c]
  rfl

end Cert.KernelIdeal.Value

end
-- ==== Proof.RefValue.lean ====
/-
  The reference program's result at the ideal instance, index by index: for every output class `j`, the mean over the
  10000 nodes of the second layer, each layer summing over the edges out of a node the edge value times the operand's
  row at the edge's target — the edge-wise form of the specification.  The gathers read a node's row (the endpoint a node
  number in range), the scatter-adds sum the edges by their source node, the two products and the final sum are plain
  sums, the division by 10000 the product with its reciprocal.
-/
import proofs.«406582_j58411555225956_1_alg».proof.Proof.Gen.ReferenceIdeal.Run
import proofs.«406582_j58411555225956_1_alg».proof.Proof.Gen.ReferenceIdeal.Read
import proofs.«406582_j58411555225956_1_alg».proof.Proof.Spec
import proofs.«406582_j58411555225956_1_alg».proof.Proof.Inputs
import proofs.«406582_j58411555225956_1_alg».proof.Proof.LibIndexMaps
import proofs.«406582_j58411555225956_1_alg».proof.Proof.LibScatterHost
import proofs.«406582_j58411555225956_1_alg».proof.Proof.LibGatherClamp
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Inp

/-! ### Words that are node numbers -/

/-- A word that, read signed, is at least 0 and below 10000 is its natural value, below 10000. -/
theorem toNat_of_range {w : BitVec 32} (h0 : 0 ≤ w.toInt) (h1 : w.toInt < 10000) :
    w.toInt = (w.toNat : Int) ∧ w.toNat < 10000 := by
  have h := BitVec.toInt_eq_toNat_cond w
  have hlt := w.isLt
  split_ifs at h <;> omega

/-- The wrap of a negative index leaves a nonnegative word alone. -/
theorem wrap_eq {w a : BitVec 32} (h0 : 0 ≤ w.toInt) :
    Scalar.select (IntOp.cmpi .slt w 0#32) a w = w := by
  have hs : w.slt 0#32 = false := by
    simp only [BitVec.slt, BitVec.toInt_zero, decide_eq_false_iff_not, not_lt]
    exact h0
  have hb : IntOp.cmpi .slt w 0#32 = 0#1 := by
    show BitVec.ofBool (w.slt 0#32) = 0#1
    rw [hs]; rfl
  rw [hb]
  exact select_zero _ _

/-- The clamped row of a node number is the node. -/
theorem clamp_node (x : S640000.Idx → BitVec 32) (hr : InRange x) (p : Fin 640000) (w : BitVec 32)
    (hw : w = x (ix1 p)) (h : min w.toInt.toNat (10000 - 1) < 10000) :
    (⟨min w.toInt.toNat (10000 - 1), h⟩ : Fin 10000) = nodeOf x p := by
  subst hw
  obtain ⟨e1, e2⟩ := toNat_of_range (hr (ix1 p)).1 (hr (ix1 p)).2
  apply Fin.ext
  show min (x (ix1 p)).toInt.toNat (10000 - 1) = (x (ix1 p)).toNat % 10000
  rw [e1, Int.toNat_natCast]
  omega

/-- An edge's word names row r exactly when the edge's node is r. -/
theorem node_iff (x : S640000.Idx → BitVec 32) (hr : InRange x) (p : Fin 640000) (r : Fin 10000) :
    (x (ix1 p)).toInt = ((r.val : ℕ) : Int) ↔ nodeOf x p = r := by
  obtain ⟨e1, e2⟩ := toNat_of_range (hr (ix1 p)).1 (hr (ix1 p)).2
  rw [e1, Fin.ext_iff]
  show ((x (ix1 p)).toNat : Int) = (r.val : Int) ↔ (x (ix1 p)).toNat % 10000 = r.val
  omega

/-! ### The row-scatter of scaled gathered rows is the edge-wise sum, for any width -/

/-- Scatter-adding into a zero array, by the row words, the update rows "edge value times the operand's row at the
    edge's target" leaves at (r, c) the edge-wise sum. -/
theorem spmm_apply {d : ℕ} (D : ScatterDims ⟨2, ![10000, d]⟩ ⟨2, ![640000, 1]⟩ ⟨2, ![640000, d]⟩)
    (huw : D.updateWindowDims = [1]) (hiw : D.insertedWindowDims = [0])
    (hsd : D.scatterDimsToOperandDims = [0]) (hivd : D.indexVectorDim = 1)
    (z : FVec Ideal ⟨2, ![10000, d]⟩ .f32) (hz : ∀ i, z i = 0)
    (idx : IVec ⟨2, ![640000, 1]⟩ 32) (x2 : S640000.Idx → BitVec 32) (hr : InRange x2)
    (hidx : ∀ p : Fin 640000, idx (ix2 p (0 : Fin 1)) = x2 (ix1 p))
    (upd : FVec Ideal ⟨2, ![640000, d]⟩ .f32)
    (nrm : Fin 10000 → EReal) (col : Fin 640000 → Fin 10000) (X : Fin 10000 → Fin d → EReal)
    (hupd : ∀ (p : Fin 640000) (c : Fin d), upd (ix2 p c) = Cert.Spec.vals nrm (nodeOf x2) col p * X (col p) c)
    (r : Fin 10000) (c : Fin d) :
    Host.scatterAdd (F := Ideal) D z idx upd (ix2 r c) = Cert.Spec.edgeSum nrm (nodeOf x2) col X r c := by
  rw [Cert.LibScatterHost.scatterAdd2_apply D huw hiw hsd hivd, hz, zero_add, Cert.Spec.edgeSum]
  refine Finset.sum_congr rfl (fun p _ => ?_)
  rw [hidx, hupd]
  exact if_congr (node_iff x2 hr p r) rfl rfl

/-! ### The index columns and the edge values -/

/-- The first endpoint's column of start indices holds the endpoint words. -/
theorem v5_col (x2 : S640000.Idx → BitVec 32) (hr : InRange x2) (p : Fin 640000) :
    val_main_v5 (F := Ideal) x2 (ix2 p (0 : Fin 1)) = x2 (ix1 p) := by
  have e : idx_main_v5 (ix2 p (0 : Fin 1)) = ix1 p := by funext a; match a with | ⟨0, _⟩ => rfl
  rw [val_main_v5_apply, e, val_main_v4_apply, val_main_v1_apply, val_main_v0_apply, val_main_c_apply]
  exact wrap_eq (hr (ix1 p)).1

theorem v12_col (x3 : S640000.Idx → BitVec 32) (hc : InRange x3) (p : Fin 640000) :
    val_main_v12 (F := Ideal) x3 (ix2 p (0 : Fin 1)) = x3 (ix1 p) := by
  have e : idx_main_v12 (ix2 p (0 : Fin 1)) = ix1 p := by funext a; match a with | ⟨0, _⟩ => rfl
  rw [val_main_v12_apply, e, val_main_v11_apply, val_main_v8_apply, val_main_v7_apply, val_main_c_1_apply]
  exact wrap_eq (hc (ix1 p)).1

theorem v21_col (x3 : S640000.Idx → BitVec 32) (hc : InRange x3) (p : Fin 640000) :
    val_main_v21 (F := Ideal) x3 (ix2 p (0 : Fin 1)) = x3 (ix1 p) := by
  have e : idx_main_v21 (ix2 p (0 : Fin 1)) = ix1 p := by funext a; match a with | ⟨0, _⟩ => rfl
  rw [val_main_v21_apply, e, val_main_v20_apply, val_main_v17_apply, val_main_v16_apply, val_main_c_3_apply]
  exact wrap_eq (hc (ix1 p)).1

theorem v39_col (x3 : S640000.Idx → BitVec 32) (hc : InRange x3) (p : Fin 640000) :
    val_main_v39 (F := Ideal) x3 (ix2 p (0 : Fin 1)) = x3 (ix1 p) := by
  have e : idx_main_v39 (ix2 p (0 : Fin 1)) = ix1 p := by funext a; match a with | ⟨0, _⟩ => rfl
  rw [val_main_v39_apply, e, val_main_v38_apply, val_main_v35_apply, val_main_v34_apply, val_main_c_5_apply]
  exact wrap_eq (hc (ix1 p)).1

/-- The weight gathered at an edge's source. -/
theorem v6_apply (x1 : S10000.Idx → EReal) (x2 : S640000.Idx → BitVec 32) (hr : InRange x2) (p : Fin 640000) :
    val_main_v6 (F := Ideal) x1 x2 (ix1 p) = x1 (ix1 (nodeOf x2 p)) := by
  unfold val_main_v6
  rw [Cert.LibGatherClamp.gather1_clamp_ix_apply (by norm_num) _ rfl rfl rfl rfl]
  exact congrArg x1 (congrArg ix1 (clamp_node x2 hr p _ (v5_col x2 hr p) _))

/-- The weight gathered at an edge's target. -/
theorem v13_apply (x1 : S10000.Idx → EReal) (x3 : S640000.Idx → BitVec 32) (hc : InRange x3) (p : Fin 640000) :
    val_main_v13 (F := Ideal) x1 x3 (ix1 p) = x1 (ix1 (nodeOf x3 p)) := by
  unfold val_main_v13
  rw [Cert.LibGatherClamp.gather1_clamp_ix_apply (by norm_num) _ rfl rfl rfl rfl]
  exact congrArg x1 (congrArg ix1 (clamp_node x3 hc p _ (v12_col x3 hc p) _))

/-- The edge values. -/
theorem v14_apply (x1 : S10000.Idx → EReal) (x2 x3 : S640000.Idx → BitVec 32) (hr : InRange x2) (hc : InRange x3)
    (p : Fin 640000) :
    val_main_v14 (F := Ideal) x1 x2 x3 (ix1 p) = Cert.Spec.vals (vec x1) (nodeOf x2) (nodeOf x3) p := by
  rw [val_main_v14_apply, v6_apply x1 x2 hr, v13_apply x1 x3 hc]
  rfl

/-! ### The first layer -/

/-- The feature rows gathered at the edges' targets. -/
theorem v22_apply (x0 : S10000x128.Idx → EReal) (x3 : S640000.Idx → BitVec 32) (hc : InRange x3)
    (p : Fin 640000) (c : Fin 128) :
    val_main_v22 (F := Ideal) x0 x3 (ix2 p c) = x0 (ix2 (nodeOf x3 p) c) := by
  unfold val_main_v22
  rw [Cert.LibGatherClamp.gather2_clamp_ix_apply (by norm_num) _ rfl rfl rfl rfl rfl]
  exact congrArg (fun n => x0 (ix2 n c)) (clamp_node x3 hc p _ (v21_col x3 hc p) _)

/-- The first layer's scattered sum is the edge-wise sum of the features. -/
theorem v27_apply (x0 : S10000x128.Idx → EReal) (x1 : S10000.Idx → EReal) (x2 x3 : S640000.Idx → BitVec 32)
    (hr : InRange x2) (hc : InRange x3) (r : Fin 10000) (c : Fin 128) :
    val_main_v27 (F := Ideal) x0 x1 x2 x3 (ix2 r c)
      = Cert.Spec.edgeSum (vec x1) (nodeOf x2) (nodeOf x3) (mat x0) r c := by
  unfold val_main_v27
  refine spmm_apply _ rfl rfl rfl rfl _ ?_ _ x2 hr ?_ _ (vec x1) (nodeOf x3) (mat x0) ?_ r c
  · intro i
    rw [val_main_v25_apply, val_main_cst_apply]
    exact Ideal.ofBits_zero_f32
  · intro p
    have e : idx_main_v26 (ix2 p (0 : Fin 1)) = ix1 p := by funext a; match a with | ⟨0, _⟩ => rfl
    rw [val_main_v26_apply, e]
  · intro p k
    have e1 : idx_main_v23 (ix2 p k) = ix2 p (0 : Fin 1) := by
      funext a; match a with | ⟨0, _⟩ => rfl | ⟨1, _⟩ => rfl
    have e2 : idx_main_v15 (ix2 p (0 : Fin 1)) = ix1 p := by funext a; match a with | ⟨0, _⟩ => rfl
    rw [val_main_v24_apply, val_main_v23_apply, e1, val_main_v15_apply, e2, v14_apply x1 x2 x3 hr hc,
      v22_apply x0 x3 hc]
    rfl

/-- The first layer's hidden array, entry by entry. -/
theorem v32_apply (x0 : S10000x128.Idx → EReal) (x1 : S10000.Idx → EReal) (x2 x3 : S640000.Idx → BitVec 32)
    (x4 : S128x16.Idx → EReal) (x5 : S16.Idx → EReal) (hr : InRange x2) (hc : InRange x3)
    (r : Fin 10000) (j : Fin 16) :
    val_main_v32 (F := Ideal) x0 x1 x2 x3 x4 x5 (ix2 r j)
      = Cert.Spec.edgeHidden (vec x1) (nodeOf x2) (nodeOf x3) (mat x0) (mat x4) (vec x5) r j := by
  have eb : idx_main_v29 (idx_main_v30 (ix2 r j)) = ix1 j := by funext a; match a with | ⟨0, _⟩ => rfl
  rw [val_main_v32_apply, val_main_v31_apply, val_main_v28_apply, val_main_v30_apply, val_main_v29_apply, eb,
    val_main_call0_v0_apply, val_main_call0_cst_apply, Ideal.maximumf_def, Ideal.addf_def, Ideal.ofBits_def,
    Ideal.ofBits_zero_f32]
  unfold Cert.Spec.edgeHidden
  refine congrArg (fun s => max (s + x5 (ix1 j)) 0) (Finset.sum_congr rfl (fun k _ => ?_))
  have el : lidx_main_v28 (ix2 r j) k = ix2 r k := by funext a; match a with | ⟨0, _⟩ => rfl | ⟨1, _⟩ => rfl
  have er : ridx_main_v28 (ix2 r j) k = ix2 k j := by funext a; match a with | ⟨0, _⟩ => rfl | ⟨1, _⟩ => rfl
  rw [el, er, v27_apply x0 x1 x2 x3 hr hc]
  rfl

/-! ### The second layer and the mean -/

/-- The hidden rows gathered at the edges' targets. -/
theorem v40_apply (x0 : S10000x128.Idx → EReal) (x1 : S10000.Idx → EReal) (x2 x3 : S640000.Idx → BitVec 32)
    (x4 : S128x16.Idx → EReal) (x5 : S16.Idx → EReal) (hc : InRange x3) (p : Fin 640000) (c : Fin 16) :
    val_main_v40 (F := Ideal) x0 x1 x2 x3 x4 x5 (ix2 p c)
      = val_main_v32 (F := Ideal) x0 x1 x2 x3 x4 x5 (ix2 (nodeOf x3 p) c) := by
  unfold val_main_v40
  rw [Cert.LibGatherClamp.gather2_clamp_ix_apply (by norm_num) _ rfl rfl rfl rfl rfl]
  exact congrArg (fun n => val_main_v32 (F := Ideal) x0 x1 x2 x3 x4 x5 (ix2 n c))
    (clamp_node x3 hc p _ (v39_col x3 hc p) _)

/-- The second layer's scattered sum is the edge-wise sum of the hidden array. -/
theorem v45_apply (x0 : S10000x128.Idx → EReal) (x1 : S10000.Idx → EReal) (x2 x3 : S640000.Idx → BitVec 32)
    (x4 : S128x16.Idx → EReal) (x5 : S16.Idx → EReal) (hr : InRange x2) (hc : InRange x3)
    (r : Fin 10000) (c : Fin 16) :
    val_main_v45 (F := Ideal) x0 x1 x2 x3 x4 x5 (ix2 r c)
      = Cert.Spec.edgeSum (vec x1) (nodeOf x2) (nodeOf x3)
          (Cert.Spec.edgeHidden (vec x1) (nodeOf x2) (nodeOf x3) (mat x0) (mat x4) (vec x5)) r c := by
  unfold val_main_v45
  refine spmm_apply _ rfl rfl rfl rfl _ ?_ _ x2 hr ?_ _ (vec x1) (nodeOf x3)
    (Cert.Spec.edgeHidden (vec x1) (nodeOf x2) (nodeOf x3) (mat x0) (mat x4) (vec x5)) ?_ r c
  · intro i
    rw [val_main_v43_apply, val_main_cst_7_apply]
    exact Ideal.ofBits_zero_f32
  · intro p
    have e : idx_main_v44 (ix2 p (0 : Fin 1)) = ix1 p := by funext a; match a with | ⟨0, _⟩ => rfl
    rw [val_main_v44_apply, e]
  · intro p k
    have e1 : idx_main_v41 (ix2 p k) = ix2 p (0 : Fin 1) := by
      funext a; match a with | ⟨0, _⟩ => rfl | ⟨1, _⟩ => rfl
    have e2 : idx_main_v33 (ix2 p (0 : Fin 1)) = ix1 p := by funext a; match a with | ⟨0, _⟩ => rfl
    rw [val_main_v42_apply, val_main_v41_apply, e1, val_main_v33_apply, e2, v14_apply x1 x2 x3 hr hc,
      v40_apply x0 x1 x2 x3 x4 x5 hc, v32_apply x0 x1 x2 x3 x4 x5 hr hc]
    rfl

/-- The pattern of the divisor denotes the real 10000. -/
theorem ofBits_10000 : Ideal.ofBits .f32 0x461C4000#32 = ((10000 : ℝ) : EReal) := by
  simp [Ideal.ofBits, Ideal.ieee, -EReal.coe_mul]; norm_num

/-- The reference's result is the edge-wise specification of its arguments, when every edge endpoint is a node number. -/
theorem result_eq (x0 : S10000x128.Idx → EReal) (x1 : S10000.Idx → EReal) (x2 x3 : S640000.Idx → BitVec 32)
    (x4 : S128x16.Idx → EReal) (x5 : S16.Idx → EReal) (x6 : S16x8.Idx → EReal) (x7 : S8.Idx → EReal)
    (hr : InRange x2) (hc : InRange x3) :
    val_main_v52 (F := Ideal) x0 x1 x2 x3 x4 x5 x6 x7
      = fun i : S8.Idx => Cert.Spec.edgeResult (vec x1) (nodeOf x2) (nodeOf x3) (mat x0) (mat x4) (vec x5) (mat x6) (vec x7) (i 0) := by
  funext i
  obtain ⟨j, rfl⟩ : ∃ j : Fin 8, i = ix1 j := ⟨i 0, eq_ix1 i⟩
  show _ = Cert.Spec.edgeResult _ _ _ _ _ _ _ _ j
  rw [val_main_v52_apply, val_main_v50_apply, val_main_v51_apply, val_main_cst_9_apply, val_main_cst_8_apply,
    Ideal.hostDivf_def, Ideal.ofBits_def, Ideal.ofBits_def, Ideal.ofBits_zero_f32, ofBits_10000,
    Ideal.div_coe (by norm_num : (10000 : ℝ) ≠ 0), zero_add]
  unfold Cert.Spec.edgeResult
  refine congrArg (fun s => s * ((1 / 10000 : ℝ) : EReal)) (Finset.sum_congr rfl (fun r _ => ?_))
  have eb : idx_main_v47 (idx_main_v48 (idx_main_v50 (ix1 j) r)) = ix1 j := by
    funext a; match a with | ⟨0, _⟩ => rfl
  rw [val_main_v49_apply, val_main_v46_apply, val_main_v48_apply, val_main_v47_apply, eb, Ideal.addf_def]
  refine congrArg (fun s => s + x7 (ix1 j)) (Finset.sum_congr rfl (fun k _ => ?_))
  have el : lidx_main_v46 (idx_main_v50 (ix1 j) r) k = ix2 r k := by
    funext a; match a with | ⟨0, _⟩ => rfl | ⟨1, _⟩ => rfl
  have er : ridx_main_v46 (idx_main_v50 (ix1 j) r) k = ix2 k j := by
    funext a; match a with | ⟨0, _⟩ => rfl | ⟨1, _⟩ => rfl
  rw [el, er, v45_apply x0 x1 x2 x3 x4 x5 hr hc]
  rfl

end Cert.ReferenceIdeal.RefValue

end
-- ==== Proof.PreDecode.lean ====
/-
  What the precondition says, decoded: every entry of the six float arguments is a real number (its absolute value is
  below +∞), and every entry of the two edge-endpoint arguments is, as a signed integer, at least 0 and below 10000.
-/
import proofs.«406582_j58411555225956_1_alg».proof.Pre_finite_inputs
import proofs.«406582_j58411555225956_1_alg».proof.Proof.Gen.Pre_finite_inputs
import proofs.«406582_j58411555225956_1_alg».proof.Proof.Inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.PreDecode

open Idealize.ShloMosaic Idealize.ShloMosaic.ValueIdx
open Cert.Inp Cert.Pre_finite_inputs

/-- The scalar shape has exactly one index. -/
instance : Subsingleton S_.Idx := ⟨fun a b => funext fun d => d.elim0⟩

/-- The f32 pattern with all-ones exponent, zero fraction and clear sign denotes +∞. -/
theorem inf_eq_top : Ideal.ofBits .f32 0x7F800000#32 = (⊤ : EReal) := by simp [Ideal.ofBits, Ideal.ieee]

/-- An extended real whose absolute value max(x, −x) is strictly below +∞ is neither +∞ nor −∞: it is a real number. -/
theorem real_of_abs_lt_inf (x : EReal)
    (h : FloatOps.cmpf (F := Ideal) (φ := .f32) .olt (FloatOps.hostAbsf (F := Ideal) (φ := .f32) x)
          (FloatOps.ofBits (F := Ideal) .f32 0x7F800000#32) = 1#1) :
    ∃ a : ℝ, x = (a : EReal) := by
  have h' : Ideal.cmp .olt (max x (-x)) (Ideal.ofBits .f32 0x7F800000#32) = 1#1 := h
  rw [inf_eq_top] at h'
  induction x using EReal.rec with
  | bot => simp [Ideal.cmp] at h'
  | top => simp [Ideal.cmp] at h'
  | coe a => exact ⟨a, rfl⟩

/-- The conjunction over all entries of "|x| < +∞" being one says that every entry of x is a real number. -/
theorem isReal_of_all {s : Shape} {axes : List (Fin s.rank)} (x : s.Idx → EReal)
    (hb : S_.BroadcastsInDim s (![] : Fin 0 → Fin s.rank)) (hr : s.ReducesTo axes S_) (h0 : 0 < S_.numel) (j : S_.Idx)
    (e : Host.reduce IntOp.andi (cmpf (F := Ideal) .olt (Host.absf (F := Ideal) (φ := .f32) x)
          (broadcastInDim s ![] hb (constant (F := Ideal) S_ .f32 0x7F800000#32))) (constantI S_ 1 1#1) hr h0 j = 1#1) :
    IsReal x := fun i =>
  real_of_abs_lt_inf (x i) (Host.reduce_andi_all _ _ hr h0 j e i)

/-- The conjunctions over all entries of "x ≥ 0" and of "x < 10000" (signed compares against the constant words) being
    one say that every entry of x, read as a signed integer, lies in [0, 10000). -/
theorem inRange_of_all (x : S640000.Idx → BitVec 32) (hb : S_.BroadcastsInDim S640000 (![] : Fin 0 → Fin S640000.rank))
    (hr : S640000.ReducesTo [0] S_) (h0 : 0 < S_.numel) (j : S_.Idx)
    (e1 : Host.reduce IntOp.andi (cmpi .sge x (broadcastInDim S640000 ![] hb (constantI S_ 32 0#32)))
            (constantI S_ 1 1#1) hr h0 j = 1#1)
    (e2 : Host.reduce IntOp.andi (cmpi .slt x (broadcastInDim S640000 ![] hb (constantI S_ 32 10000#32)))
            (constantI S_ 1 1#1) hr h0 j = 1#1) :
    InRange x := fun i => by
  have b1 : IntOp.cmpi .sge (x i) 0#32 = 1#1 := Host.reduce_andi_all _ _ hr h0 j e1 i
  have b2 : IntOp.cmpi .slt (x i) 10000#32 = 1#1 := Host.reduce_andi_all _ _ hr h0 j e2 i
  rw [IntOp.cmpi_sge] at b1
  rw [IntOp.cmpi_slt] at b2
  have z : (0#32 : BitVec 32).toInt = 0 := by decide
  have t : (10000#32 : BitVec 32).toInt = 10000 := by decide
  rw [z] at b1
  rw [t] at b2
  exact ⟨b1, b2⟩

/-- The printed precondition, all ones, gives the real-ness of the float arguments and the range of the endpoints. -/
theorem decode [Cert.Pre_finite_inputs.Facts]
    (a0 : S10000x128.Idx → EReal) (a1 : S10000.Idx → EReal) (a2 a3 : S640000.Idx → BitVec 32)
    (a4 : S128x16.Idx → EReal) (a5 : S16.Idx → EReal) (a6 : S16x8.Idx → EReal) (a7 : S8.Idx → EReal)
    (h : Cert.Pre_finite_inputs.fn (F := Ideal) a0 a1 a2 a3 a4 a5 a6 a7 = (fun _ => 1#1)) :
    IsReal a0 ∧ IsReal a1 ∧ InRange a2 ∧ InRange a3 ∧ IsReal a4 ∧ IsReal a5 ∧ IsReal a6 ∧ IsReal a7 := by
  -- the scalar result at its one index is a nine-fold conjunction of ten "for all entries" words
  have h0 := congrFun h ValueIdx.ix0
  dsimp only [Cert.Pre_finite_inputs.fn, Cert.Pre_finite_inputs.fn_part1, Cert.Pre_finite_inputs.fn_part2] at h0
  obtain ⟨h0, e3b⟩ := IntOp.andi_eq_one.1 h0
  obtain ⟨h0, e3a⟩ := IntOp.andi_eq_one.1 h0
  obtain ⟨h0, e2b⟩ := IntOp.andi_eq_one.1 h0
  obtain ⟨h0, e2a⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e1⟩ := IntOp.andi_eq_one.1 h0
  exact ⟨isReal_of_all a0 _ _ _ _ e0, isReal_of_all a1 _ _ _ _ e1, inRange_of_all a2 _ _ _ _ e2a e2b,
    inRange_of_all a3 _ _ _ _ e3a e3b, isReal_of_all a4 _ _ _ _ e4, isReal_of_all a5 _ _ _ _ e5,
    isReal_of_all a6 _ _ _ _ e6, isReal_of_all a7 _ _ _ _ e7⟩

end Cert.PreDecode

end
-- ==== Proof.ClaimsIdeal.lean ====
/-
  The value claim and the idealized programs' frames.  At the ideal instance, from memories that agree on the arguments
  and under the precondition (every float entry a real number, every edge endpoint a node number), the kernel program
  ends with the specification computed through the dense adjacency matrix and the reference with the edge-wise one; over
  real inputs the two are the same sum regrouped, so the results are equal entry by entry.
-/
import proofs.«406582_j58411555225956_1_alg».proof.Defs
import proofs.«406582_j58411555225956_1_alg».proof.Proof.KIRun
import proofs.«406582_j58411555225956_1_alg».proof.Proof.KIValue
import proofs.«406582_j58411555225956_1_alg».proof.Proof.RefValue
import proofs.«406582_j58411555225956_1_alg».proof.Proof.PreDecode
import proofs.«406582_j58411555225956_1_alg».proof.Proof.Spec
import proofs.«406582_j58411555225956_1_alg».proof.Proof.Gen.KernelIdeal
import proofs.«406582_j58411555225956_1_alg».proof.Proof.Gen.ReferenceIdeal
import proofs.«406582_j58411555225956_1_alg».proof.Proof.Gen.ReferenceIdeal.Run
import proofs.«406582_j58411555225956_1_alg».proof.Proof.Gen.ReferenceIdeal.Read
import proofs.«406582_j58411555225956_1_alg».proof.Proof.Gen.Pre_finite_inputs
import Idealize.ShloMosaic.PureOps.IdealRules

noncomputable section

namespace Cert.Proof.IdealClaims

open Idealize.ShloMosaic Idealize.ShloMosaic.TcCoe Idealize.SL.Sem
open Cert.Inp

/-- The idealized kernel program terminates, faults nowhere and leaves its arguments as launched. -/
theorem frame_ki : Cert.frame_KernelIdeal := fun m ρ _ => Cert.KernelIdeal.Hand.frame (F := Ideal) m ρ

/-- The idealized reference terminates and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's literal names the rational `1/10000`. -/
theorem preserves : Cert.preserves_Kernel_KernelIdeal :=
  IdealRules.named_const.statement Cert.KernelIdeal.κ "inv_10000" .f32 0x38D1B717#32 ((1 / 10000 : ℝ) : EReal) rfl

/-- Both idealized programs end with the same result: the dense form on one side, the edge-wise form on the other, equal
    over real inputs. -/
theorem algebraic : Cert.algebraic_KernelIdeal_ReferenceIdeal := by
  intro m ρ m' ρ' hpre hagree
  refine ⟨fun c => Cert.KernelIdeal.Hand.W5 (F := Ideal) m ρ c (Proc.devRef .tc Cert.KernelIdeal.main_v39),
    Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, hr, hc, h4, h5, h6, h7⟩ := Cert.PreDecode.decode _ _ _ _ _ _ _ _ (hpre c)
  rw [Cert.ReferenceIdeal.Read.val_main_v52_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  refine (Cert.ReferenceIdeal.RefValue.result_eq _ _ _ _ _ _ _ _ hr hc).trans ?_
  refine Eq.trans ?_ (Cert.KernelIdeal.Value.result_eq m ρ c hr hc).symm
  funext i
  exact (Cert.Spec.denseResult_eq_edgeResult _ _ _ _ _ _ _ _
    (fun r => h1 (ValueIdx.ix1 r)) (fun r k => h0 (ValueIdx.ix2 r k)) (fun k j => h4 (ValueIdx.ix2 k j))
    (fun j => h5 (ValueIdx.ix1 j)) (fun k j => h6 (ValueIdx.ix2 k j)) (fun j => h7 (ValueIdx.ix1 j)) (i 0)).symm

end Cert.Proof.IdealClaims

end
-- ==== Proof.lean ====
/-
  A two-layer graph convolution with mean pooling, certified equal over the reals to its edge-wise reference.

  The kernel program builds the dense 10000×10000 adjacency matrix `A` from the edge list by a scatter-add of the edge
  values `nrm(row e) · nrm(col e)`, then runs two tiled matrix-product regions over 25 tiles of 400 rows of `A`: the first
  computes `H = max((A·X)·W1 + b1, 0)`, the second keeps a running sum of the column sums of `(A·H)·W2 + b2` over the
  tiles and scales it by `1/10000` at the last tile.  The reference computes each product edge by edge — for every node
  the sum over its outgoing edges of the edge value times the operand's row at the edge's target — and takes the mean
  over the nodes.  Over real inputs with edge endpoints in range the two are the same finite sums regrouped
  (distributivity, one nonzero term per edge in the sum over columns, the rows summed tile by tile).

  The frames: each program terminates, faults nowhere and leaves its arguments unchanged — the two kernel programs by
  the run of their five segments (host operations, region, conversion, region, reshape), the reference by its run.
  The one rewrite of the idealization names the kernel's literal `f32(1/10000)` as the rational `1/10000`.
  The precondition adds to finiteness that every edge endpoint is a node number (0 ≤ · < 10000): outside it the
  reference's segment sum indexes out of range.
-/
import proofs.«406582_j58411555225956_1_alg».proof.Defs
import proofs.«406582_j58411555225956_1_alg».proof.Proof.KRun
import proofs.«406582_j58411555225956_1_alg».proof.Proof.ClaimsIdeal
import proofs.«406582_j58411555225956_1_alg».proof.Proof.Gen.Kernel
import proofs.«406582_j58411555225956_1_alg».proof.Proof.Gen.KernelIdeal
import proofs.«406582_j58411555225956_1_alg».proof.Proof.Gen.ReferenceIdeal
import proofs.«406582_j58411555225956_1_alg».proof.Proof.Gen.ReferenceIdeal.Run
import proofs.«406582_j58411555225956_1_alg».proof.Proof.Gen.ReferenceIdeal.Read
import proofs.«406582_j58411555225956_1_alg».proof.Proof.Gen.Pre_finite_inputs
import Idealize.ShloMosaic.Adequacy
import Idealize.ShloMosaic.Init

noncomputable section

namespace Cert.Proof

open Idealize.ShloMosaic Idealize.SL.Sem

/-- The word-level kernel program terminates, faults nowhere and leaves its arguments as launched. -/
theorem frame_k : Cert.frame_Kernel := fun m ρ _ => Cert.Kernel.Hand.frame (F := Bits) m ρ

theorem claim : Cert.Claim :=
  ⟨Cert.Kernel.Gen.facts, Cert.KernelIdeal.Gen.facts, Cert.ReferenceIdeal.Gen.facts, Cert.Pre_finite_inputs.Gen.facts,
    frame_k, IdealClaims.frame_ki, IdealClaims.frame_ri, IdealClaims.preserves, IdealClaims.algebraic⟩

end Cert.Proof

end
